-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x8 : Shape := ⟨2, ![50000, 8]⟩
abbrev S50000x4 : Shape := ⟨2, ![50000, 4]⟩
abbrev S2x800000 : Shape := ⟨2, ![2, 800000]⟩
abbrev S800000x12 : Shape := ⟨2, ![800000, 12]⟩
abbrev S50000 : Shape := ⟨1, ![50000]⟩
abbrev S12x64 : Shape := ⟨2, ![12, 64]⟩
abbrev S64 : Shape := ⟨1, ![64]⟩
abbrev S2x64x64 : Shape := ⟨3, ![2, 64, 64]⟩
abbrev S2x12x64 : Shape := ⟨3, ![2, 12, 64]⟩
abbrev S2x64 : Shape := ⟨2, ![2, 64]⟩
abbrev S64x1 : Shape := ⟨2, ![64, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x8 : S_.BroadcastsInDim S50000x8 (![] : Fin 0 → Fin S50000x8.rank)
  reducesTo_S50000x8_S_d0_1 : S50000x8.ReducesTo [0, 1] S_
  h_S_ : 0 < S_.numel
  bcast_S_S50000x4 : S_.BroadcastsInDim S50000x4 (![] : Fin 0 → Fin S50000x4.rank)
  reducesTo_S50000x4_S_d0_1 : S50000x4.ReducesTo [0, 1] S_
  bcast_S_S800000x12 : S_.BroadcastsInDim S800000x12 (![] : Fin 0 → Fin S800000x12.rank)
  reducesTo_S800000x12_S_d0_1 : S800000x12.ReducesTo [0, 1] S_
  bcast_S_S12x64 : S_.BroadcastsInDim S12x64 (![] : Fin 0 → Fin S12x64.rank)
  reducesTo_S12x64_S_d0_1 : S12x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x12x64 : S_.BroadcastsInDim S2x12x64 (![] : Fin 0 → Fin S2x12x64.rank)
  reducesTo_S2x12x64_S_d0_1_2 : S2x12x64.ReducesTo [0, 1, 2] S_
  bcast_S_S2x64 : S_.BroadcastsInDim S2x64 (![] : Fin 0 → Fin S2x64.rank)
  reducesTo_S2x64_S_d0_1 : S2x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg2 : IVec S2x800000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : IVec S1x800000 32 := (extractStridedSlice S1x800000 ![0, 0] · slices_S2x800000_S1x800000_0_0) main_arg2
  let main_v55 : IVec S800000 32 := shapeCast S800000 main_v54 shapeCasts_S1x800000_S800000
  let main_c_20 : IVec S_ 32 := constantI S_ 32 0#32
  let main_v56 : IVec S800000 32 := broadcastInDim S800000 ![] bcast_S_S800000 main_c_20
  let main_v57 : IVec S800000 1 := cmpi .sge main_v55 main_v56
  let main_v58 : IVec S1x800000 32 := (extractStridedSlice S1x800000 ![0, 0] · slices_S2x800000_S1x800000_0_0) main_arg2
  let main_v59 : IVec S800000 32 := shapeCast S800000 main_v58 shapeCasts_S1x800000_S800000
  let main_c_21 : IVec S_ 32 := constantI S_ 32 50000#32
  let main_v60 : IVec S800000 32 := broadcastInDim S800000 ![] bcast_S_S800000 main_c_21
  let main_v61 : IVec S800000 1 := cmpi .slt main_v59 main_v60
  let main_v62 : IVec S800000 1 := andi main_v57 main_v61
  let main_c_22 : IVec S_ 1 := constantI S_ 1 1#1
  let main_v63 : IVec S_ 1 := (fun x v => Host.reduce IntOp.andi x v reducesTo_S800000_S_d0 h_S_) main_v62 main_c_22
  let main_v64 : IVec S_ 1 := andi main_v53 main_v63
  main_v64

def fn_part2 {F : FTy → Type} [FloatOps F] (main_arg2 : IVec S2x800000 32) (main_arg9 : FVec F S2x12x64 .f32) (main_arg10 : FVec F S2x64 .f32) (main_arg11 : FVec F S64x1 .f32) (main_arg12 : FVec F S1 .f32) (main_v33 : IVec S_ 1) : IVec S_ 1 :=
  let main_v34 : FVec F S2x12x64 .f32 := Host.absf main_arg9
  let main_cst_12 : FVec F S_ .f32 := constant S_ .f32 0x7F800000#32
  let main_v35 : FVec F S2x12x64 .f32 := broadcastInDim S2x12x64 ![] bcast_S_S2x12x64 main_cst_12
  let main_v36 : IVec S2x12x64 1 := cmpf .olt main_v34 main_v35
  let main_c_13 : IVec S_ 1 := constantI S_ 1 1#1
  let main_v37 : IVec S_ 1 := (fun x v => Host.reduce IntOp.andi x v reducesTo_S2x12x64_S_d0_1_2 h_S_) main_v36 main_c_13
  let main_v38 : IVec S_ 1 := andi main_v33 main_v37
  let main_v39 : FVec F S2x64 .f32 := Host.absf main_arg10
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg2 main_v48 main_v49 main_v50

def fn_part1 {F : FTy → Type} [FloatOps F] (main_arg2 : IVec S2x800000 32) (main_arg6 : FVec F S64 .f32) (main_arg7 : FVec F S2x64x64 .f32) (main_arg8 : FVec F S2x64x64 .f32) (main_arg9 : FVec F S2x12x64 .f32) (main_arg10 : FVec F S2x64 .f32) (main_arg11 : FVec F S64x1 .f32) (main_arg12 : FVec F S1 .f32) (main_v13 : IVec S_ 1) (main_v16 : IVec S12x64 1) : IVec S_ 1 :=
  let main_c_5 : IVec S_ 1 := constantI S_ 1 1#1
  let main_v17 : IVec S_ 1 := (fun x v => Host.reduce IntOp.andi x v reducesTo_S12x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x64x64 .f32 := Host.absf main_arg7
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64x64 .f32 := Host.absf main_arg8
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg2 main_arg9 main_arg10 main_arg11 main_arg12 main_v33

def fn {F : FTy → Type} [FloatOps F] (main_arg0 : FVec F S50000x8 .f32) (main_arg1 : FVec F S50000x4 .f32) (main_arg2 : IVec S2x800000 32) (main_arg3 : FVec F S800000x12 .f32) (main_arg4 : IVec S50000 32) (main_arg5 : FVec F S12x64 .f32) (main_arg6 : FVec F S64 .f32) (main_arg7 : FVec F S2x64x64 .f32) (main_arg8 : FVec F S2x64x64 .f32) (main_arg9 : FVec F S2x12x64 .f32) (main_arg10 : FVec F S2x64 .f32) (main_arg11 : FVec F S64x1 .f32) (main_arg12 : FVec F S1 .f32) : IVec S_ 1 :=
  let main_v0 : FVec F S50000x8 .f32 := Host.absf main_arg0
  let main_cst : FVec F S_ .f32 := constant S_ .f32 0x7F800000#32
  let main_v1 : FVec F S50000x8 .f32 := broadcastInDim S50000x8 ![] bcast_S_S50000x8 main_cst
  let main_v2 : IVec S50000x8 1 := cmpf .olt main_v0 main_v1
  let main_c : IVec S_ 1 := constantI S_ 1 1#1
  let main_v3 : IVec S_ 1 := (fun x v => Host.reduce IntOp.andi x v reducesTo_S50000x8_S_d0_1 h_S_) main_v2 main_c
  let main_v4 : FVec F S50000x4 .f32 := Host.absf main_arg1
  let main_cst_0 : FVec F S_ .f32 := constant S_ .f32 0x7F800000#32
  let main_v5 : FVec F S50000x4 .f32 := broadcastInDim S50000x4 ![] bcast_S_S50000x4 main_cst_0
  let main_v6 : IVec S50000x4 1 := cmpf .olt main_v4 main_v5
  let main_c_1 : IVec S_ 1 := constantI S_ 1 1#1
  let main_v7 : IVec S_ 1 := (fun x v => Host.reduce IntOp.andi x v reducesTo_S50000x4_S_d0_1 h_S_) main_v6 main_c_1
  let main_v8 : IVec S_ 1 := andi main_v3 main_v7
  let main_v9 : FVec F S800000x12 .f32 := Host.absf main_arg3
  let main_cst_2 : FVec F S_ .f32 := constant S_ .f32 0x7F800000#32
  let main_v10 : FVec F S800000x12 .f32 := broadcastInDim S800000x12 ![] bcast_S_S800000x12 main_cst_2
  let main_v11 : IVec S800000x12 1 := cmpf .olt main_v9 main_v10
  let main_c_3 : IVec S_ 1 := constantI S_ 1 1#1
  let main_v12 : IVec S_ 1 := (fun x v => Host.reduce IntOp.andi x v reducesTo_S800000x12_S_d0_1 h_S_) main_v11 main_c_3
  let main_v13 : IVec S_ 1 := andi main_v8 main_v12
  let main_v14 : FVec F S12x64 .f32 := Host.absf main_arg5
  let main_cst_4 : FVec F S_ .f32 := constant S_ .f32 0x7F800000#32
  let main_v15 : FVec F S12x64 .f32 := broadcastInDim S12x64 ![] bcast_S_S12x64 main_cst_4
  let main_v16 : IVec S12x64 1 := cmpf .olt main_v14 main_v15
  fn_part1 (F := F) main_arg2 main_arg6 main_arg7 main_arg8 main_arg9 main_arg10 main_arg11 main_arg12 main_v13 main_v16
-- ==== Kernel.lean ====
abbrev S50000x8 : Shape := ⟨2, ![50000, 8]⟩
abbrev S50000x4 : Shape := ⟨2, ![50000, 4]⟩
abbrev S2x800000 : Shape := ⟨2, ![2, 800000]⟩
abbrev S800000x12 : Shape := ⟨2, ![800000, 12]⟩
abbrev S50000 : Shape := ⟨1, ![50000]⟩
abbrev S12x64 : Shape := ⟨2, ![12, 64]⟩
abbrev S64 : Shape := ⟨1, ![64]⟩
abbrev S2x64x64 : Shape := ⟨3, ![2, 64, 64]⟩
abbrev S2x12x64 : Shape := ⟨3, ![2, 12, 64]⟩
abbrev S2x64 : Shape := ⟨2, ![2, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x12 : Shape := ⟨2, ![50000, 12]⟩
abbrev S1x64 : Shape := ⟨2, ![1, 64]⟩
abbrev S50000x64 : Shape := ⟨2, ![50000, 64]⟩
abbrev S5000x12 : Shape := ⟨2, ![5000, 12]⟩
abbrev S5000x64 : Shape := ⟨2, ![5000, 64]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S1x64x64 : Shape := ⟨3, ![1, 64, 64]⟩
abbrev S64x64 : Shape := ⟨2, ![64, 64]⟩
abbrev S1x12x64 : Shape := ⟨3, ![1, 12, 64]⟩
abbrev S8000x64 : Shape := ⟨2, ![8000, 64]⟩
abbrev S8000x12 : Shape := ⟨2, ![8000, 12]⟩
abbrev S50000x1 : Shape := ⟨2, ![50000, 1]⟩
abbrev S5000x1 : Shape := ⟨2, ![5000, 1]⟩
abbrev S128x1 : Shape := ⟨2, ![128, 1]⟩

abbrev nBuf : Space → Nat
  | .hbm => 112
  | .vmem => 44
  | .smem => 0
  | _ => 0

abbrev bufTy : (tb : Table) → Fin (tcTables nBuf tb) → BufTy
  | .hbm, ⟨0, _⟩ => ⟨S50000x8, .f32⟩
  | .hbm, ⟨1, _⟩ => ⟨S50000x4, .f32⟩
  | .hbm, ⟨2, _⟩ => ⟨S2x800000, .i32⟩
  | .hbm, ⟨3, _⟩ => ⟨S800000x12, .f32⟩
  | .hbm, ⟨4, _⟩ => ⟨S50000, .i32⟩
  | .hbm, ⟨5, _⟩ => ⟨S12x64, .f32⟩
  | .hbm, ⟨6, _⟩ => ⟨S64, .f32⟩
  | .hbm, ⟨7, _⟩ => ⟨S2x64x64, .f32⟩
  | .hbm, ⟨8, _⟩ => ⟨S2x64x64, .f32⟩
  | .hbm, ⟨9, _⟩ => ⟨S2x12x64, .f32⟩
  | .hbm, ⟨10, _⟩ => ⟨S2x64, .f32⟩
  | .hbm, ⟨11, _⟩ => ⟨S64x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x12, .f32⟩
  | .hbm, ⟨18, _⟩ => ⟨S1x64, .f32⟩
  | .hbm, ⟨19, _⟩ => ⟨S50000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S1, .i32⟩
  | .hbm, ⟨29, _⟩ => ⟨S_, .i32⟩
  | .hbm, ⟨30, _⟩ => ⟨S800000x1, .i32⟩
  | .hbm, ⟨31, _⟩ => ⟨S800000x1, .i1⟩
  | .hbm, ⟨32, _⟩ => ⟨S1x1, .i32⟩
  | .hbm, ⟨33, _⟩ => ⟨S800000x1, .i32⟩
  | .hbm, ⟨34, _⟩ => ⟨S800000x1, .i1⟩
  | .hbm, ⟨35, _⟩ => ⟨S800000x1, .i1⟩
  | .hbm, ⟨36, _⟩ => ⟨S_, .i1⟩
  | .hbm, ⟨37, _⟩ => ⟨S800000, .i1⟩
  | .hbm, ⟨38, _⟩ => ⟨S800000x64, .f32⟩
  | .hbm, ⟨39, _⟩ => ⟨S800000x64, .i1⟩
  | .hbm, ⟨40, _⟩ => ⟨S_, .f32⟩
  | .hbm, ⟨41, _⟩ => ⟨S800000x64, .f32⟩
  | .hbm, ⟨42, _⟩ => ⟨S800000x64, .f32⟩
  | .hbm, ⟨43, _⟩ => ⟨S1x64x64, .f32⟩
  | .hbm, ⟨44, _⟩ => ⟨S64x64, .f32⟩
  | .hbm, ⟨45, _⟩ => ⟨S1x12x64, .f32⟩
  | .hbm, ⟨46, _⟩ => ⟨S12x64, .f32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S1x64x64, .f32⟩
  | .hbm, ⟨53, _⟩ => ⟨S64x64, .f32⟩
  | .hbm, ⟨54, _⟩ => ⟨S1x64, .f32⟩
  | .hbm, ⟨55, _⟩ => ⟨S64, .f32⟩
  | .hbm, ⟨56, _⟩ => ⟨S1x64, .f32⟩
  | .hbm, ⟨57, _⟩ => ⟨S50000x64, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S1, .i32⟩
  | .hbm, ⟨67, _⟩ => ⟨S_, .i32⟩
  | .hbm, ⟨68, _⟩ => ⟨S800000x1, .i32⟩
  | .hbm, ⟨69, _⟩ => ⟨S800000x1, .i1⟩
  | .hbm, ⟨70, _⟩ => ⟨S1x1, .i32⟩
  | .hbm, ⟨71, _⟩ => ⟨S800000x1, .i32⟩
  | .hbm, ⟨72, _⟩ => ⟨S800000x1, .i1⟩
  | .hbm, ⟨73, _⟩ => ⟨S800000x1, .i1⟩
  | .hbm, ⟨74, _⟩ => ⟨S_, .i1⟩
  | .hbm, ⟨75, _⟩ => ⟨S800000, .i1⟩
  | .hbm, ⟨76, _⟩ => ⟨S800000x64, .f32⟩
  | .hbm, ⟨77, _⟩ => ⟨S800000x64, .i1⟩
  | .hbm, ⟨78, _⟩ => ⟨S_, .f32⟩
  | .hbm, ⟨79, _⟩ => ⟨S800000x64, .f32⟩
  | .hbm, ⟨80, _⟩ => ⟨S800000x64, .f32⟩
  | .hbm, ⟨81, _⟩ => ⟨S1x64x64, .f32⟩
  | .hbm, ⟨82, _⟩ => ⟨S64x64, .f32⟩
  | .hbm, ⟨83, _⟩ => ⟨S1x12x64, .f32⟩
  | .hbm, ⟨84, _⟩ => ⟨S12x64, .f32⟩
  | .hbm, ⟨85, _⟩ => ⟨S800000x64, .f32⟩
  | .hbm, ⟨86, _⟩ => ⟨S_, .f32⟩
  | .hbm, ⟨87, _⟩ => ⟨S50000x64, .f32⟩
  | .hbm, ⟨88, _⟩ => ⟨S800000x1, .i32⟩
  | .hbm, ⟨89, _⟩ => ⟨S50000x64, .f32⟩
  | .hbm, ⟨90, _⟩ => ⟨S1x64x64, .f32⟩
  | .hbm, ⟨91, _⟩ => ⟨S64x64, .f32⟩
  | .hbm, ⟨92, _⟩ => ⟨S1x64, .f32⟩
  | .hbm, ⟨93, _⟩ => ⟨S64, .f32⟩
  | .hbm, ⟨94, _⟩ => ⟨S1x64, .f32⟩
  | .hbm, ⟨95, _⟩ => ⟨S50000x64, .f32⟩
  | .hbm, ⟨96, _⟩ => ⟨S1x1, .f32⟩
  | .hbm, ⟨97, _⟩ => ⟨S50000x1, .f32⟩
  | .hbm, ⟨98, _⟩ => ⟨S_, .f32⟩
  | .hbm, ⟨99, _⟩ => ⟨S128x1, .f32⟩
  | .hbm, ⟨100, _⟩ => ⟨S50000x1, .i32⟩
  | .hbm, ⟨101, _⟩ => ⟨S128x1, .f32⟩
  | .hbm, ⟨102, _⟩ => ⟨S_, .f32⟩
  | .hbm, ⟨103, _⟩ => ⟨S50000x1, .f32⟩
  | .hbm, ⟨104, _⟩ => ⟨S_, .f32⟩
  | .hbm, ⟨105, _⟩ => ⟨S128x1, .f32⟩
  | .hbm, ⟨106, _⟩ => ⟨S50000x1, .i32⟩
  | .hbm, ⟨107, _⟩ => ⟨S128x1, .f32⟩
  | .hbm, ⟨108, _⟩ => ⟨S_, .f32⟩
  | .hbm, ⟨109, _⟩ => ⟨S128x1, .f32⟩
  | .hbm, ⟨110, _⟩ => ⟨S128x1, .f32⟩
  | .hbm, ⟨111, _⟩ => ⟨S128x1, .f32⟩
  | .local _ .vmem, ⟨0, _⟩ => ⟨S5000x12, .f32⟩
  | .local _ .vmem, ⟨1, _⟩ => ⟨S5000x12, .f32⟩
  | .local _ .vmem, ⟨2, _⟩ => ⟨S12x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S8000x64, .f32⟩
  | .local _ .vmem, ⟨7, _⟩ => ⟨S8000x64, .f32⟩
  | .local _ .vmem, ⟨8, _⟩ => ⟨S8000x12, .f32⟩
  | .local _ .vmem, ⟨9, _⟩ => ⟨S8000x12, .f32⟩
  | .local _ .vmem, ⟨10, _⟩ => ⟨S64x64, .f32⟩
  | .local _ .vmem, ⟨11, _⟩ => ⟨S12x64, .f32⟩
  | .local _ .vmem, ⟨12, _⟩ => ⟨S8000x64, .f32⟩
  | .local _ .vmem, ⟨13, _⟩ => ⟨S8000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S8000x64, .f32⟩
  | .local _ .vmem, ⟨23, _⟩ => ⟨S8000x64, .f32⟩
  | .local _ .vmem, ⟨24, _⟩ => ⟨S8000x12, .f32⟩
  | .local _ .vmem, ⟨25, _⟩ => ⟨S8000x12, .f32⟩
  | .local _ .vmem, ⟨26, _⟩ => ⟨S64x64, .f32⟩
  | .local _ .vmem, ⟨27, _⟩ => ⟨S12x64, .f32⟩
  | .local _ .vmem, ⟨28, _⟩ => ⟨S8000x64, .f32⟩
  | .local _ .vmem, ⟨29, _⟩ => ⟨S8000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S5000x64, .f32⟩
  | .local _ .vmem, ⟨34, _⟩ => ⟨S5000x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x1, .f32⟩
  | .local _ .vmem, ⟨41, _⟩ => ⟨S1x1, .f32⟩
  | .local _ .vmem, ⟨42, _⟩ => ⟨S5000x1, .f32⟩
  | .local _ .vmem, ⟨43, _⟩ => ⟨S5000x1, .f32⟩
  | _, _ => ⟨S50000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_cst_0 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_cst_1 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_cst_2 : Ref sig .tc := ⟨.hbm, 102, rfl⟩
abbrev main_v42 : Ref sig .tc := ⟨.hbm, 103, rfl⟩
abbrev main_cst_3 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_cst_4 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x12 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S12x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x12 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S12x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S50000x8_S50000x4_S50000x12_d1 : Shape.Concatenates [S50000x8, S50000x4] S50000x12 1
  shapeCasts_S64_S1x64 : S64.ShapeCasts S1x64
  inb_S5000x12_S5000x12_0_0 : ∀ a, (![0, 0] : Fin 2 → Nat) a + S5000x12.size a ≤ S5000x12.size a
  h_S5000x12 : 0 < S5000x12.numel
  shapeCasts_S5000x12_S5000x12 : S5000x12.ShapeCasts S5000x12
  bitsLt_bf16_f32 : FTy.bits .bf16 < FTy.bits .f32
  inb_S12x64_S12x64_0_0 : ∀ a, (![0, 0] : Fin 2 → Nat) a + S12x64.size a ≤ S12x64.size a
  h_S12x64 : 0 < S12x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S2x64x64_S1x64x64_0_0_0 : S2x64x64.Slices ![0, 0, 0] S1x64x64
  shapeCasts_S1x64x64_S64x64 : S1x64x64.ShapeCasts S64x64
  slices_S2x12x64_S1x12x64_0_0_0 : S2x12x64.Slices ![0, 0, 0] S1x12x64
  shapeCasts_S1x12x64_S12x64 : S1x12x64.ShapeCasts S12x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x12_S8000x12_0_0 : ∀ a, (![0, 0] : Fin 2 → Nat) a + S8000x12.size a ≤ S8000x12.size a
  h_S8000x12 : 0 < S8000x12.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S12x64_S12x64 : S12x64.ShapeCasts S12x64
  bcast_S_S50000x64 : S_.BroadcastsInDim S50000x64 (![] : Fin 0 → Fin S50000x64.rank)
  slices_S2x64_S1x64_0_0 : S2x64.Slices ![0, 0] S1x64
  shapeCasts_S1x64_S64 : S1x64.ShapeCasts S64
  shapeCasts_S5000x64_S5000x64 : S5000x64.ShapeCasts S5000x64
  slices_S2x64x64_S1x64x64_1_0_0 : S2x64x64.Slices ![1, 0, 0] S1x64x64
  slices_S2x12x64_S1x12x64_1_0_0 : S2x12x64.Slices ![1, 0, 0] S1x12x64
  slices_S2x64_S1x64_1_0 : S2x64.Slices ![1, 0] S1x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S128x1 : S_.BroadcastsInDim S128x1 (![] : Fin 0 → Fin S128x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  dot_S5000x12_S12x64_S5000x64_1_0_0_1_n_n_wf : DotDims.WF S5000x12 S12x64 S5000x64 [1] [0] [0] [1] [] []
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  dot_S8000x12_S12x64_S8000x64_1_0_0_1_n_n_wf : DotDims.WF S8000x12 S12x64 S8000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  scatter_S128x1_S50000x1_S50000x1_1_0_0_1_wf : ScatterDims.WF S128x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x12.size a ≤ S50000x12.size a
  hwx0_0 : ∀ i : grid0.Coords, EltTy.bits .f32 = 32 ∨ (Rect.block (s := S50000x12) S5000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x64.size a ≤ S12x64.size a
  hwx0_1 : ∀ i : grid0.Coords, EltTy.bits .f32 = 32 ∨ (Rect.block (s := S12x64) S12x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x12.size a ≤ S800000x12.size a
  hwx1_1 : ∀ i : grid1.Coords, EltTy.bits .f32 = 32 ∨ (Rect.block (s := S800000x12) S8000x12.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S12x64.size a ≤ S12x64.size a
  hwx1_3 : ∀ i : grid1.Coords, EltTy.bits .f32 = 32 ∨ (Rect.block (s := S12x64) S12x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x64.size a ≤ S800000x64.size a
  hwx1_4 : ∀ i : grid1.Coords, EltTy.bits .f32 = 32 ∨ (Rect.block (s := S800000x64) S8000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S800000x64.size a
  hwx3_0 : ∀ i : grid3.Coords, EltTy.bits .f32 = 32 ∨ (Rect.block (s := S800000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x12.size a ≤ S800000x12.size a
  hwx3_1 : ∀ i : grid3.Coords, EltTy.bits .f32 = 32 ∨ (Rect.block (s := S800000x12) S8000x12.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S12x64.size a ≤ S12x64.size a
  hwx3_3 : ∀ i : grid3.Coords, EltTy.bits .f32 = 32 ∨ (Rect.block (s := S12x64) S12x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x64.size a ≤ S800000x64.size a
  hwx3_4 : ∀ i : grid3.Coords, EltTy.bits .f32 = 32 ∨ (Rect.block (s := S800000x64) S8000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x1.size a ≤ S64x1.size a
  hwx5_1 : ∀ i : grid5.Coords, EltTy.bits .f32 = 32 ∨ (Rect.block (s := S64x1) S64x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S50000x1.size a
  hwx5_3 : ∀ i : grid5.Coords, EltTy.bits .f32 = 32 ∨ (Rect.block (s := S50000x1) S5000x1.size (cc5_transform_3 i) (hinb5_3 i)).WholeWords (EltTy.packing .f32)

variable [Facts₀]

def dot_S5000x12_S12x64_S5000x64_1_0_0_1_n_n : DotDims S5000x12 S12x64 S5000x64 where
  lhsContracting := [1]
  rhsContracting := [0]
  lhsNonContracting := [0]
  rhsNonContracting := [1]
  lhsBatch := []
  rhsBatch := []
  wf := dot_S5000x12_S12x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x12_S12x64_S8000x64_1_0_0_1_n_n : DotDims S8000x12 S12x64 S8000x64 where
  lhsContracting := [1]
  rhsContracting := [0]
  lhsNonContracting := [0]
  rhsNonContracting := [1]
  lhsBatch := []
  rhsBatch := []
  wf := dot_S8000x12_S12x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf

abbrev win0_0 : Pipeline.Window sig grid0 :=
  Pipeline.Window.ofSpec (Memref.whole main_v4) S5000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S12x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S8000x12.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S12x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S8000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v22) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S8000x12.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S12x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v27) S8000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v21) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v35) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v36) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v36) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S64x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v37) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v38) S5000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x8 : Shape := ⟨2, ![50000, 8]⟩
abbrev S50000x4 : Shape := ⟨2, ![50000, 4]⟩
abbrev S2x800000 : Shape := ⟨2, ![2, 800000]⟩
abbrev S800000x12 : Shape := ⟨2, ![800000, 12]⟩
abbrev S50000 : Shape := ⟨1, ![50000]⟩
abbrev S12x64 : Shape := ⟨2, ![12, 64]⟩
abbrev S64 : Shape := ⟨1, ![64]⟩
abbrev S2x64x64 : Shape := ⟨3, ![2, 64, 64]⟩
abbrev S2x12x64 : Shape := ⟨3, ![2, 12, 64]⟩
abbrev S2x64 : Shape := ⟨2, ![2, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S50000x12 : Shape := ⟨2, ![50000, 12]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x12x64 : Shape := ⟨3, ![1, 12, 64]⟩
abbrev S50000x1 : Shape := ⟨2, ![50000, 1]⟩
abbrev S1x1 : Shape := ⟨2, ![1, 1]⟩
abbrev S128x1 : Shape := ⟨2, ![128, 1]⟩

abbrev nBuf : Space → Nat
  | .hbm => 122
  | .vmem => 0
  | .smem => 0
  | _ => 0

abbrev bufTy : (tb : Table) → Fin (tcTables nBuf tb) → BufTy
  | .hbm, ⟨0, _⟩ => ⟨S50000x8, .f32⟩
  | .hbm, ⟨1, _⟩ => ⟨S50000x4, .f32⟩
  | .hbm, ⟨2, _⟩ => ⟨S2x800000, .i32⟩
  | .hbm, ⟨3, _⟩ => ⟨S800000x12, .f32⟩
  | .hbm, ⟨4, _⟩ => ⟨S50000, .i32⟩
  | .hbm, ⟨5, _⟩ => ⟨S12x64, .f32⟩
  | .hbm, ⟨6, _⟩ => ⟨S64, .f32⟩
  | .hbm, ⟨7, _⟩ => ⟨S2x64x64, .f32⟩
  | .hbm, ⟨8, _⟩ => ⟨S2x64x64, .f32⟩
  | .hbm, ⟨9, _⟩ => ⟨S2x12x64, .f32⟩
  | .hbm, ⟨10, _⟩ => ⟨S2x64, .f32⟩
  | .hbm, ⟨11, _⟩ => ⟨S64x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x12, .f32⟩
  | .hbm, ⟨18, _⟩ => ⟨S50000x64, .f32⟩
  | .hbm, ⟨19, _⟩ => ⟨S1x64, .f32⟩
  | .hbm, ⟨20, _⟩ => ⟨S50000x64, .f32⟩
  | .hbm, ⟨21, _⟩ => ⟨S50000x64, .f32⟩
  | .hbm, ⟨22, _⟩ => ⟨S_, .f32⟩
  | .hbm, ⟨23, _⟩ => ⟨S_, .f32⟩
  | .hbm, ⟨24, _⟩ => ⟨S50000x64, .f32⟩
  | .hbm, ⟨25, _⟩ => ⟨S50000x64, .i1⟩
  | .hbm, ⟨26, _⟩ => ⟨S_, .f32⟩
  | .hbm, ⟨27, _⟩ => ⟨S50000x64, .f32⟩
  | .hbm, ⟨28, _⟩ => ⟨S50000x64, .f32⟩
  | .hbm, ⟨29, _⟩ => ⟨S50000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S1x64x64, .f32⟩
  | .hbm, ⟨40, _⟩ => ⟨S64x64, .f32⟩
  | .hbm, ⟨41, _⟩ => ⟨S800000x64, .f32⟩
  | .hbm, ⟨42, _⟩ => ⟨S1x12x64, .f32⟩
  | .hbm, ⟨43, _⟩ => ⟨S12x64, .f32⟩
  | .hbm, ⟨44, _⟩ => ⟨S800000x64, .f32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S1x64x64, .f32⟩
  | .hbm, ⟨51, _⟩ => ⟨S64x64, .f32⟩
  | .hbm, ⟨52, _⟩ => ⟨S50000x64, .f32⟩
  | .hbm, ⟨53, _⟩ => ⟨S50000x64, .f32⟩
  | .hbm, ⟨54, _⟩ => ⟨S1x64, .f32⟩
  | .hbm, ⟨55, _⟩ => ⟨S64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S_, .f32⟩
  | .hbm, ⟨61, _⟩ => ⟨S50000x64, .f32⟩
  | .hbm, ⟨62, _⟩ => ⟨S50000x64, .i1⟩
  | .hbm, ⟨63, _⟩ => ⟨S_, .f32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x64, .f32⟩
  | .hbm, ⟨76, _⟩ => ⟨S1x64x64, .f32⟩
  | .hbm, ⟨77, _⟩ => ⟨S64x64, .f32⟩
  | .hbm, ⟨78, _⟩ => ⟨S800000x64, .f32⟩
  | .hbm, ⟨79, _⟩ => ⟨S1x12x64, .f32⟩
  | .hbm, ⟨80, _⟩ => ⟨S12x64, .f32⟩
  | .hbm, ⟨81, _⟩ => ⟨S800000x64, .f32⟩
  | .hbm, ⟨82, _⟩ => ⟨S800000x64, .f32⟩
  | .hbm, ⟨83, _⟩ => ⟨S_, .f32⟩
  | .hbm, ⟨84, _⟩ => ⟨S50000x64, .f32⟩
  | .hbm, ⟨85, _⟩ => ⟨S800000x1, .i32⟩
  | .hbm, ⟨86, _⟩ => ⟨S50000x64, .f32⟩
  | .hbm, ⟨87, _⟩ => ⟨S1x64x64, .f32⟩
  | .hbm, ⟨88, _⟩ => ⟨S64x64, .f32⟩
  | .hbm, ⟨89, _⟩ => ⟨S50000x64, .f32⟩
  | .hbm, ⟨90, _⟩ => ⟨S50000x64, .f32⟩
  | .hbm, ⟨91, _⟩ => ⟨S1x64, .f32⟩
  | .hbm, ⟨92, _⟩ => ⟨S64, .f32⟩
  | .hbm, ⟨93, _⟩ => ⟨S1x64, .f32⟩
  | .hbm, ⟨94, _⟩ => ⟨S50000x64, .f32⟩
  | .hbm, ⟨95, _⟩ => ⟨S50000x64, .f32⟩
  | .hbm, ⟨96, _⟩ => ⟨S_, .f32⟩
  | .hbm, ⟨97, _⟩ => ⟨S_, .f32⟩
  | .hbm, ⟨98, _⟩ => ⟨S50000x64, .f32⟩
  | .hbm, ⟨99, _⟩ => ⟨S50000x64, .i1⟩
  | .hbm, ⟨100, _⟩ => ⟨S_, .f32⟩
  | .hbm, ⟨101, _⟩ => ⟨S50000x64, .f32⟩
  | .hbm, ⟨102, _⟩ => ⟨S50000x64, .f32⟩
  | .hbm, ⟨103, _⟩ => ⟨S50000x64, .f32⟩
  | .hbm, ⟨104, _⟩ => ⟨S50000x1, .f32⟩
  | .hbm, ⟨105, _⟩ => ⟨S1x1, .f32⟩
  | .hbm, ⟨106, _⟩ => ⟨S50000x1, .f32⟩
  | .hbm, ⟨107, _⟩ => ⟨S50000x1, .f32⟩
  | .hbm, ⟨108, _⟩ => ⟨S_, .f32⟩
  | .hbm, ⟨109, _⟩ => ⟨S128x1, .f32⟩
  | .hbm, ⟨110, _⟩ => ⟨S50000x1, .i32⟩
  | .hbm, ⟨111, _⟩ => ⟨S128x1, .f32⟩
  | .hbm, ⟨112, _⟩ => ⟨S_, .f32⟩
  | .hbm, ⟨113, _⟩ => ⟨S50000x1, .f32⟩
  | .hbm, ⟨114, _⟩ => ⟨S_, .f32⟩
  | .hbm, ⟨115, _⟩ => ⟨S128x1, .f32⟩
  | .hbm, ⟨116, _⟩ => ⟨S50000x1, .i32⟩
  | .hbm, ⟨117, _⟩ => ⟨S128x1, .f32⟩
  | .hbm, ⟨118, _⟩ => ⟨S_, .f32⟩
  | .hbm, ⟨119, _⟩ => ⟨S128x1, .f32⟩
  | .hbm, ⟨120, _⟩ => ⟨S128x1, .f32⟩
  | .hbm, ⟨121, _⟩ => ⟨S128x1, .f32⟩
  | _, _ => ⟨S50000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v36 : Ref sig .tc := ⟨.hbm, 66, rfl⟩
abbrev main_c_3 : Ref sig .tc := ⟨.hbm, 67, rfl⟩
abbrev main_v37 : Ref sig .tc := ⟨.hbm, 68, rfl⟩
abbrev main_v38 : Ref sig .tc := ⟨.hbm, 69, rfl⟩
abbrev main_c_4 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_5 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_6 : Ref sig .tc := ⟨.hbm, 96, rfl⟩
abbrev main_call2_cst : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_7 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_8 : Ref sig .tc := ⟨.hbm, 112, rfl⟩
abbrev main_v71 : Ref sig .tc := ⟨.hbm, 113, rfl⟩
abbrev main_cst_9 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_10 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S50000x8_S50000x4_S50000x12_d1 : Shape.Concatenates [S50000x8, S50000x4] S50000x12 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  slices_S2x64x64_S1x64x64_0_0_0 : S2x64x64.Slices ![0, 0, 0] S1x64x64
  shapeCasts_S1x64x64_S64x64 : S1x64x64.ShapeCasts S64x64
  slices_S2x12x64_S1x12x64_0_0_0 : S2x12x64.Slices ![0, 0, 0] S1x12x64
  shapeCasts_S1x12x64_S12x64 : S1x12x64.ShapeCasts S12x64
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x12x64_S1x12x64_1_0_0 : S2x12x64.Slices ![1, 0, 0] S1x12x64
  slices_S2x64_S1x64_1_0 : S2x64.Slices ![1, 0] S1x64
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S128x1 : S_.BroadcastsInDim S128x1 (![] : Fin 0 → Fin S128x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  dot_S50000x12_S12x64_S50000x64_1_0_0_1_n_n_wf : DotDims.WF S50000x12 S12x64 S50000x64 [1] [0] [0] [1] [] []
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  dot_S800000x12_S12x64_S800000x64_1_0_0_1_n_n_wf : DotDims.WF S800000x12 S12x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  scatter_S128x1_S50000x1_S50000x1_1_0_0_1_wf : ScatterDims.WF S128x1 S50000x1 S50000x1 [1] [0] [0] 1

variable [Facts₀]

def dot_S50000x12_S12x64_S50000x64_1_0_0_1_n_n : DotDims S50000x12 S12x64 S50000x64 where
  lhsContracting := [1]
  rhsContracting := [0]
  lhsNonContracting := [0]
  rhsNonContracting := [1]
  lhsBatch := []
  rhsBatch := []
  wf := dot_S50000x12_S12x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x12_S12x64_S800000x64_1_0_0_1_n_n : DotDims S800000x12 S12x64 S800000x64 where
  lhsContracting := [1]
  rhsContracting := [0]
  lhsNonContracting := [0]
  rhsNonContracting := [1]
  lhsBatch := []
  rhsBatch := []
  wf := dot_S800000x12_S12x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf

class Facts : Prop extends Facts₀ where

variable [Facts]
-- ==== Proof.Spec.lean ====
/-
  The message-passing network both programs compute, as ONE composition of named stages over whole arrays.
  Every stage is written with the host operations of the jnp program, so its run reads this text back by
  computation; the Pallas program reaches the same stages block by block.

  Nodes carry 64 channels. The read-in layer is a dense layer with a leaky slope; each of the two rounds gathers
  the source node's row for every edge, maps it and the edge's attributes to a message, adds the messages up at the
  destination node, and updates every node from its own row, its sum of messages and a bias; the read-out is a
  linear map to one number per node, averaged per graph (sum over the graph's nodes divided by their count,
  the count clamped below at one).
-/
import proofs.«421754_j82609400971716_2_alg».proof.ReferenceIdeal
import Idealize.ShloMosaic.PureOps.Ideal

noncomputable section

namespace Cert.Spec

open Idealize.ShloMosaic Cert.ReferenceIdeal Cert.ReferenceIdeal.Facts₀ Cert.ReferenceIdeal.Facts

variable {F : FTy → Type} [FloatOps F] [Cert.ReferenceIdeal.Facts]

/-- The leaky slope on a node array: `v` where `v ≥ 0`, else `0.01 · v` (the slope as the binary32 word both
    programs carry). -/
def leaky (v : FVec F S50000x64 .f32) : FVec F S50000x64 .f32 :=
  select (cmpf .oge v (broadcastInDim S50000x64 ![] bcast_S_S50000x64 (constant S_ .f32 0x00000000#32))) v
    (mulf (broadcastInDim S50000x64 ![] bcast_S_S50000x64 (id (constant S_ .f32 0x3C23D70A#32))) v)

/-- A bias row `[1, 64]` repeated down the 50000 nodes. -/
def biasRows (b : FVec F S1x64 .f32) : FVec F S50000x64 .f32 :=
  broadcastInDim S50000x64 ![0, 1] bcast_S1x64_S50000x64_0_1 b

/-- A bias vector `[64]` as the row `[1, 64]`. -/
def asRow (b : FVec F S64 .f32) : FVec F S1x64 .f32 := broadcastInDim S1x64 ![1] bcast_S64_S1x64_1 b

/-- The read-in layer over the bias ROW: `leaky (x · W + b)`. -/
def denseRow (x : FVec F S50000x12 .f32) (w : FVec F S12x64 .f32) (b : FVec F S1x64 .f32) : FVec F S50000x64 .f32 :=
  leaky (addf (Host.dotGeneral dot_S50000x12_S12x64_S50000x64_1_0_0_1_n_n none x w) (biasRows b))

/-- Every edge's gather index as a column: the source node, a negative one counted from the end. -/
def srcCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The source node's row for every edge. -/
def gatherRows (h : FVec F S50000x64 .f32) (src : IVec S800000 32) : FVec F S800000x64 .f32 :=
  Host.gather gather_S50000x64_S800000x1_S800000x64_1_0_n_n_0_1_164 h (srcCol src)

/-- An edge's message: `h_src · W_nbr + edge_attr · W_edge`. -/
def edgeMsg (hs : FVec F S800000x64 .f32) (ea : FVec F S800000x12 .f32) (wn : FVec F S64x64 .f32) (we : FVec F S12x64 .f32) :
    FVec F S800000x64 .f32 :=
  addf (Host.dotGeneral dot_S800000x64_S64x64_S800000x64_1_0_0_1_n_n none hs wn)
    (Host.dotGeneral dot_S800000x12_S12x64_S800000x64_1_0_0_1_n_n none ea we)

/-- The messages added up at their destination nodes, from zero. -/
def aggregate (dst : IVec S800000 32) (msg : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst) msg

/-- A node's update over the bias ROW: `leaky (h · W_self + agg + b)`. -/
def nodeRow (h : FVec F S50000x64 .f32) (ws : FVec F S64x64 .f32) (agg : FVec F S50000x64 .f32) (b : FVec F S1x64 .f32) :
    FVec F S50000x64 .f32 :=
  leaky (addf (addf (Host.dotGeneral dot_S50000x64_S64x64_S50000x64_1_0_0_1_n_n none h ws) agg) (biasRows b))

/-- The read-out over the bias as a `[1, 1]` array: `h · W_out + b`. -/
def readoutRow (h : FVec F S50000x64 .f32) (wo : FVec F S64x1 .f32) (b : FVec F S1x1 .f32) : FVec F S50000x1 .f32 :=
  addf (Host.dotGeneral dot_S50000x64_S64x1_S50000x1_1_0_0_1_n_n none h wo)
    (broadcastInDim S50000x1 ![0, 1] bcast_S1x1_S50000x1_0_1 b)

/-- The per-graph mean of the nodes' numbers: their sum per graph over their count per graph, the count at least one. -/
def graphMean (y : FVec F S50000x1 .f32) (batch : IVec S50000 32) : FVec F S128x1 .f32 :=
  Host.divf
    (Host.scatterAdd scatter_S128x1_S50000x1_S50000x1_1_0_0_1
      (broadcastInDim S128x1 ![] bcast_S_S128x1 (constant S_ .f32 0x00000000#32))
      (broadcastInDim S50000x1 ![0] bcast_S50000_S50000x1_0 batch) y)
    (maximumf
      (Host.scatterAdd scatter_S128x1_S50000x1_S50000x1_1_0_0_1
        (broadcastInDim S128x1 ![] bcast_S_S128x1 (constant S_ .f32 0x00000000#32))
        (broadcastInDim S50000x1 ![0] bcast_S50000_S50000x1_0 batch)
        (broadcastInDim S50000x1 ![] bcast_S_S50000x1 (constant S_ .f32 0x3F800000#32)))
      (broadcastInDim S128x1 ![] bcast_S_S128x1 (constant S_ .f32 0x3F800000#32)))

/-- Row `r` of the edge-index pair as a vector: `r = 0` the sources, `r = 1` the destinations. -/
def srcOf (ei : IVec S2x800000 32) : IVec S800000 32 :=
  shapeCast S800000 (extractStridedSlice S1x800000 ![0, 0] ei slices_S2x800000_S1x800000_0_0) shapeCasts_S1x800000_S800000
def dstOf (ei : IVec S2x800000 32) : IVec S800000 32 :=
  shapeCast S800000 (extractStridedSlice S1x800000 ![1, 0] ei slices_S2x800000_S1x800000_1_0) shapeCasts_S1x800000_S800000

/-- Layer `l`'s 64×64 matrix out of a stacked pair. -/
def mat0 (w : FVec F S2x64x64 .f32) : FVec F S64x64 .f32 :=
  shapeCast S64x64 (extractStridedSlice S1x64x64 ![0, 0, 0] w slices_S2x64x64_S1x64x64_0_0_0) shapeCasts_S1x64x64_S64x64
def mat1 (w : FVec F S2x64x64 .f32) : FVec F S64x64 .f32 :=
  shapeCast S64x64 (extractStridedSlice S1x64x64 ![1, 0, 0] w slices_S2x64x64_S1x64x64_1_0_0) shapeCasts_S1x64x64_S64x64
/-- Layer `l`'s 12×64 edge matrix out of the stacked pair. -/
def emat0 (w : FVec F S2x12x64 .f32) : FVec F S12x64 .f32 :=
  shapeCast S12x64 (extractStridedSlice S1x12x64 ![0, 0, 0] w slices_S2x12x64_S1x12x64_0_0_0) shapeCasts_S1x12x64_S12x64
def emat1 (w : FVec F S2x12x64 .f32) : FVec F S12x64 .f32 :=
  shapeCast S12x64 (extractStridedSlice S1x12x64 ![1, 0, 0] w slices_S2x12x64_S1x12x64_1_0_0) shapeCasts_S1x12x64_S12x64
/-- Layer `l`'s bias vector out of the stacked pair. -/
def bias0 (b : FVec F S2x64 .f32) : FVec F S64 .f32 :=
  shapeCast S64 (extractStridedSlice S1x64 ![0, 0] b slices_S2x64_S1x64_0_0) shapeCasts_S1x64_S64
def bias1 (b : FVec F S2x64 .f32) : FVec F S64 .f32 :=
  shapeCast S64 (extractStridedSlice S1x64 ![1, 0] b slices_S2x64_S1x64_1_0) shapeCasts_S1x64_S64

/-- The node features: state and action side by side. -/
def features (st : FVec F S50000x8 .f32) (ac : FVec F S50000x4 .f32) : FVec F S50000x12 .f32 :=
  concatenate S50000x12 1 [⟨S50000x8, st⟩, ⟨S50000x4, ac⟩] concatenates_S50000x8_S50000x4_S50000x12_d1

/-- One round of message passing from node rows `h`. -/
def round (h : FVec F S50000x64 .f32) (ei : IVec S2x800000 32) (ea : FVec F S800000x12 .f32)
    (wn : FVec F S64x64 .f32) (we : FVec F S12x64 .f32) (ws : FVec F S64x64 .f32) (b : FVec F S64 .f32) : FVec F S50000x64 .f32 :=
  nodeRow h ws (aggregate (dstOf ei) (edgeMsg (gatherRows h (srcOf ei)) ea wn we)) (asRow b)

/-- The whole network: the per-graph mean read-out after two rounds. -/
def network (st : FVec F S50000x8 .f32) (ac : FVec F S50000x4 .f32) (ei : IVec S2x800000 32) (ea : FVec F S800000x12 .f32)
    (batch : IVec S50000 32) (wIn : FVec F S12x64 .f32) (bIn : FVec F S64 .f32) (wSelf wNbr : FVec F S2x64x64 .f32)
    (wEdge : FVec F S2x12x64 .f32) (bConv : FVec F S2x64 .f32) (wOut : FVec F S64x1 .f32) (bOut : FVec F S1 .f32) :
    FVec F S128x1 .f32 :=
  graphMean
    (readoutRow
      (round (round (denseRow (features st ac) wIn (asRow bIn)) ei ea (mat0 wNbr) (emat0 wEdge) (mat0 wSelf) (bias0 bConv))
        ei ea (mat1 wNbr) (emat1 wEdge) (mat1 wSelf) (bias1 bConv))
      wOut (broadcastInDim S1x1 ![1] bcast_S1_S1x1_1 bOut))
    batch

end Cert.Spec

end
-- ==== Proof.Take.lean ====
import proofs.«421754_j82609400971716_2_alg».proof.Proof.Gen.KernelIdeal.Frame
import proofs.«421754_j82609400971716_2_alg».proof.Proof.Gen.ReferenceIdeal
import proofs.«421754_j82609400971716_2_alg».proof.Proof.Spec
import proofs.«421754_j82609400971716_2_alg».proof.Proof.Gen.Pre_finite_inputs
import proofs.«421754_j82609400971716_2_alg».proof.Defs
import Idealize.ShloMosaic.Lib.ValueLayout
import Idealize.ShloMosaic.Lib.ReduceAll
import Idealize.ShloMosaic.Lib.StableHlo.Predicate
set_option maxRecDepth 16384

noncomputable section

namespace Cert.Bridge.Take

open Idealize.ShloMosaic Idealize.ShloMosaic.TcCoe Idealize.SL.Sem
open Cert.KernelIdeal Cert.KernelIdeal.Gen

variable {F : FTy → Type} [FloatOps F]

/-- An edge's source index, a negative one counted from the end (the Pallas program's own spelling). -/
def wrapIdx (src : IVec S800000 32) : IVec S800000 32 :=
  select (cmpi .slt src (broadcastInDim S800000 ![] bcast_S_S800000 (constantI S_ 32 0#32)))
    (addi src (broadcastInDim S800000 ![] bcast_S_S800000 (constantI S_ 32 50000#32))) src

/-- The index as a column. -/
def idxCol (src : IVec S800000 32) : IVec S800000x1 32 :=
  broadcastInDim S800000x1 ![0] bcast_S800000_S800000x1_0 (wrapIdx src)

/-- Per edge: is the index inside `[0, 49999]`? -/
def inRange (src : IVec S800000 32) : IVec S800000 1 :=
  Host.reduce IntOp.andi
    (andi (cmpi .sge (idxCol src) (broadcastInDim S800000x1 ![] bcast_S_S800000x1 (constantI S_ 32 0#32)))
      (cmpi .sle (idxCol src) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The Pallas program's gather of source rows: the gathered row where the index is in range, a fill word elsewhere. -/
def takeFill (h : FVec F S50000x64 .f32) (src : IVec S800000 32) : FVec F S800000x64 .f32 :=
  select (broadcastInDim S800000x64 ![0] bcast_S800000_S800000x64_0 (inRange src))
    (Host.gather gather_S50000x64_S800000x1_S800000x64_1_0_n_n_0_1_164 h (idxCol src))
    (broadcastInDim S800000x64 ![] bcast_S_S800000x64 (constant S_ .f32 0x7FC00000#32))

open Idealize.ShloMosaic.ValueIdx

/-- A left fold by `and` over one-bit words that are all 1, started at 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A source index that is not negative is left as it is: the wrap only moves negative indices. -/
theorem wrapIdx_eq (src : IVec S800000 32) (hsrc : ∀ e : S800000.Idx, 0 ≤ (src e).toInt ∧ (src e).toInt < 50000) :
    wrapIdx src = src := by
  funext e
  unfold wrapIdx
  rw [select_apply]
  have hc : cmpi .slt src (broadcastInDim S800000 ![] bcast_S_S800000 (constantI S_ 32 0#32)) e = 0#1 := by
    refine eq_zero_of_ne_one fun h1 => ?_
    have h2 : (src e).toInt < (0#32 : BitVec 32).toInt := IntOp.cmpi_slt.1 h1
    have h3 : (0#32 : BitVec 32).toInt = 0 := by decide
    have := (hsrc e).1
    omega
  rw [hc, select_zero]

/-- Every entry of the index column is an entry of `src`, hence a node number. -/
theorem idxCol_range (src : IVec S800000 32) (hsrc : ∀ e : S800000.Idx, 0 ≤ (src e).toInt ∧ (src e).toInt < 50000)
    (i : S800000x1.Idx) : 0 ≤ (idxCol src i).toInt ∧ (idxCol src i).toInt < 50000 := by
  unfold idxCol
  rw [wrapIdx_eq src hsrc]
  exact hsrc _

/-- The guard is 1 at every edge: both compares hold at every entry of the column, so their `and` over the unit axis
    is 1. -/
theorem inRange_eq_one (src : IVec S800000 32) (hsrc : ∀ e : S800000.Idx, 0 ≤ (src e).toInt ∧ (src e).toInt < 50000)
    (e : S800000.Idx) : inRange src e = 1#1 := by
  unfold inRange
  rw [Host.reduce_eq_foldl]
  generalize (List.filter _ _) = l
  refine foldl_andi_ones _ (fun i => ?_) l
  obtain ⟨h0, h1⟩ := idxCol_range src hsrc i
  refine IntOp.andi_eq_one.2 ⟨IntOp.cmpi_sge.2 ?_, IntOp.cmpi_sle.2 ?_⟩
  · show (0#32 : BitVec 32).toInt ≤ (idxCol src i).toInt
    have h3 : (0#32 : BitVec 32).toInt = 0 := by decide
    omega
  · show (idxCol src i).toInt ≤ (49999#32 : BitVec 32).toInt
    have h3 : (49999#32 : BitVec 32).toInt = 49999 := by decide
    omega

/-- Where every source index is a node number, the guarded gather is the plain gather of the jnp program. -/
theorem takeFill_eq (h : FVec F S50000x64 .f32) (src : IVec S800000 32)
    (hsrc : ∀ e : S800000.Idx, 0 ≤ (src e).toInt ∧ (src e).toInt < 50000) :
    takeFill h src = Cert.Spec.gatherRows h src := by
  -- the jnp program's index column is the same term as the guarded program's
  have hg : Cert.Spec.gatherRows h src
      = Host.gather gather_S50000x64_S800000x1_S800000x64_1_0_n_n_0_1_164 h (idxCol src) := rfl
  rw [hg]
  unfold takeFill
  funext i
  rw [select_apply]
  -- the guard, broadcast over the 64 channels, is 1: the select keeps the gathered row
  have hm : broadcastInDim S800000x64 ![0] bcast_S800000_S800000x64_0 (inRange src) i = 1#1 :=
    inRange_eq_one src hsrc _
  rw [hm, select_one]

/-- The last conjunct of the precondition's third part, read back: the `and` over all edges of
    `0 ≤ src ∧ src < 50000` is 1, so both compares hold at every edge. -/
theorem part3_range (a2 : IVec Cert.Pre_finite_inputs.S2x800000 32) (v48 : IVec Cert.Pre_finite_inputs.S_ 1)
    (v49 v50 : FVec F Cert.Pre_finite_inputs.S1 .f32) (i : Cert.Pre_finite_inputs.S_.Idx)
    (h : Cert.Pre_finite_inputs.fn_part3 a2 v48 v49 v50 i = 1#1) (e : S800000.Idx) :
    0 ≤ (Cert.Spec.srcOf a2 e).toInt ∧ (Cert.Spec.srcOf a2 e).toInt < 50000 := by
  haveI : Subsingleton Cert.Pre_finite_inputs.S_.Idx := ⟨fun a b => funext fun d => d.elim0⟩
  unfold Cert.Pre_finite_inputs.fn_part3 at h
  dsimp only at h
  -- the outermost `and`'s right conjunct is the all-reduce over the edges
  have h2 := (IntOp.andi_eq_one.1 h).2
  have h3 := Host.reduce_andi_all _ _ _ _ _ h2 e
  obtain ⟨hge, hlt⟩ := IntOp.andi_eq_one.1 h3
  have hge' : (0#32 : BitVec 32).toInt ≤ (Cert.Spec.srcOf a2 e).toInt := IntOp.cmpi_sge.1 hge
  have hlt' : (Cert.Spec.srcOf a2 e).toInt < (50000#32 : BitVec 32).toInt := IntOp.cmpi_slt.1 hlt
  have z0 : (0#32 : BitVec 32).toInt = 0 := by decide
  have z1 : (50000#32 : BitVec 32).toInt = 50000 := by decide
  omega

/-- The precondition says every source index is a node number. -/
theorem src_range (m : (ℓ : Loc nD τ sig) → Buf (Elt Ideal) ℓ) (hpre : Cert.Pre_KernelIdeal m) (c : Dev nD) (e : S800000.Idx) :
    0 ≤ (Cert.Spec.srcOf (m ((c.tc : Thread nD τ).loc main_arg2)) e).toInt
      ∧ (Cert.Spec.srcOf (m ((c.tc : Thread nD τ).loc main_arg2)) e).toInt < 50000 := by
  -- the precondition at its one index, its parts opened down to the third
  have h1 := congrFun (hpre c) ix0
  unfold Cert.Pre_finite_inputs.fn at h1
  dsimp only at h1
  unfold Cert.Pre_finite_inputs.fn_part1 at h1
  dsimp only at h1
  unfold Cert.Pre_finite_inputs.fn_part2 at h1
  dsimp only at h1
  exact part3_range _ _ _ _ _ h1 e

/-- A `[64]` vector reshaped to `[1, 64]` is the vector as a row. -/
theorem reshape_row (b : FVec F S64 .f32) : shapeCast S1x64 b shapeCasts_S64_S1x64 = Cert.Spec.asRow b := by
  -- both sides read, at (u, i), the vector at i
  funext j
  obtain ⟨u, i, rfl⟩ : ∃ (u : Fin 1) (i : Fin 64), j = ix2 u i := ⟨j 0, j 1, eq_ix2 j⟩
  unfold Cert.Spec.asRow
  rw [shapeCast_a_1a_apply]
  symm
  refine broadcastInDim_apply _ _ b (ix2 u i) (ix1 i) fun a => ?_
  match a with
  | ⟨0, _⟩ => rfl

/-- A `[1]` vector reshaped to `[1, 1]` is its broadcast along the new axis. -/
theorem reshape_one (b : FVec F S1 .f32) :
    shapeCast S1x1 b shapeCasts_S1_S1x1 = broadcastInDim Cert.ReferenceIdeal.S1x1 ![1] Cert.ReferenceIdeal.Facts₀.bcast_S1_S1x1_1 b := by
  -- both sides read, at (u, i), the vector's one entry
  funext j
  obtain ⟨u, i, rfl⟩ : ∃ (u : Fin 1) (i : Fin 1), j = ix2 u i := ⟨j 0, j 1, eq_ix2 j⟩
  rw [shapeCast_a_1a_apply]
  symm
  refine broadcastInDim_apply _ _ b (ix2 u i) (ix1 i) fun a => ?_
  match a with
  | ⟨0, _⟩ =>
    show i.val = 0
    omega

end Cert.Bridge.Take

end
-- ==== Proof.KPass.lean ====
/-
  Buffers carried unchanged across stretches of host operations and across regions of the Pallas program.
  The buffer contents at the segment boundaries form a chain (boundary 0 the launch memory, boundary 15 the return):
  a stretch of host operations changes only the buffers its operations write, and a region only its windows' arrays.
  Each lemma below walks one buffer from a later boundary back to an earlier one across steps that do not write it.
-/
import proofs.«421754_j82609400971716_2_alg».proof.Proof.Gen.KernelIdeal.Frame
import proofs.«421754_j82609400971716_2_alg».proof.Proof.Gen.ReferenceIdeal
import proofs.«421754_j82609400971716_2_alg».proof.Proof.Spec
import proofs.«421754_j82609400971716_2_alg».proof.Proof.Take
import Idealize.ShloMosaic.Lib.StableHlo.Run

set_option maxRecDepth 16384

noncomputable section

namespace Cert.Bridge.Pass

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

theorem pass_main_arg5_1_0 (c : Dev nD) : W1 m ρ c (Proc.devRef .tc main_arg5) = W0 m ρ c (Proc.devRef .tc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg3_4_0 (c : Dev nD) : W4 m ρ c (Proc.devRef .tc main_arg3) = W0 m ρ c (Proc.devRef .tc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg3_9_0 (c : Dev nD) : W9 m ρ c (Proc.devRef .tc main_arg3) = W0 m ρ c (Proc.devRef .tc main_arg3) :=
  calc W9 m ρ c (Proc.devRef .tc main_arg3)
    _ = W8 m ρ c (Proc.devRef .tc main_arg3) := StableHlo.after_of_forall_not_mem (b := Proc.devRef .tc main_arg3) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg3) := W7_of_ne m ρ c main_arg3 (by decide)
    _ = W5 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := (W5_arr m ρ c 1).trans (((dat1 (V4 m ρ) c).arrAt_in 1 rfl _).trans (A_eq1 (V4 m ρ) c 1))
    _ = W3 m ρ c (Proc.devRef .tc main_arg3) := StableHlo.after_of_forall_not_mem (b := Proc.devRef .tc main_arg3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg8_3_0 (c : Dev nD) : W3 m ρ c (Proc.devRef .tc main_arg8) = W0 m ρ c (Proc.devRef .tc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg8_8_0 (c : Dev nD) : W8 m ρ c (Proc.devRef .tc main_arg8) = W0 m ρ c (Proc.devRef .tc main_arg8) :=
  calc W8 m ρ c (Proc.devRef .tc main_arg8)
    _ = W7 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg9_3_0 (c : Dev nD) : W3 m ρ c (Proc.devRef .tc main_arg9) = W0 m ρ c (Proc.devRef .tc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg9_8_0 (c : Dev nD) : W8 m ρ c (Proc.devRef .tc main_arg9) = W0 m ρ c (Proc.devRef .tc main_arg9) :=
  calc W8 m ρ c (Proc.devRef .tc main_arg9)
    _ = W7 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg7_5_0 (c : Dev nD) : W5 m ρ c (Proc.devRef .tc main_arg7) = W0 m ρ c (Proc.devRef .tc main_arg7) :=
  calc W5 m ρ c (Proc.devRef .tc main_arg7)
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg7_10_0 (c : Dev nD) : W10 m ρ c (Proc.devRef .tc main_arg7) = W0 m ρ c (Proc.devRef .tc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg10_5_0 (c : Dev nD) : W5 m ρ c (Proc.devRef .tc main_arg10) = W0 m ρ c (Proc.devRef .tc main_arg10) :=
  calc W5 m ρ c (Proc.devRef .tc main_arg10)
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg10_10_0 (c : Dev nD) : W10 m ρ c (Proc.devRef .tc main_arg10) = W0 m ρ c (Proc.devRef .tc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg11_13_0 (c : Dev nD) : W13 m ρ c (Proc.devRef .tc main_arg11) = W0 m ρ c (Proc.devRef .tc main_arg11) :=
  calc W13 m ρ c (Proc.devRef .tc main_arg11)
    _ = W12 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := W7_of_ne m ρ c main_arg11 (by decide)
    _ = W5 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg11) := W5_of_ne m ρ c main_arg11 (by decide)
    _ = W3 m ρ c (Proc.devRef .tc main_arg11) := StableHlo.after_of_forall_not_mem (b := Proc.devRef .tc main_arg11) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg12_12_0 (c : Dev nD) : W12 m ρ c (Proc.devRef .tc main_arg12) = W0 m ρ c (Proc.devRef .tc main_arg12) :=
  calc W12 m ρ c (Proc.devRef .tc main_arg12)
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg12) := W7_of_ne m ρ c main_arg12 (by decide)
    _ = W5 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg4_14_0 (c : Dev nD) : W14 m ρ c (Proc.devRef .tc main_arg4) = W0 m ρ c (Proc.devRef .tc main_arg4) :=
  calc W14 m ρ c (Proc.devRef .tc main_arg4)
    _ = W13 m ρ c (Proc.devRef .tc main_arg4) := W14_of_ne m ρ c main_arg4 (by decide)
    _ = W12 m ρ c (Proc.devRef .tc main_arg4) := StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg4) := W12_of_ne m ρ c main_arg4 (by decide)
    _ = W10 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_v1_2_1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem pass_main_v1_7_1 (c : Dev nD) : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v1) := W5_of_ne m ρ c main_v1 (by decide)
    _ = W3 m ρ c (Proc.devRef .tc main_v1) := StableHlo.after_of_forall_not_mem (b := Proc.devRef .tc main_v1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem pass_main_v3_5_1 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem pass_main_v3_10_1 (c : Dev nD) : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := W7_of_ne m ρ c main_v3 (by decide)
    _ = W5 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := W5_of_ne m ρ c main_v3 (by decide)
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem pass_main_v6_6_2 (c : Dev nD) : W6 m ρ c (Proc.devRef .tc main_v6) = W2 m ρ c (Proc.devRef .tc main_v6) :=
  calc W6 m ρ c (Proc.devRef .tc main_v6)
    _ = W5 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v6) := W5_of_ne m ρ c main_v6 (by decide)
    _ = W3 m ρ c (Proc.devRef .tc main_v6) := StableHlo.after_of_forall_not_mem (b := Proc.devRef .tc main_v6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_v21_11_7 (c : Dev nD) : W11 m ρ c (Proc.devRef .tc main_v21) = W7 m ρ c (Proc.devRef .tc main_v21) :=
  calc W11 m ρ c (Proc.devRef .tc main_v21)
    _ = W10 m ρ c (Proc.devRef .tc main_v21) := StableHlo.after_of_forall_not_mem (b := Proc.devRef .tc main_v21) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v21) := W10_of_ne m ρ c main_v21 (by decide)
    _ = W8 m ρ c (Proc.devRef .tc main_v21) := StableHlo.after_of_forall_not_mem (b := Proc.devRef .tc main_v21) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v21) := StableHlo.after_of_forall_not_mem (b := Proc.devRef .tc main_v21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_v7_4_3 (c : Dev nD) : W4 m ρ c (Proc.devRef .tc main_v7) = W3 m ρ c (Proc.devRef .tc main_v7) :=
  calc W4 m ρ c (Proc.devRef .tc main_v7)
    _ = W3 m ρ c (Proc.devRef .tc main_v7) := StableHlo.after_of_forall_not_mem (b := Proc.devRef .tc main_v7) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_v22_9_8 (c : Dev nD) : W9 m ρ c (Proc.devRef .tc main_v22) = W8 m ρ c (Proc.devRef .tc main_v22) :=
  calc W9 m ρ c (Proc.devRef .tc main_v22)
    _ = W8 m ρ c (Proc.devRef .tc main_v22) := StableHlo.after_of_forall_not_mem (b := Proc.devRef .tc main_v22) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_v36_13_12 (c : Dev nD) : W13 m ρ c (Proc.devRef .tc main_v36) = W12 m ρ c (Proc.devRef .tc main_v36) :=
  calc W13 m ρ c (Proc.devRef .tc main_v36)
    _ = W12 m ρ c (Proc.devRef .tc main_v36) := StableHlo.after_of_forall_not_mem (b := Proc.devRef .tc main_v36) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.Bridge.Pass

end
-- ==== Proof.KRead.lean ====
/-
  What the stretches of host operations of the Pallas program leave in the buffers they write, as stages of the
  network (Proof/Spec.lean), from any contents `W` of the buffers when the stretch starts: slices and reshapes of
  the weight stacks, the feature concatenation, the sums of messages at their destinations, the per-graph mean.
-/
import proofs.«421754_j82609400971716_2_alg».proof.Proof.Gen.KernelIdeal.Frame
import proofs.«421754_j82609400971716_2_alg».proof.Proof.Gen.ReferenceIdeal
import proofs.«421754_j82609400971716_2_alg».proof.Proof.Spec
import proofs.«421754_j82609400971716_2_alg».proof.Proof.Take
import Idealize.ShloMosaic.Lib.StableHlo.Run

set_option maxRecDepth 16384

noncomputable section

namespace Cert.Bridge.Read

open Idealize.ShloMosaic Idealize.ShloMosaic.TcCoe Idealize.SL.Sem
open Cert.KernelIdeal Cert.KernelIdeal.Gen

-- A sum of messages at its destinations is compared as ONE operation: both sides apply the same scatter-add to the
-- same start array, the same index column and the same updates, so it is never opened.
attribute [local irreducible] Host.scatterAdd Host.gather Host.reduce

set_option maxHeartbeats 100000 in
/-- The first stretch leaves the node features: state and action side by side. -/
theorem features_at (W : Valuation τ sig (Elt Ideal)) :
    StableHlo.after hostOps0 W (Proc.devRef .tc main_v4) = Cert.Spec.features (F := Ideal) (W (Proc.devRef .tc main_arg0)) (W (Proc.devRef .tc main_arg1)) := by
  after_results_simp
  rfl

set_option maxHeartbeats 100000 in
/-- … and the read-in bias reshaped to a row. -/
theorem biasIn_at (W : Valuation τ sig (Elt Ideal)) :
    StableHlo.after hostOps0 W (Proc.devRef .tc main_v5) = (shapeCast S1x64 ((W (Proc.devRef .tc main_arg6)) : FVec Ideal S64 .f32) shapeCasts_S64_S1x64 : FVec Ideal S1x64 .f32) := by
  after_results_simp
  rfl

set_option maxHeartbeats 100000 in
/-- … and the edges' source indices. -/
theorem src_at (W : Valuation τ sig (Elt Ideal)) :
    StableHlo.after hostOps0 W (Proc.devRef .tc main_v1) = Cert.Spec.srcOf (W (Proc.devRef .tc main_arg2)) := by
  after_results_simp
  rfl

set_option maxHeartbeats 100000 in
/-- … and the edges' destination indices. -/
theorem dst_at (W : Valuation τ sig (Elt Ideal)) :
    StableHlo.after hostOps0 W (Proc.devRef .tc main_v3) = Cert.Spec.dstOf (W (Proc.devRef .tc main_arg2)) := by
  after_results_simp
  rfl

set_option maxHeartbeats 100000 in
/-- Round 0's neighbour matrix. -/
theorem wNbr0_at (W : Valuation τ sig (Elt Ideal)) :
    StableHlo.after hostOps1_1 W (Proc.devRef .tc main_v9) = Cert.Spec.mat0 (F := Ideal) (W (Proc.devRef .tc main_arg8)) := by
  after_results_simp
  rfl

set_option maxHeartbeats 100000 in
/-- Round 0's edge matrix. -/
theorem wEdge0_at (W : Valuation τ sig (Elt Ideal)) :
    StableHlo.after hostOps1_1 W (Proc.devRef .tc main_v11) = Cert.Spec.emat0 (F := Ideal) (W (Proc.devRef .tc main_arg9)) := by
  after_results_simp
  rfl

set_option maxHeartbeats 100000 in
/-- Round 0's self matrix. -/
theorem wSelf0_at (W : Valuation τ sig (Elt Ideal)) :
    StableHlo.after hostOps2 W (Proc.devRef .tc main_v17) = Cert.Spec.mat0 (F := Ideal) (W (Proc.devRef .tc main_arg7)) := by
  after_results_simp
  rfl

set_option maxHeartbeats 100000 in
/-- Round 0's messages added up at their destinations. -/
theorem agg0_at (W : Valuation τ sig (Elt Ideal)) :
    StableHlo.after hostOps2 W (Proc.devRef .tc main_v15) = Cert.Spec.aggregate (F := Ideal) (W (Proc.devRef .tc main_v3)) (W (Proc.devRef .tc main_v12)) := by
  after_results_simp
  rfl

set_option maxHeartbeats 100000 in
/-- Round 0's bias as a row. -/
theorem bias0_at (W : Valuation τ sig (Elt Ideal)) :
    StableHlo.after hostOps2 W (Proc.devRef .tc main_v20) = (shapeCast S1x64 (Cert.Spec.bias0 (F := Ideal) (W (Proc.devRef .tc main_arg10))) shapeCasts_S64_S1x64 : FVec Ideal S1x64 .f32) := by
  after_results_simp
  rfl

set_option maxHeartbeats 100000 in
/-- Round 1's neighbour matrix. -/
theorem wNbr1_at (W : Valuation τ sig (Elt Ideal)) :
    StableHlo.after hostOps3_1 W (Proc.devRef .tc main_v24) = Cert.Spec.mat1 (F := Ideal) (W (Proc.devRef .tc main_arg8)) := by
  after_results_simp
  rfl

set_option maxHeartbeats 100000 in
/-- Round 1's edge matrix. -/
theorem wEdge1_at (W : Valuation τ sig (Elt Ideal)) :
    StableHlo.after hostOps3_1 W (Proc.devRef .tc main_v26) = Cert.Spec.emat1 (F := Ideal) (W (Proc.devRef .tc main_arg9)) := by
  after_results_simp
  rfl

set_option maxHeartbeats 100000 in
/-- Round 1's self matrix. -/
theorem wSelf1_at (W : Valuation τ sig (Elt Ideal)) :
    StableHlo.after hostOps4 W (Proc.devRef .tc main_v32) = Cert.Spec.mat1 (F := Ideal) (W (Proc.devRef .tc main_arg7)) := by
  after_results_simp
  rfl

set_option maxHeartbeats 100000 in
/-- Round 1's messages added up at their destinations. -/
theorem agg1_at (W : Valuation τ sig (Elt Ideal)) :
    StableHlo.after hostOps4 W (Proc.devRef .tc main_v30) = Cert.Spec.aggregate (F := Ideal) (W (Proc.devRef .tc main_v3)) (W (Proc.devRef .tc main_v27)) := by
  after_results_simp
  rfl

set_option maxHeartbeats 100000 in
/-- Round 1's bias as a row. -/
theorem bias1_at (W : Valuation τ sig (Elt Ideal)) :
    StableHlo.after hostOps4 W (Proc.devRef .tc main_v35) = (shapeCast S1x64 (Cert.Spec.bias1 (F := Ideal) (W (Proc.devRef .tc main_arg10))) shapeCasts_S64_S1x64 : FVec Ideal S1x64 .f32) := by
  after_results_simp
  rfl

set_option maxHeartbeats 100000 in
/-- The read-out bias reshaped to one by one. -/
theorem biasOut_at (W : Valuation τ sig (Elt Ideal)) :
    StableHlo.after hostOps5 W (Proc.devRef .tc main_v37) = (shapeCast S1x1 ((W (Proc.devRef .tc main_arg12)) : FVec Ideal S1 .f32) shapeCasts_S1_S1x1 : FVec Ideal S1x1 .f32) := by
  after_results_simp
  rfl

set_option maxHeartbeats 100000 in
/-- The last stretch: the per-graph mean of the read-out column. -/
theorem mean_at (W : Valuation τ sig (Elt Ideal)) :
    StableHlo.after hostOps6 W (Proc.devRef .tc main_v48) = Cert.Spec.graphMean (F := Ideal) (W (Proc.devRef .tc main_v38)) (W (Proc.devRef .tc main_arg4)) := by
  after_results_simp
  rfl

end Cert.Bridge.Read

end
-- ==== Proof.KTake.lean ====
/-
  The Pallas program's two gathers of source rows, read out of their stretches of host operations: each stretch
  wraps a negative index, tests the index against the node range, gathers the row, and chooses per entry between the
  gathered row and a fill word by the test. Read buffer by buffer, the stretch's result is the guarded gather
  `takeFill` of the node rows and source indices it found.
-/
import proofs.«421754_j82609400971716_2_alg».proof.Proof.Gen.KernelIdeal.Frame
import proofs.«421754_j82609400971716_2_alg».proof.Proof.Gen.ReferenceIdeal
import proofs.«421754_j82609400971716_2_alg».proof.Proof.Spec
import proofs.«421754_j82609400971716_2_alg».proof.Proof.Take
import Idealize.ShloMosaic.Lib.StableHlo.Run

set_option maxRecDepth 16384

noncomputable section

namespace Cert.Bridge.ReadTake

open Idealize.ShloMosaic Idealize.ShloMosaic.TcCoe Idealize.SL.Sem
open Cert.KernelIdeal Cert.KernelIdeal.Gen

attribute [local irreducible] Host.scatterAdd Host.gather Host.reduce

/-- A choice is determined by its three operands. -/
theorem sel3 {c c' : IVec S800000x64 1} {a a' b b' : FVec Ideal S800000x64 .f32} (hc : c = c') (ha : a = a') (hb : b = b') :
    select c a b = select c' a' b' := by subst hc ha hb; rfl

/-! ### The gather of round 0 (`hostOps1`) -/

set_option maxHeartbeats 100000 in
/-- The index column the stretch computes. -/
theorem idx0_at (W : Valuation τ sig (Elt Ideal)) : StableHlo.after hostOps1 W (Proc.devRef .tc main_call0_v5)
    = Cert.Bridge.Take.idxCol (W (Proc.devRef .tc main_v1)) := by
  after_results_simp
  rfl

set_option maxHeartbeats 100000 in
/-- The per-edge range test. -/
theorem mask0_at (W : Valuation τ sig (Elt Ideal)) : StableHlo.after hostOps1 W (Proc.devRef .tc main_call0_v12)
    = Cert.Bridge.Take.inRange (W (Proc.devRef .tc main_v1)) := by
  after_results_simp
  rfl

set_option maxHeartbeats 100000 in
/-- The range test repeated over the 64 channels, over what the stretch left as the test. -/
theorem maskRows0_at (W : Valuation τ sig (Elt Ideal)) : StableHlo.after hostOps1 W (Proc.devRef .tc main_call0_v14)
    = (broadcastInDim S800000x64 ![0] bcast_S800000_S800000x64_0 (StableHlo.after hostOps1 W (Proc.devRef .tc main_call0_v12) : IVec S800000 1) : IVec S800000x64 1) := by
  after_results_simp
  rfl

set_option maxHeartbeats 100000 in
/-- The gathered rows. -/
theorem rows0_at (W : Valuation τ sig (Elt Ideal)) : StableHlo.after hostOps1 W (Proc.devRef .tc main_call0_v13)
    = Host.gather gather_S50000x64_S800000x1_S800000x64_1_0_n_n_0_1_164 (W (Proc.devRef .tc main_v6) : FVec Ideal S50000x64 .f32) (Cert.Bridge.Take.idxCol (W (Proc.devRef .tc main_v1))) := by
  after_results_simp
  rfl

set_option maxHeartbeats 100000 in
/-- The fill word everywhere. -/
theorem fill0_at (W : Valuation τ sig (Elt Ideal)) : StableHlo.after hostOps1 W (Proc.devRef .tc main_call0_v15)
    = (broadcastInDim S800000x64 ![] bcast_S_S800000x64 (constant S_ .f32 0x7FC00000#32) : FVec Ideal S800000x64 .f32) := by
  after_results_simp
  rfl

set_option maxHeartbeats 100000 in
/-- The stretch's result is the choice between gathered rows and fill by the repeated test, over what the stretch left in those three buffers. -/
theorem choice0_at (W : Valuation τ sig (Elt Ideal)) : StableHlo.after hostOps1 W (Proc.devRef .tc main_v7)
    = (select (StableHlo.after hostOps1 W (Proc.devRef .tc main_call0_v14) : IVec S800000x64 1)
        (StableHlo.after hostOps1 W (Proc.devRef .tc main_call0_v13) : FVec Ideal S800000x64 .f32)
        (StableHlo.after hostOps1 W (Proc.devRef .tc main_call0_v15) : FVec Ideal S800000x64 .f32) : FVec Ideal S800000x64 .f32) := by
  after_results_simp
  rfl

/-- The stretch leaves the guarded gather of the node rows it found. -/
theorem take0_at (W : Valuation τ sig (Elt Ideal)) : StableHlo.after hostOps1 W (Proc.devRef .tc main_v7)
    = Cert.Bridge.Take.takeFill (F := Ideal) (W (Proc.devRef .tc main_v6)) (W (Proc.devRef .tc main_v1)) :=
  (choice0_at W).trans (sel3 ((maskRows0_at W).trans (congrArg (fun t : IVec S800000 1 =>
      (broadcastInDim S800000x64 ![0] bcast_S800000_S800000x64_0 t : IVec S800000x64 1)) (mask0_at W))) (rows0_at W) (fill0_at W))

/-! ### The gather of round 1 (`hostOps3`) -/

set_option maxHeartbeats 100000 in
/-- The index column the stretch computes. -/
theorem idx1_at (W : Valuation τ sig (Elt Ideal)) : StableHlo.after hostOps3 W (Proc.devRef .tc main_call1_v5)
    = Cert.Bridge.Take.idxCol (W (Proc.devRef .tc main_v1)) := by
  after_results_simp
  rfl

set_option maxHeartbeats 100000 in
/-- The per-edge range test. -/
theorem mask1_at (W : Valuation τ sig (Elt Ideal)) : StableHlo.after hostOps3 W (Proc.devRef .tc main_call1_v12)
    = Cert.Bridge.Take.inRange (W (Proc.devRef .tc main_v1)) := by
  after_results_simp
  rfl

set_option maxHeartbeats 100000 in
/-- The range test repeated over the 64 channels, over what the stretch left as the test. -/
theorem maskRows1_at (W : Valuation τ sig (Elt Ideal)) : StableHlo.after hostOps3 W (Proc.devRef .tc main_call1_v14)
    = (broadcastInDim S800000x64 ![0] bcast_S800000_S800000x64_0 (StableHlo.after hostOps3 W (Proc.devRef .tc main_call1_v12) : IVec S800000 1) : IVec S800000x64 1) := by
  after_results_simp
  rfl

set_option maxHeartbeats 100000 in
/-- The gathered rows. -/
theorem rows1_at (W : Valuation τ sig (Elt Ideal)) : StableHlo.after hostOps3 W (Proc.devRef .tc main_call1_v13)
    = Host.gather gather_S50000x64_S800000x1_S800000x64_1_0_n_n_0_1_164 (W (Proc.devRef .tc main_v21) : FVec Ideal S50000x64 .f32) (Cert.Bridge.Take.idxCol (W (Proc.devRef .tc main_v1))) := by
  after_results_simp
  rfl

set_option maxHeartbeats 100000 in
/-- The fill word everywhere. -/
theorem fill1_at (W : Valuation τ sig (Elt Ideal)) : StableHlo.after hostOps3 W (Proc.devRef .tc main_call1_v15)
    = (broadcastInDim S800000x64 ![] bcast_S_S800000x64 (constant S_ .f32 0x7FC00000#32) : FVec Ideal S800000x64 .f32) := by
  after_results_simp
  rfl

set_option maxHeartbeats 100000 in
/-- The stretch's result is the choice between gathered rows and fill by the repeated test, over what the stretch left in those three buffers. -/
theorem choice1_at (W : Valuation τ sig (Elt Ideal)) : StableHlo.after hostOps3 W (Proc.devRef .tc main_v22)
    = (select (StableHlo.after hostOps3 W (Proc.devRef .tc main_call1_v14) : IVec S800000x64 1)
        (StableHlo.after hostOps3 W (Proc.devRef .tc main_call1_v13) : FVec Ideal S800000x64 .f32)
        (StableHlo.after hostOps3 W (Proc.devRef .tc main_call1_v15) : FVec Ideal S800000x64 .f32) : FVec Ideal S800000x64 .f32) := by
  after_results_simp
  rfl

/-- The stretch leaves the guarded gather of the node rows it found. -/
theorem take1_at (W : Valuation τ sig (Elt Ideal)) : StableHlo.after hostOps3 W (Proc.devRef .tc main_v22)
    = Cert.Bridge.Take.takeFill (F := Ideal) (W (Proc.devRef .tc main_v21)) (W (Proc.devRef .tc main_v1)) :=
  (choice1_at W).trans (sel3 ((maskRows1_at W).trans (congrArg (fun t : IVec S800000 1 =>
      (broadcastInDim S800000x64 ![0] bcast_S800000_S800000x64_0 t : IVec S800000x64 1)) (mask1_at W))) (rows1_at W) (fill1_at W))

end Cert.Bridge.ReadTake

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.Reg0.lean ====
/-
  Region 0, the read-in layer. Every node carries twelve features (state and action side by side); the layer maps
  them to 64 channels: node r, channel q gets  slope (∑ k < 12, x[r, k] · W[k, q] + b[0, q]),  where slope v is v
  for v ≥ 0 and 0.01 · v below zero. The 50000 nodes are cut into ten blocks of 5000 consecutive rows; block t holds
  rows 5000 t … 5000 t + 4999, and the weight matrix [12, 64] and the bias row [1, 64] are whole in every block.

  A row of the result depends on that node's own twelve features and on nothing of any other node, so the block of
  the result at rows 5000 t … is computed from the block of the features at the same rows: row p of block t is row
  5000 t + p of the layer applied to the whole array. On the extended reals the change of number format before the
  product is the identity and the product into a zero accumulator is the plain sum over the twelve features, so the
  two sides are the same sum, the same added bias and the same slope; no law beyond 0 + s = s is used. The ten
  blocks tile the rows (node r lies in block r / 5000), so the written-back array is the layer of the whole array.
-/
import proofs.«421754_j82609400971716_2_alg».proof.Proof.Gen.KernelIdeal.Frame
import proofs.«421754_j82609400971716_2_alg».proof.Proof.Gen.ReferenceIdeal
import proofs.«421754_j82609400971716_2_alg».proof.Proof.Spec
import proofs.«421754_j82609400971716_2_alg».proof.Proof.LibPlainDot
import Idealize.ShloMosaic.Lib.Pipeline.Value
import Idealize.ShloMosaic.Lib.ValueIdx
import Idealize.ShloMosaic.Lib.KernelVsHost

set_option maxRecDepth 16384

noncomputable section

namespace Cert.Bridge.Reg0

open Idealize.ShloMosaic Idealize.ShloMosaic.TcCoe Idealize.SL.Sem Idealize.ShloMosaic.ValueIdx
open Cert.KernelIdeal Cert.KernelIdeal.Gen
open scoped BigOperators

/-! ## The slope, and a one-axis product, on single numbers -/

/-- The leaky slope on one extended real: `v` where `v ≥ 0`, else the slope word (0.01 as a binary32 word) times `v`. -/
def slope (v : Ideal .f32) : Ideal .f32 :=
  Scalar.select (FloatOps.cmpf .oge v (Scalar.ofBits (F := Ideal) .f32 0x00000000#32)) v
    (FloatOps.mulf (Scalar.ofBits (F := Ideal) .f32 0x3C23D70A#32) v)

/-- Compare with a splat of zero, multiply by a splat of the slope word, select: at an index it is `slope` of the entry. -/
theorem slope_vec {s : Shape} (v : FVec Ideal s .f32) (i : s.Idx) :
    select (cmpf .oge v (broadcast s (Scalar.ofBits (F := Ideal) .f32 0x00000000#32))) v
      (mulf (broadcast s (Scalar.ofBits (F := Ideal) .f32 0x3C23D70A#32)) v) i = slope (v i) := rfl

/-- The same written with constants of rank zero broadcast over the node array: again `slope` of the entry. -/
theorem leaky_apply (v : FVec Ideal Cert.ReferenceIdeal.S50000x64 .f32) (i : Cert.ReferenceIdeal.S50000x64.Idx) :
    Cert.Spec.leaky (F := Ideal) v i = slope (v i) := rfl

/-- An `A × K` by `K × B` product into the zero accumulator, at `(p, q)`, is `∑ k, lhs (p, k) · rhs (k, q)`, whatever
    number formats the two operands are declared in (every format reads as the extended reals). -/
theorem prod_zero_apply {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, (lhs (ix2 p k) : EReal) * (rhs (ix2 k q) : EReal) := by
  rw [Cert.LibPlainDot.eq_plain d hlc hrc hln hrn hlb hrb, Ideal.matmul_constant_zero_apply]
  exact Cert.LibPlainDot.plain_sum lhs rhs p q

/-! ## The two sides at an index -/

/-- The block's arithmetic at row `p`, channel `q` of a block: the twelve products of the block's row `p` with weight
    column `q`, plus the bias at channel `q`, through the slope. It reads row `p` of the feature block only. -/
theorem pay_apply (x0 : Vec Ideal S5000x12 .f32) (x1 : Vec Ideal S12x64 .f32) (x2 : Vec Ideal S1x64 .f32)
    (p : Fin 5000) (q : Fin 64) :
    (k0_pay1 (F := Ideal) x0 x1 x2) (ix2 p q)
      = slope ((∑ k : Fin 12, (x0 (ix2 p k) : EReal) * (x1 (ix2 k q) : EReal)) + (x2 (ix2 (0 : Fin 1) q) : EReal)) := by
  unfold k0_pay1
  refine (slope_vec _ (ix2 p q)).trans (congrArg slope ?_)
  refine congrArg₂ (fun a b : EReal => a + b) ?_ ?_
  · refine (prod_zero_apply dot_S5000x12_S12x64_S5000x64_1_0_0_1_n_n rfl rfl rfl rfl rfl rfl none _ _ p q).trans ?_
    refine Finset.sum_congr rfl fun k _ => ?_
    refine congrArg₂ (fun a b : EReal => a * b) ?_ rfl
    exact congrFun (shapeCast_self x0 shapeCasts_S5000x12_S5000x12) (ix2 p k)
  · refine (broadcastTo_apply _ broadcasts_S1x64_S5000x64 (ix2 p q) (ix2 (0 : Fin 1) q) ?_).trans ?_
    · intro a
      match a with
      | ⟨0, _⟩ => rfl
      | ⟨1, _⟩ => rfl
    · rw [shapeCast_self]

/-- The dense layer of the whole feature array at node `r`, channel `q`: the same sum over the node's twelve features,
    the same bias channel, the same slope. -/
theorem dense_apply (X : FVec Ideal Cert.ReferenceIdeal.S50000x12 .f32) (W : FVec Ideal Cert.ReferenceIdeal.S12x64 .f32)
    (b : FVec Ideal Cert.ReferenceIdeal.S1x64 .f32) (r : Fin 50000) (q : Fin 64) :
    Cert.Spec.denseRow (F := Ideal) X W b (ix2 r q)
      = slope ((∑ k : Fin 12, (X (ix2 r k) : EReal) * (W (ix2 k q) : EReal)) + (b (ix2 (0 : Fin 1) q) : EReal)) := by
  unfold Cert.Spec.denseRow
  refine (leaky_apply _ (ix2 r q)).trans (congrArg slope ?_)
  refine congrArg₂ (fun a b : EReal => a + b) ?_ ?_
  · exact Cert.LibPlainDot.dotGeneral_apply Cert.ReferenceIdeal.dot_S50000x12_S12x64_S50000x64_1_0_0_1_n_n rfl rfl rfl rfl rfl rfl none _ X W r q
  · exact broadcastInDim_oneRow_apply _ b r q

/-! ## The blocks -/

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the feature window and the output window step down the rows with the point,
    the weight and the bias windows stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point `t` is rows `5000 t … 5000 t + 4999` of the feature array: a block's coordinate on an
    axis is the block index times the block's extent plus the coordinate inside the block. -/
theorem xblk_apply (c : Dev nD) (t : Fin cfg0.N) (x : S5000x12.Idx) (k : S50000x12.Idx)
    (hk0 : (k 0).val = 5000 * t.val + (x 0).val) (hk1 : (k 1).val = (x 1).val) :
    (iblk0 V c 0 t : Vec Ideal S5000x12 .f32) x = (V c main_v4 : S50000x12.Idx → Elt Ideal .f32) k := by
  obtain ⟨h0, h1, -⟩ := idx_facts t
  unfold iblk0
  rw [View.read_apply]
  show V c main_v4 _ = V c main_v4 _
  congr 1
  funext a
  apply Fin.ext
  match a with
  | ⟨0, _⟩ => show win0_0.index t 0 * 5000 + 1 * (x 0).val = (k 0).val; rw [h0, hk0]; omega
  | ⟨1, _⟩ => show win0_0.index t 1 * 12 + 1 * (x 1).val = (k 1).val; rw [h1, hk1]; omega

/-- The weight block at every point is the whole weight matrix. -/
theorem wblk_apply (c : Dev nD) (t : Fin cfg0.N) (x : S12x64.Idx) :
    (iblk0 V c 1 t : Vec Ideal S12x64 .f32) x = (V c main_arg5 : S12x64.Idx → Elt Ideal .f32) x := by
  obtain ⟨-, -, h0, h1, -⟩ := idx_facts t
  unfold iblk0
  rw [View.read_apply]
  show V c main_arg5 _ = V c main_arg5 _
  congr 1
  funext a
  apply Fin.ext
  match a with
  | ⟨0, _⟩ => show win0_1.index t 0 * 12 + 1 * (x 0).val = (x 0).val; rw [h0]; omega
  | ⟨1, _⟩ => show win0_1.index t 1 * 64 + 1 * (x 1).val = (x 1).val; rw [h1]; omega

/-- The bias block at every point is the whole bias row. -/
theorem bblk_apply (c : Dev nD) (t : Fin cfg0.N) (x : S1x64.Idx) :
    (iblk0 V c 2 t : Vec Ideal S1x64 .f32) x = (V c main_v5 : S1x64.Idx → Elt Ideal .f32) x := by
  obtain ⟨-, -, -, -, h0, h1, -⟩ := idx_facts t
  unfold iblk0
  rw [View.read_apply]
  show V c main_v5 _ = V c main_v5 _
  congr 1
  funext a
  apply Fin.ext
  match a with
  | ⟨0, _⟩ => show win0_2.index t 0 * 1 + 1 * (x 0).val = (x 0).val; rw [h0]; omega
  | ⟨1, _⟩ => show win0_2.index t 1 * 64 + 1 * (x 1).val = (x 1).val; rw [h1]; omega

/-- Row `j` of point `t`'s output block is row `5000 t + j` of the dense layer of the whole arrays: the product reads
    the same twelve features of that node and the same weight column, the bias the same channel. -/
theorem block_eq (c : Dev nD) (t : Fin cfg0.N) (j : S5000x64.Idx) (i : S50000x64.Idx)
    (hi0 : (i 0).val = 5000 * t.val + (j 0).val) (hi1 : (i 1).val = (j 1).val) :
    (k0_pay1 (F := Ideal) (iblk0 V c 0 t) (iblk0 V c 1 t) (iblk0 V c 2 t)) j
      = Cert.Spec.denseRow (F := Ideal) (V c main_v4) (V c main_arg5) (V c main_v5) i := by
  obtain ⟨p, q, rfl⟩ : ∃ (p : Fin 5000) (q : Fin 64), j = ix2 p q := ⟨j 0, j 1, eq_ix2 j⟩
  obtain ⟨r, q', rfl⟩ : ∃ (r : Fin 50000) (q' : Fin 64), i = ix2 r q' := ⟨i 0, i 1, eq_ix2 i⟩
  obtain rfl : q' = q := Fin.ext hi1
  have hr : r.val = 5000 * t.val + p.val := hi0
  refine (pay_apply (iblk0 V c 0 t) (iblk0 V c 1 t) (iblk0 V c 2 t) p q').trans
    (Eq.trans (congrArg slope ?_) (dense_apply (V c main_v4) (V c main_arg5) (V c main_v5) r q').symm)
  refine congrArg₂ (fun a b : EReal => a + b) (Finset.sum_congr rfl fun k _ => ?_) ?_
  · refine congrArg₂ (fun a b : EReal => a * b) ?_ ?_
    · exact xblk_apply V c t (ix2 p k) (ix2 r k) hr rfl
    · exact wblk_apply V c t (ix2 k q')
  · exact bblk_apply V c t (ix2 (0 : Fin 1) q')

/-- What point `t` writes back is block `t` of the dense layer of the whole arrays. -/
theorem flushed_eq (c : Dev nD) (t : Fin cfg0.N) :
    (dat0 (F := Ideal) V c).flushed 3 t
      = ((cfg0.win 3).blk t).view.read (Elt Ideal)
          (Cert.Spec.denseRow (F := Ideal) (V c main_v4) (V c main_arg5) (V c main_v5)) := by
  show (cfg0.win 3).cut (grid0.coords t) ((dat0 (F := Ideal) V c).after 3 t) = _
  rw [after0_3]
  unfold out0_3
  rw [View.canon_unit_zero hz]
  simp only [View.ld_unit_zero (S := S5000x12) hz, View.ld_unit_zero (S := S12x64) hz, View.ld_unit_zero (S := S1x64) hz]
  obtain ⟨-, -, -, -, -, -, h0, h1⟩ := idx_facts t
  funext j
  refine block_eq V c t j _ ?_ ?_
  · show win0_3.index t 0 * 5000 + 1 * (j 0).val = 5000 * t.val + (j 0).val
    rw [h0]; omega
  · show win0_3.index t 1 * 64 + 1 * (j 1).val = (j 1).val
    rw [h1]; omega

/-! ## From the blocks to the array -/

/-- A node-channel index is in point `t`'s block iff each coordinate is in the block's range on its axis. -/
theorem mem_blk (t : Fin cfg0.N) (i : S50000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v6).slice (win0_3.rect t)).set ↔ _
  rw [View.set_slice_whole, Rect.mem_set_unit]
  exact Iff.rfl

/-- Every node's row is written back by the point whose block holds it: node `r` by point `r / 5000`. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  have ht : (i 0).val / 5000 < cfg0.N := by rw [hN]; omega
  obtain ⟨-, -, -, -, -, -, h0, h1⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [h0]; show (i 0).val / 5000 * 5000 ≤ (i 0).val ∧ (i 0).val < (i 0).val / 5000 * 5000 + 5000; omega
  | ⟨1, _⟩ =>
    show win0_3.index ⟨(i 0).val / 5000, ht⟩ 1 * 64 ≤ (i 1).val ∧ (i 1).val < win0_3.index ⟨(i 0).val / 5000, ht⟩ 1 * 64 + 64
    rw [h1]; omega

/-- Region 0 (the read-in layer): after its ten row blocks of 5000 nodes are written back, the output array is the dense layer of the whole feature array. -/
theorem array (c : Dev nD) :
    (dat0 (F := Ideal) V c).arrAt 3 cfg0.N = Cert.Spec.denseRow (F := Ideal) (V c main_v4) (V c main_arg5) (V c main_v5) :=
  (dat0 (F := Ideal) V c).arrAt_eq_of_cover 3 _ (fun t _ => flushed_eq V c t) cover

end Cert.Bridge.Reg0

end
-- ==== Proof.Reg1.lean ====
import proofs.«421754_j82609400971716_2_alg».proof.Proof.Gen.KernelIdeal.Frame
import proofs.«421754_j82609400971716_2_alg».proof.Proof.Gen.ReferenceIdeal
import proofs.«421754_j82609400971716_2_alg».proof.Proof.Spec
import proofs.«421754_j82609400971716_2_alg».proof.Proof.LibPlainDot
import Idealize.ShloMosaic.Lib.Pipeline.Value
import Idealize.ShloMosaic.Lib.ValueIdx

/-
  Round 0's edge messages, from row blocks to the whole array.

  The 800000 edges are cut into 100 blocks of 8000 consecutive rows. Grid point `t` sees rows
  `8000·t … 8000·t + 7999` of the gathered source rows (64 columns) and of the edge attributes (12 columns),
  and the two weight matrices whole; it writes rows `8000·t … 8000·t + 7999` of the message array. Row `p` of
  its block, column `q`, is

      ∑ k < 64, h_src[8000·t + p, k] · W_nbr[k, q]  +  ∑ k < 12, edge_attr[8000·t + p, k] · W_edge[k, q],

  the change of format in front of each product being the identity on extended reals and each product starting
  from the zero accumulator. A message depends on its own row of the two edge arrays only, so this is entry
  `(8000·t + p, q)` of the message array of ALL edges: every block is the restriction of one whole-array function.
  Every row `r` lies in exactly the block of point `r / 8000`, so the hundred write-backs leave that function.
-/

set_option maxRecDepth 16384

noncomputable section

namespace Cert.Bridge.Reg1

open Idealize.ShloMosaic Idealize.ShloMosaic.TcCoe Idealize.SL.Sem Idealize.ShloMosaic.ValueIdx
open Cert.KernelIdeal Cert.KernelIdeal.Gen
open scoped BigOperators

/-- The zero offset of a whole-block load or store. -/
theorem hz : (![0, 0] : Fin 2 → Nat) = fun _ => 0 := funext fun a => by fin_cases a <;> rfl

/-- The block indices over the grid: the two edge arrays and the message array move down their rows with the
    point, block `t` at point `t`, in their one column block; the two weight matrices stay at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What a point computes from its four blocks, at row `p` and column `q` of the block: the two products' sums
    over their contracted axes, added. -/
theorem pay_apply (x0 : FVec Ideal S8000x64 .f32) (x1 : FVec Ideal S8000x12 .f32) (x2 : FVec Ideal S64x64 .f32)
    (x3 : FVec Ideal S12x64 .f32) (p : Fin 8000) (q : Fin 64) :
    k1_pay1 (F := Ideal) x0 x1 x2 x3 (ix2 p q)
      = (∑ k : Fin 64, x0 (ix2 p k) * x2 (ix2 k q)) + ∑ k : Fin 12, x1 (ix2 p k) * x3 (ix2 k q) := by
  unfold k1_pay1
  simp only [shapeCast_self]
  rw [addf_apply]
  congr 1
  · exact Cert.LibPlainDot.matmul_zero_apply dot_S8000x64_S64x64_S8000x64_1_0_0_1_n_n rfl rfl rfl rfl rfl rfl none x0 x2 p q
  · exact Cert.LibPlainDot.matmul_zero_apply dot_S8000x12_S12x64_S8000x64_1_0_0_1_n_n rfl rfl rfl rfl rfl rfl none x1 x3 p q

/-- The message array of all edges at row `r` and column `q`: the same two sums over row `r` of the two edge arrays. -/
theorem spec_apply (hs : FVec Ideal Cert.ReferenceIdeal.S800000x64 .f32) (ea : FVec Ideal Cert.ReferenceIdeal.S800000x12 .f32)
    (wn : FVec Ideal Cert.ReferenceIdeal.S64x64 .f32) (we : FVec Ideal Cert.ReferenceIdeal.S12x64 .f32) (r : Fin 800000) (q : Fin 64) :
    Cert.Spec.edgeMsg (F := Ideal) hs ea wn we (ix2 r q)
      = (∑ k : Fin 64, hs (ix2 r k) * wn (ix2 k q)) + ∑ k : Fin 12, ea (ix2 r k) * we (ix2 k q) := by
  unfold Cert.Spec.edgeMsg
  rw [addf_apply]
  congr 1
  · exact Cert.LibPlainDot.dotGeneral_apply Cert.ReferenceIdeal.dot_S800000x64_S64x64_S800000x64_1_0_0_1_n_n rfl rfl rfl rfl rfl rfl none _ hs wn r q
  · exact Cert.LibPlainDot.dotGeneral_apply Cert.ReferenceIdeal.dot_S800000x12_S12x64_S800000x64_1_0_0_1_n_n rfl rfl rfl rfl rfl rfl none _ ea we r q

-- the TensorCore's buffer contents when the region is entered
variable (V : (c : Dev nD) → (b : Ref sig .tc) → Buf (Elt Ideal) ((c : Thread nD τ).loc b))

/-- Row `p` of point `t`'s block of the gathered source rows is row `r = 8000·t + p` of the array. -/
theorem blk0_apply (c : Dev nD) (t : Fin cfg1.N) (p : Fin 8000) (k : Fin 64) (r : Fin 800000)
    (hr : r.val = t.val * 8000 + p.val) :
    (iblk1 V c 0 t : FVec Ideal S8000x64 .f32) (ix2 p k) = (V c main_v7 : FVec Ideal S800000x64 .f32) (ix2 r k) := by
  obtain ⟨e00, e01, -⟩ := idx_facts t
  unfold iblk1
  rw [View.read_apply]
  show V c main_v7 _ = V c main_v7 _
  congr 1
  funext a
  apply Fin.ext
  match a with
  | ⟨0, _⟩ => show win1_0.index t (0 : Fin 2) * 8000 + 1 * p.val = r.val; rw [e00, hr]; omega
  | ⟨1, _⟩ => show win1_0.index t (1 : Fin 2) * 64 + 1 * k.val = k.val; rw [e01]; omega

/-- Row `p` of point `t`'s block of the edge attributes is row `r = 8000·t + p` of the array. -/
theorem blk1_apply (c : Dev nD) (t : Fin cfg1.N) (p : Fin 8000) (k : Fin 12) (r : Fin 800000)
    (hr : r.val = t.val * 8000 + p.val) :
    (iblk1 V c 1 t : FVec Ideal S8000x12 .f32) (ix2 p k) = (V c main_arg3 : FVec Ideal S800000x12 .f32) (ix2 r k) := by
  obtain ⟨-, -, e10, e11, -⟩ := idx_facts t
  unfold iblk1
  rw [View.read_apply]
  show V c main_arg3 _ = V c main_arg3 _
  congr 1
  funext a
  apply Fin.ext
  match a with
  | ⟨0, _⟩ => show win1_1.index t (0 : Fin 2) * 8000 + 1 * p.val = r.val; rw [e10, hr]; omega
  | ⟨1, _⟩ => show win1_1.index t (1 : Fin 2) * 12 + 1 * k.val = k.val; rw [e11]; omega

/-- Every point's block of the 64 × 64 matrix is the matrix. -/
theorem blk2_apply (c : Dev nD) (t : Fin cfg1.N) (k : Fin 64) (q : Fin 64) :
    (iblk1 V c 2 t : FVec Ideal S64x64 .f32) (ix2 k q) = (V c main_v9 : FVec Ideal S64x64 .f32) (ix2 k q) := by
  obtain ⟨-, -, -, -, e20, e21, -⟩ := idx_facts t
  unfold iblk1
  rw [View.read_apply]
  show V c main_v9 _ = V c main_v9 _
  congr 1
  funext a
  apply Fin.ext
  match a with
  | ⟨0, _⟩ => show win1_2.index t (0 : Fin 2) * 64 + 1 * k.val = k.val; rw [e20]; omega
  | ⟨1, _⟩ => show win1_2.index t (1 : Fin 2) * 64 + 1 * q.val = q.val; rw [e21]; omega

/-- Every point's block of the 12 × 64 matrix is the matrix. -/
theorem blk3_apply (c : Dev nD) (t : Fin cfg1.N) (k : Fin 12) (q : Fin 64) :
    (iblk1 V c 3 t : FVec Ideal S12x64 .f32) (ix2 k q) = (V c main_v11 : FVec Ideal S12x64 .f32) (ix2 k q) := by
  obtain ⟨-, -, -, -, -, -, e30, e31, -⟩ := idx_facts t
  unfold iblk1
  rw [View.read_apply]
  show V c main_v11 _ = V c main_v11 _
  congr 1
  funext a
  apply Fin.ext
  match a with
  | ⟨0, _⟩ => show win1_3.index t (0 : Fin 2) * 12 + 1 * k.val = k.val; rw [e30]; omega
  | ⟨1, _⟩ => show win1_3.index t (1 : Fin 2) * 64 + 1 * q.val = q.val; rw [e31]; omega

/-- Entry `(p, q)` of point `t`'s block of the message array sits at `(8000·t + p, q)` of the array. -/
theorem emb4 (t : Fin cfg1.N) (p : Fin 8000) (q : Fin 64) (r : Fin 800000) (hr : r.val = t.val * 8000 + p.val) :
    ((cfg1.win 4).blk t).view.emb (ix2 p q) = (ix2 r q : S800000x64.Idx) := by
  obtain ⟨-, -, -, -, -, -, -, -, e40, e41⟩ := idx_facts t
  funext a
  apply Fin.ext
  match a with
  | ⟨0, _⟩ => show win1_4.index t (0 : Fin 2) * 8000 + 1 * p.val = r.val; rw [e40, hr]; omega
  | ⟨1, _⟩ => show win1_4.index t (1 : Fin 2) * 64 + 1 * q.val = q.val; rw [e41]; omega

/-- What point `t` writes back is block `t` of the message array of all edges: entry `(p, q)` of either is the
    two sums over row `8000·t + p` of the edge arrays, term by term. -/
theorem flushed_eq (c : Dev nD) (t : Fin cfg1.N) :
    (dat1 V c).flushed 4 t = ((cfg1.win 4).blk t).view.read (Elt Ideal)
      (Cert.Spec.edgeMsg (F := Ideal) (V c main_v7) (V c main_arg3) (V c main_v9) (V c main_v11)) := by
  show (cfg1.win 4).cut (grid1.coords t) ((dat1 V c).after 4 t) = _
  rw [after1_4]
  unfold out1_4
  rw [View.canon_unit_zero hz]
  simp only [View.ld_unit_zero (S := S8000x64) hz, View.ld_unit_zero (S := S8000x12) hz, View.ld_unit_zero (S := S64x64) hz, View.ld_unit_zero (S := S12x64) hz]
  funext j
  obtain ⟨p, q, rfl⟩ : ∃ (p : Fin 8000) (q : Fin 64), j = ix2 p q := ⟨j 0, j 1, eq_ix2 j⟩
  have ht : t.val < 100 := lt_of_lt_of_eq t.isLt N_1
  have hp : p.val < 8000 := p.isLt
  obtain ⟨r, hr⟩ : ∃ r : Fin 800000, r.val = t.val * 8000 + p.val := ⟨⟨t.val * 8000 + p.val, by omega⟩, rfl⟩
  show k1_pay1 (F := Ideal) (iblk1 V c 0 t) (iblk1 V c 1 t) (iblk1 V c 2 t) (iblk1 V c 3 t) (ix2 p q)
    = Cert.Spec.edgeMsg (F := Ideal) (V c main_v7) (V c main_arg3) (V c main_v9) (V c main_v11) (((cfg1.win 4).blk t).view.emb (ix2 p q))
  rw [emb4 t p q r hr]
  refine (pay_apply (iblk1 V c 0 t) (iblk1 V c 1 t) (iblk1 V c 2 t) (iblk1 V c 3 t) p q).trans ?_
  refine Eq.trans ?_ (spec_apply (V c main_v7) (V c main_arg3) (V c main_v9) (V c main_v11) r q).symm
  congr 1
  · exact Finset.sum_congr rfl fun k _ => congrArg₂ (· * ·) (blk0_apply V c t p k r hr) (blk2_apply V c t k q)
  · exact Finset.sum_congr rfl fun k _ => congrArg₂ (· * ·) (blk1_apply V c t p k r hr) (blk3_apply V c t k q)

/-- An entry of the message array is in point `t`'s block iff its row is one of `8000·t … 8000·t + 7999` (its column is
    always one of the block's 64). -/
theorem mem_blk (t : Fin cfg1.N) (i : S800000x64.Idx) :
    i ∈ ((cfg1.win 4).blk t).view.set ↔ ∀ a : Fin 2, win1_4.index t a * S8000x64.size a ≤ (i a).val
      ∧ (i a).val < win1_4.index t a * S8000x64.size a + S8000x64.size a := by
  show i ∈ ((View.whole main_v12).slice (win1_4.rect t)).set ↔ _
  rw [View.set_slice_whole, Rect.mem_set_unit]
  exact Iff.rfl

/-- Every entry is written back by some point: row `r` by point `r / 8000`. -/
theorem cover (i : S800000x64.Idx) :
    ∃ t : Fin cfg1.N, (cfg1.win 4).flush t = true ∧ i ∈ ((cfg1.win 4).blk t).view.set := by
  have hi0 : (i 0).val < 800000 := (i 0).isLt
  have hi1 : (i 1).val < 64 := (i 1).isLt
  obtain ⟨t, ht⟩ : ∃ t : Fin cfg1.N, t.val = (i 0).val / 8000 :=
    ⟨⟨(i 0).val / 8000, lt_of_lt_of_eq (by omega : (i 0).val / 8000 < 100) N_1.symm⟩, rfl⟩
  obtain ⟨-, -, -, -, -, -, -, -, e40, e41⟩ := idx_facts t
  refine ⟨t, flush1_4 t, ?_⟩
  rw [mem_blk]
  intro a
  match a with
  | ⟨0, _⟩ =>
    show win1_4.index t (0 : Fin 2) * 8000 ≤ (i 0).val ∧ (i 0).val < win1_4.index t (0 : Fin 2) * 8000 + 8000
    rw [e40, ht]; omega
  | ⟨1, _⟩ =>
    show win1_4.index t (1 : Fin 2) * 64 ≤ (i 1).val ∧ (i 1).val < win1_4.index t (1 : Fin 2) * 64 + 64
    rw [e41]; omega

/-- Region 1 (round 0's messages): after its hundred row blocks of 8000 edges are written back, the output array is the message array of all edges. -/
theorem array (c : Dev nD) :
    (dat1 (F := Ideal) V c).arrAt 4 cfg1.N = Cert.Spec.edgeMsg (F := Ideal) (V c main_v7) (V c main_arg3) (V c main_v9) (V c main_v11) :=
  (dat1 V c).arrAt_eq_of_cover 4 _ (fun t _ => flushed_eq V c t) cover

end Cert.Bridge.Reg1

end
-- ==== Proof.Reg2.lean ====
/-
  Round 0's node update, from row blocks to the whole array.

  The region updates the 50000 nodes in ten row blocks of 5000. Grid point `t` reads rows `5000·t … 5000·t + 4999`
  of the node rows `h` and of the summed messages `agg`, the whole 64 × 64 matrix `W` and the whole bias row `b`,
  and writes the same rows of the result. Entry `(r, q)` of the block it writes depends on row `5000·t + r` of `h`
  and of `agg`, on column `q` of `W` and on `b q` only:

      leak (∑ k, h (5000·t + r, k) · W (k, q) + agg (5000·t + r, q) + b (0, q)),   leak v = v if v ≥ 0, else 0.01 · v.

  On the extended reals the change of float format in front of the block product is the identity, and a product
  accumulated into the zero array is the bare sum over the contracted axis — the same sum the whole-array product has at
  that row. So the block at `t` is rows `5000·t …` of ONE whole-array function, the specification's node update, and
  since row `R` lies in block `R / 5000` the ten blocks fill the array.
-/
import proofs.«421754_j82609400971716_2_alg».proof.Proof.Gen.KernelIdeal.Frame
import proofs.«421754_j82609400971716_2_alg».proof.Proof.Gen.ReferenceIdeal
import proofs.«421754_j82609400971716_2_alg».proof.Proof.Spec
import proofs.«421754_j82609400971716_2_alg».proof.Proof.LibPlainDot
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.Bridge.Reg2

open Idealize.ShloMosaic Idealize.ShloMosaic.TcCoe Idealize.SL.Sem
open Idealize.ShloMosaic.ValueIdx
open Cert.KernelIdeal Cert.KernelIdeal.Gen
open scoped BigOperators

/-! ## One entry of the update, on both sides -/

/-- The leaky slope on one value: `v` where `v ≥ 0`, else `0.01 · v` (the slope as its binary32 word). -/
def leak (v : Ideal .f32) : Ideal .f32 :=
  Scalar.select (FloatOps.cmpf .oge v (Scalar.ofBits (F := Ideal) .f32 0x00000000#32)) v
    (FloatOps.mulf (Scalar.ofBits (F := Ideal) .f32 0x3C23D70A#32) v)

/-- Entry `(r, q)` of the body's result, from the four blocks it loads: the slope of row `r` of the node block times
    column `q` of the matrix, plus the message block's entry, plus the bias at `q`. The casts to the same shape and
    the change of format are the identity; the product into the zero array is the sum over the 64 contracted channels;
    the bias row is repeated down the rows; compare, scale and select act entry by entry. -/
theorem pay_apply (x0 : FVec Ideal S5000x64 .f32) (x1 : FVec Ideal S64x64 .f32) (x2 : FVec Ideal S5000x64 .f32)
    (x3 : FVec Ideal S1x64 .f32) (r : Fin 5000) (q : Fin 64) :
    k2_pay1 (F := Ideal) x0 x1 x2 x3 (ix2 r q)
      = leak ((∑ k : Fin 64, x0 (ix2 r k) * x1 (ix2 k q)) + x2 (ix2 r q) + x3 (ix2 (0 : Fin 1) q)) := by
  unfold k2_pay1
  simp only [shapeCast_self]
  refine congrArg leak ?_
  refine congrArg₂ (· + ·) (congrArg₂ (· + ·) ?_ rfl) ?_
  · exact Cert.LibPlainDot.matmul_zero_apply dot_S5000x64_S64x64_S5000x64_1_0_0_1_n_n rfl rfl rfl rfl rfl rfl none x0 x1 r q
  · exact broadcastTo_1b_ab_apply x3 broadcasts_S1x64_S5000x64 r q

/-- Entry `(R, q)` of the specification's node update over whole arrays: the same expression at row `R`. The
    whole-array product at `(R, q)` is the sum over the 64 contracted channels, the bias row is repeated down the
    50000 rows, and the slope acts entry by entry. -/
theorem nodeRow_apply (h : FVec Ideal Cert.ReferenceIdeal.S50000x64 .f32) (ws : FVec Ideal Cert.ReferenceIdeal.S64x64 .f32)
    (agg : FVec Ideal Cert.ReferenceIdeal.S50000x64 .f32) (b : FVec Ideal Cert.ReferenceIdeal.S1x64 .f32) (R : Fin 50000) (q : Fin 64) :
    Cert.Spec.nodeRow (F := Ideal) h ws agg b (ix2 R q)
      = leak ((∑ k : Fin 64, h (ix2 R k) * ws (ix2 k q)) + agg (ix2 R q) + b (ix2 (0 : Fin 1) q)) := by
  unfold Cert.Spec.nodeRow Cert.Spec.leaky Cert.Spec.biasRows
  refine congrArg leak ?_
  refine congrArg₂ (· + ·) (congrArg₂ (· + ·) ?_ rfl) ?_
  · exact Cert.LibPlainDot.dotGeneral_apply Cert.ReferenceIdeal.dot_S50000x64_S64x64_S50000x64_1_0_0_1_n_n rfl rfl rfl rfl rfl rfl none _ h ws R q
  · exact broadcastInDim_oneRow_apply Cert.ReferenceIdeal.Facts₀.bcast_S1x64_S50000x64_0_1 b R q

/-! ## The blocks of the four inputs and of the output -/

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The block indices at grid point `t`: the node rows, the summed messages and the result move down the rows with
    `t` (block row `t`, block column 0); the matrix and the bias row stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Block `t` of the node rows: entry `(r, k)` is the array's entry at row `5000·t + r`. -/
theorem iblk0_apply (c : Dev nD) (t : Fin cfg2.N) (r : Fin 5000) (k : Fin 64) (R : Fin 50000) (hR : R.val = t.val * 5000 + r.val) :
    (iblk2 V c 0 t : Vec Ideal S5000x64 .f32) (ix2 r k) = (V c main_v6 : S50000x64.Idx → Ideal .f32) (ix2 R k) := by
  obtain ⟨e0, e1, -⟩ := idx_facts t
  unfold iblk2
  rw [View.read_apply]
  show V c main_v6 _ = V c main_v6 _
  congr 1
  funext a
  apply Fin.ext
  match a with
  | ⟨0, _⟩ => show win2_0.index t (0 : Fin 2) * 5000 + 1 * r.val = R.val; rw [e0, hR]; omega
  | ⟨1, _⟩ => show win2_0.index t (1 : Fin 2) * 64 + 1 * k.val = k.val; rw [e1]; omega

/-- The matrix block is the whole 64 × 64 matrix at every point. -/
theorem iblk1_apply (c : Dev nD) (t : Fin cfg2.N) (k : Fin 64) (q : Fin 64) :
    (iblk2 V c 1 t : Vec Ideal S64x64 .f32) (ix2 k q) = (V c main_v17 : S64x64.Idx → Ideal .f32) (ix2 k q) := by
  obtain ⟨-, -, e0, e1, -⟩ := idx_facts t
  unfold iblk2
  rw [View.read_apply]
  show V c main_v17 _ = V c main_v17 _
  congr 1
  funext a
  apply Fin.ext
  match a with
  | ⟨0, _⟩ => show win2_1.index t (0 : Fin 2) * 64 + 1 * k.val = k.val; rw [e0]; omega
  | ⟨1, _⟩ => show win2_1.index t (1 : Fin 2) * 64 + 1 * q.val = q.val; rw [e1]; omega

/-- Block `t` of the summed messages: the same rows as the node block. -/
theorem iblk2_apply (c : Dev nD) (t : Fin cfg2.N) (r : Fin 5000) (q : Fin 64) (R : Fin 50000) (hR : R.val = t.val * 5000 + r.val) :
    (iblk2 V c 2 t : Vec Ideal S5000x64 .f32) (ix2 r q) = (V c main_v15 : S50000x64.Idx → Ideal .f32) (ix2 R q) := by
  obtain ⟨-, -, -, -, e0, e1, -⟩ := idx_facts t
  unfold iblk2
  rw [View.read_apply]
  show V c main_v15 _ = V c main_v15 _
  congr 1
  funext a
  apply Fin.ext
  match a with
  | ⟨0, _⟩ => show win2_2.index t (0 : Fin 2) * 5000 + 1 * r.val = R.val; rw [e0, hR]; omega
  | ⟨1, _⟩ => show win2_2.index t (1 : Fin 2) * 64 + 1 * q.val = q.val; rw [e1]; omega

/-- The bias block is the whole row at every point. -/
theorem iblk3_apply (c : Dev nD) (t : Fin cfg2.N) (z : Fin 1) (q : Fin 64) :
    (iblk2 V c 3 t : Vec Ideal S1x64 .f32) (ix2 z q) = (V c main_v20 : S1x64.Idx → Ideal .f32) (ix2 z q) := by
  obtain ⟨-, -, -, -, -, -, e0, e1, -⟩ := idx_facts t
  unfold iblk2
  rw [View.read_apply]
  show V c main_v20 _ = V c main_v20 _
  congr 1
  funext a
  apply Fin.ext
  match a with
  | ⟨0, _⟩ => show win2_3.index t (0 : Fin 2) * 1 + 1 * z.val = z.val; rw [e0]; omega
  | ⟨1, _⟩ => show win2_3.index t (1 : Fin 2) * 64 + 1 * q.val = q.val; rw [e1]; omega

/-- Where entry `(r, q)` of output block `t` sits in the array: row `5000·t + r`, column `q`. -/
theorem emb4 (t : Fin cfg2.N) (r : Fin 5000) (q : Fin 64) (R : Fin 50000) (hR : R.val = t.val * 5000 + r.val) :
    ((cfg2.win 4).blk t).view.emb (ix2 r q) = (ix2 R q : S50000x64.Idx) := by
  obtain ⟨-, -, -, -, -, -, -, -, e0, e1⟩ := idx_facts t
  funext a
  apply Fin.ext
  match a with
  | ⟨0, _⟩ => show win2_4.index t (0 : Fin 2) * 5000 + 1 * r.val = R.val; rw [e0, hR]; omega
  | ⟨1, _⟩ => show win2_4.index t (1 : Fin 2) * 64 + 1 * q.val = q.val; rw [e1]; omega

/-! ## What a point writes back is its rows of the whole-array update -/

/-- Entry `(r, q)` of what point `t` leaves for the output is the update of node `5000·t + r` at channel `q`: both
    sides are the slope of the same sum, the block entries being the arrays' entries at that row. -/
theorem blk_apply (c : Dev nD) (t : Fin cfg2.N) (r : Fin 5000) (q : Fin 64) :
    k2_pay1 (F := Ideal) (iblk2 V c 0 t) (iblk2 V c 1 t) (iblk2 V c 2 t) (iblk2 V c 3 t) (ix2 r q)
      = Cert.Spec.nodeRow (F := Ideal) (V c main_v6) (V c main_v17) (V c main_v15) (V c main_v20)
          (((cfg2.win 4).blk t).view.emb (ix2 r q)) := by
  have hN : cfg2.N = 10 := N_2
  have ht : t.val < 10 := hN ▸ t.isLt
  have hr : r.val < 5000 := r.isLt
  let R : Fin 50000 := ⟨t.val * 5000 + r.val, by omega⟩
  have hR : R.val = t.val * 5000 + r.val := rfl
  refine (pay_apply (iblk2 V c 0 t) (iblk2 V c 1 t) (iblk2 V c 2 t) (iblk2 V c 3 t) r q).trans ?_
  rw [emb4 t r q R hR]
  refine Eq.trans ?_ (nodeRow_apply (V c main_v6) (V c main_v17) (V c main_v15) (V c main_v20) R q).symm
  refine congrArg leak (congrArg₂ (· + ·) (congrArg₂ (· + ·) (Finset.sum_congr rfl fun k _ => ?_) ?_) ?_)
  · exact congrArg₂ (· * ·) (iblk0_apply V c t r k R hR) (iblk1_apply V c t k q)
  · exact iblk2_apply V c t r q R hR
  · exact iblk3_apply V c t 0 q

/-- What point `t` writes back is block `t` of the node update of the whole arrays. -/
theorem flushed_eq (c : Dev nD) (t : Fin cfg2.N) :
    (dat2 (F := Ideal) V c).flushed 4 t = ((cfg2.win 4).blk t).view.read (Elt Ideal)
      (Cert.Spec.nodeRow (F := Ideal) (V c main_v6) (V c main_v17) (V c main_v15) (V c main_v20)) := by
  show (cfg2.win 4).cut (grid2.coords t) ((dat2 V c).after 4 t) = _
  rw [after2_4]
  unfold out2_4
  rw [View.canon_unit_zero hz]
  simp only [View.ld_unit_zero (S := S5000x64) hz, View.ld_unit_zero (S := S64x64) hz, View.ld_unit_zero (S := S1x64) hz]
  funext j
  show k2_pay1 (F := Ideal) (iblk2 V c 0 t) (iblk2 V c 1 t) (iblk2 V c 2 t) (iblk2 V c 3 t) j
      = Cert.Spec.nodeRow (F := Ideal) (V c main_v6) (V c main_v17) (V c main_v15) (V c main_v20) (((cfg2.win 4).blk t).view.emb j)
  have hj : (j : S5000x64.Idx) = ix2 (j 0) (j 1) := eq_ix2 (n0 := 5000) (n1 := 64) j
  rw [hj]
  exact blk_apply V c t (j 0) (j 1)

/-! ## The ten blocks fill the array -/

/-- An index of the array is in point `t`'s block iff each coordinate is in the block's range on its axis. -/
theorem mem_blk (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v21).slice (win2_4.rect t)).set ↔ _
  rw [View.set_slice_whole, Rect.mem_set_unit]
  exact Iff.rfl

/-- Every row lies in a block that is written back: row `R` in block `R / 5000`. -/
theorem cover (i : S50000x64.Idx) :
    ∃ t : Fin cfg2.N, (cfg2.win 4).flush t = true ∧ i ∈ ((cfg2.win 4).blk t).view.set := by
  have hN : cfg2.N = 10 := N_2
  have hi0 : (i 0).val < 50000 := (i 0).isLt
  have hi1 : (i 1).val < 64 := (i 1).isLt
  let t : Fin cfg2.N := ⟨(i 0).val / 5000, by rw [hN]; omega⟩
  have htv : t.val = (i 0).val / 5000 := rfl
  obtain ⟨-, -, -, -, -, -, -, -, e0, e1⟩ := idx_facts t
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    rw [e0, htv]; omega
  | ⟨1, _⟩ =>
    show win2_4.index t (1 : Fin 2) * 64 ≤ (i 1).val ∧ (i 1).val < win2_4.index t (1 : Fin 2) * 64 + 64
    rw [e1]; omega

/-- Region 2 (round 0's node update): after its ten row blocks of 5000 nodes are written back, the output array is the update of all nodes. -/
theorem array (c : Dev nD) :
    (dat2 (F := Ideal) V c).arrAt 4 cfg2.N = Cert.Spec.nodeRow (F := Ideal) (V c main_v6) (V c main_v17) (V c main_v15) (V c main_v20) :=
  (dat2 (F := Ideal) V c).arrAt_eq_of_cover 4
    (Cert.Spec.nodeRow (F := Ideal) (V c main_v6) (V c main_v17) (V c main_v15) (V c main_v20))
    (fun t _ => flushed_eq V c t) cover

end Cert.Bridge.Reg2

end
-- ==== Proof.Reg3.lean ====
import proofs.«421754_j82609400971716_2_alg».proof.Proof.Gen.KernelIdeal.Frame
import proofs.«421754_j82609400971716_2_alg».proof.Proof.Gen.ReferenceIdeal
import proofs.«421754_j82609400971716_2_alg».proof.Proof.Spec
import proofs.«421754_j82609400971716_2_alg».proof.Proof.LibPlainDot
import Idealize.ShloMosaic.Lib.Pipeline.Value
import Idealize.ShloMosaic.Lib.ValueIdx

/-
  Round 1's edge messages, from row blocks to the whole array.

  The 800000 edges are cut into 100 blocks of 8000 consecutive rows. Grid point `t` sees rows
  `8000·t … 8000·t + 7999` of the second round's gathered source rows (64 columns) and of the edge attributes
  (12 columns), and the second round's two weight matrices whole; it writes rows `8000·t … 8000·t + 7999` of the
  message array. Row `p` of its block, column `q`, is

      ∑ k < 64, h_src[8000·t + p, k] · W_nbr[k, q]  +  ∑ k < 12, edge_attr[8000·t + p, k] · W_edge[k, q],

  the change of format in front of each product being the identity on extended reals and each product starting
  from the zero accumulator. A message depends on its own row of the two edge arrays only, so this is entry
  `(8000·t + p, q)` of the message array of ALL edges: every block is the restriction of one whole-array function.
  Every row `r` lies in exactly the block of point `r / 8000`, so the hundred write-backs leave that function.
-/

set_option maxRecDepth 16384

noncomputable section

namespace Cert.Bridge.Reg3

open Idealize.ShloMosaic Idealize.ShloMosaic.TcCoe Idealize.SL.Sem Idealize.ShloMosaic.ValueIdx
open Cert.KernelIdeal Cert.KernelIdeal.Gen
open scoped BigOperators

/-- The zero offset of a whole-block load or store. -/
theorem hz : (![0, 0] : Fin 2 → Nat) = fun _ => 0 := funext fun a => by fin_cases a <;> rfl

/-- The block indices over the grid: the two edge arrays and the message array move down their rows with the
    point, block `t` at point `t`, in their one column block; the two weight matrices stay at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What a point computes from its four blocks, at row `p` and column `q` of the block: the two products' sums
    over their contracted axes, added. -/
theorem pay_apply (x0 : FVec Ideal S8000x64 .f32) (x1 : FVec Ideal S8000x12 .f32) (x2 : FVec Ideal S64x64 .f32)
    (x3 : FVec Ideal S12x64 .f32) (p : Fin 8000) (q : Fin 64) :
    k3_pay1 (F := Ideal) x0 x1 x2 x3 (ix2 p q)
      = (∑ k : Fin 64, x0 (ix2 p k) * x2 (ix2 k q)) + ∑ k : Fin 12, x1 (ix2 p k) * x3 (ix2 k q) := by
  unfold k3_pay1
  simp only [shapeCast_self]
  rw [addf_apply]
  congr 1
  · exact Cert.LibPlainDot.matmul_zero_apply dot_S8000x64_S64x64_S8000x64_1_0_0_1_n_n rfl rfl rfl rfl rfl rfl none x0 x2 p q
  · exact Cert.LibPlainDot.matmul_zero_apply dot_S8000x12_S12x64_S8000x64_1_0_0_1_n_n rfl rfl rfl rfl rfl rfl none x1 x3 p q

/-- The message array of all edges at row `r` and column `q`: the same two sums over row `r` of the two edge arrays. -/
theorem spec_apply (hs : FVec Ideal Cert.ReferenceIdeal.S800000x64 .f32) (ea : FVec Ideal Cert.ReferenceIdeal.S800000x12 .f32)
    (wn : FVec Ideal Cert.ReferenceIdeal.S64x64 .f32) (we : FVec Ideal Cert.ReferenceIdeal.S12x64 .f32) (r : Fin 800000) (q : Fin 64) :
    Cert.Spec.edgeMsg (F := Ideal) hs ea wn we (ix2 r q)
      = (∑ k : Fin 64, hs (ix2 r k) * wn (ix2 k q)) + ∑ k : Fin 12, ea (ix2 r k) * we (ix2 k q) := by
  unfold Cert.Spec.edgeMsg
  rw [addf_apply]
  congr 1
  · exact Cert.LibPlainDot.dotGeneral_apply Cert.ReferenceIdeal.dot_S800000x64_S64x64_S800000x64_1_0_0_1_n_n rfl rfl rfl rfl rfl rfl none _ hs wn r q
  · exact Cert.LibPlainDot.dotGeneral_apply Cert.ReferenceIdeal.dot_S800000x12_S12x64_S800000x64_1_0_0_1_n_n rfl rfl rfl rfl rfl rfl none _ ea we r q

-- the TensorCore's buffer contents when the region is entered
variable (V : (c : Dev nD) → (b : Ref sig .tc) → Buf (Elt Ideal) ((c : Thread nD τ).loc b))

/-- Row `p` of point `t`'s block of the gathered source rows is row `r = 8000·t + p` of the array. -/
theorem blk0_apply (c : Dev nD) (t : Fin cfg3.N) (p : Fin 8000) (k : Fin 64) (r : Fin 800000)
    (hr : r.val = t.val * 8000 + p.val) :
    (iblk3 V c 0 t : FVec Ideal S8000x64 .f32) (ix2 p k) = (V c main_v22 : FVec Ideal S800000x64 .f32) (ix2 r k) := by
  obtain ⟨e00, e01, -⟩ := idx_facts t
  unfold iblk3
  rw [View.read_apply]
  show V c main_v22 _ = V c main_v22 _
  congr 1
  funext a
  apply Fin.ext
  match a with
  | ⟨0, _⟩ => show win3_0.index t (0 : Fin 2) * 8000 + 1 * p.val = r.val; rw [e00, hr]; omega
  | ⟨1, _⟩ => show win3_0.index t (1 : Fin 2) * 64 + 1 * k.val = k.val; rw [e01]; omega

/-- Row `p` of point `t`'s block of the edge attributes is row `r = 8000·t + p` of the array. -/
theorem blk1_apply (c : Dev nD) (t : Fin cfg3.N) (p : Fin 8000) (k : Fin 12) (r : Fin 800000)
    (hr : r.val = t.val * 8000 + p.val) :
    (iblk3 V c 1 t : FVec Ideal S8000x12 .f32) (ix2 p k) = (V c main_arg3 : FVec Ideal S800000x12 .f32) (ix2 r k) := by
  obtain ⟨-, -, e10, e11, -⟩ := idx_facts t
  unfold iblk3
  rw [View.read_apply]
  show V c main_arg3 _ = V c main_arg3 _
  congr 1
  funext a
  apply Fin.ext
  match a with
  | ⟨0, _⟩ => show win3_1.index t (0 : Fin 2) * 8000 + 1 * p.val = r.val; rw [e10, hr]; omega
  | ⟨1, _⟩ => show win3_1.index t (1 : Fin 2) * 12 + 1 * k.val = k.val; rw [e11]; omega

/-- Every point's block of the 64 × 64 matrix is the matrix. -/
theorem blk2_apply (c : Dev nD) (t : Fin cfg3.N) (k : Fin 64) (q : Fin 64) :
    (iblk3 V c 2 t : FVec Ideal S64x64 .f32) (ix2 k q) = (V c main_v24 : FVec Ideal S64x64 .f32) (ix2 k q) := by
  obtain ⟨-, -, -, -, e20, e21, -⟩ := idx_facts t
  unfold iblk3
  rw [View.read_apply]
  show V c main_v24 _ = V c main_v24 _
  congr 1
  funext a
  apply Fin.ext
  match a with
  | ⟨0, _⟩ => show win3_2.index t (0 : Fin 2) * 64 + 1 * k.val = k.val; rw [e20]; omega
  | ⟨1, _⟩ => show win3_2.index t (1 : Fin 2) * 64 + 1 * q.val = q.val; rw [e21]; omega

/-- Every point's block of the 12 × 64 matrix is the matrix. -/
theorem blk3_apply (c : Dev nD) (t : Fin cfg3.N) (k : Fin 12) (q : Fin 64) :
    (iblk3 V c 3 t : FVec Ideal S12x64 .f32) (ix2 k q) = (V c main_v26 : FVec Ideal S12x64 .f32) (ix2 k q) := by
  obtain ⟨-, -, -, -, -, -, e30, e31, -⟩ := idx_facts t
  unfold iblk3
  rw [View.read_apply]
  show V c main_v26 _ = V c main_v26 _
  congr 1
  funext a
  apply Fin.ext
  match a with
  | ⟨0, _⟩ => show win3_3.index t (0 : Fin 2) * 12 + 1 * k.val = k.val; rw [e30]; omega
  | ⟨1, _⟩ => show win3_3.index t (1 : Fin 2) * 64 + 1 * q.val = q.val; rw [e31]; omega

/-- Entry `(p, q)` of point `t`'s block of the message array sits at `(8000·t + p, q)` of the array. -/
theorem emb4 (t : Fin cfg3.N) (p : Fin 8000) (q : Fin 64) (r : Fin 800000) (hr : r.val = t.val * 8000 + p.val) :
    ((cfg3.win 4).blk t).view.emb (ix2 p q) = (ix2 r q : S800000x64.Idx) := by
  obtain ⟨-, -, -, -, -, -, -, -, e40, e41⟩ := idx_facts t
  funext a
  apply Fin.ext
  match a with
  | ⟨0, _⟩ => show win3_4.index t (0 : Fin 2) * 8000 + 1 * p.val = r.val; rw [e40, hr]; omega
  | ⟨1, _⟩ => show win3_4.index t (1 : Fin 2) * 64 + 1 * q.val = q.val; rw [e41]; omega

/-- What point `t` writes back is block `t` of the message array of all edges: entry `(p, q)` of either is the
    two sums over row `8000·t + p` of the edge arrays, term by term. -/
theorem flushed_eq (c : Dev nD) (t : Fin cfg3.N) :
    (dat3 V c).flushed 4 t = ((cfg3.win 4).blk t).view.read (Elt Ideal)
      (Cert.Spec.edgeMsg (F := Ideal) (V c main_v22) (V c main_arg3) (V c main_v24) (V c main_v26)) := by
  show (cfg3.win 4).cut (grid3.coords t) ((dat3 V c).after 4 t) = _
  rw [after3_4]
  unfold out3_4
  rw [View.canon_unit_zero hz]
  simp only [View.ld_unit_zero (S := S8000x64) hz, View.ld_unit_zero (S := S8000x12) hz, View.ld_unit_zero (S := S64x64) hz, View.ld_unit_zero (S := S12x64) hz]
  funext j
  obtain ⟨p, q, rfl⟩ : ∃ (p : Fin 8000) (q : Fin 64), j = ix2 p q := ⟨j 0, j 1, eq_ix2 j⟩
  have ht : t.val < 100 := lt_of_lt_of_eq t.isLt N_3
  have hp : p.val < 8000 := p.isLt
  obtain ⟨r, hr⟩ : ∃ r : Fin 800000, r.val = t.val * 8000 + p.val := ⟨⟨t.val * 8000 + p.val, by omega⟩, rfl⟩
  show k3_pay1 (F := Ideal) (iblk3 V c 0 t) (iblk3 V c 1 t) (iblk3 V c 2 t) (iblk3 V c 3 t) (ix2 p q)
    = Cert.Spec.edgeMsg (F := Ideal) (V c main_v22) (V c main_arg3) (V c main_v24) (V c main_v26) (((cfg3.win 4).blk t).view.emb (ix2 p q))
  rw [emb4 t p q r hr]
  refine (pay_apply (iblk3 V c 0 t) (iblk3 V c 1 t) (iblk3 V c 2 t) (iblk3 V c 3 t) p q).trans ?_
  refine Eq.trans ?_ (spec_apply (V c main_v22) (V c main_arg3) (V c main_v24) (V c main_v26) r q).symm
  congr 1
  · exact Finset.sum_congr rfl fun k _ => congrArg₂ (· * ·) (blk0_apply V c t p k r hr) (blk2_apply V c t k q)
  · exact Finset.sum_congr rfl fun k _ => congrArg₂ (· * ·) (blk1_apply V c t p k r hr) (blk3_apply V c t k q)

/-- An entry of the message array is in point `t`'s block iff its row is one of `8000·t … 8000·t + 7999` (its column is
    always one of the block's 64). -/
theorem mem_blk (t : Fin cfg3.N) (i : S800000x64.Idx) :
    i ∈ ((cfg3.win 4).blk t).view.set ↔ ∀ a : Fin 2, win3_4.index t a * S8000x64.size a ≤ (i a).val
      ∧ (i a).val < win3_4.index t a * S8000x64.size a + S8000x64.size a := by
  show i ∈ ((View.whole main_v27).slice (win3_4.rect t)).set ↔ _
  rw [View.set_slice_whole, Rect.mem_set_unit]
  exact Iff.rfl

/-- Every entry is written back by some point: row `r` by point `r / 8000`. -/
theorem cover (i : S800000x64.Idx) :
    ∃ t : Fin cfg3.N, (cfg3.win 4).flush t = true ∧ i ∈ ((cfg3.win 4).blk t).view.set := by
  have hi0 : (i 0).val < 800000 := (i 0).isLt
  have hi1 : (i 1).val < 64 := (i 1).isLt
  obtain ⟨t, ht⟩ : ∃ t : Fin cfg3.N, t.val = (i 0).val / 8000 :=
    ⟨⟨(i 0).val / 8000, lt_of_lt_of_eq (by omega : (i 0).val / 8000 < 100) N_3.symm⟩, rfl⟩
  obtain ⟨-, -, -, -, -, -, -, -, e40, e41⟩ := idx_facts t
  refine ⟨t, flush3_4 t, ?_⟩
  rw [mem_blk]
  intro a
  match a with
  | ⟨0, _⟩ =>
    show win3_4.index t (0 : Fin 2) * 8000 ≤ (i 0).val ∧ (i 0).val < win3_4.index t (0 : Fin 2) * 8000 + 8000
    rw [e40, ht]; omega
  | ⟨1, _⟩ =>
    show win3_4.index t (1 : Fin 2) * 64 ≤ (i 1).val ∧ (i 1).val < win3_4.index t (1 : Fin 2) * 64 + 64
    rw [e41]; omega

/-- Region 3 (round 1's messages): after its hundred row blocks of 8000 edges are written back, the output array is the message array of all edges. -/
theorem array (c : Dev nD) :
    (dat3 (F := Ideal) V c).arrAt 4 cfg3.N = Cert.Spec.edgeMsg (F := Ideal) (V c main_v22) (V c main_arg3) (V c main_v24) (V c main_v26) :=
  (dat3 V c).arrAt_eq_of_cover 4 _ (fun t _ => flushed_eq V c t) cover

end Cert.Bridge.Reg3

end
-- ==== Proof.Reg4.lean ====
/-
  Round 1's node update, from row blocks to the whole array.

  The region updates the 50000 nodes in ten row blocks of 5000. Grid point `t` reads rows `5000·t … 5000·t + 4999`
  of the node rows `h` (round 0's result) and of the summed messages `agg`, the whole 64 × 64 matrix `W` and the
  whole bias row `b`, and writes the same rows of the result. Entry `(r, q)` of the block it writes depends on row
  `5000·t + r` of `h` and of `agg`, on column `q` of `W` and on `b q` only:

      leak (∑ k, h (5000·t + r, k) · W (k, q) + agg (5000·t + r, q) + b (0, q)),   leak v = v if v ≥ 0, else 0.01 · v.

  On the extended reals the change of float format in front of the block product is the identity, and a product
  accumulated into the zero array is the bare sum over the contracted axis — the same sum the whole-array product has at
  that row. So the block at `t` is rows `5000·t …` of ONE whole-array function, the specification's node update, and
  since row `R` lies in block `R / 5000` the ten blocks fill the array.
-/
import proofs.«421754_j82609400971716_2_alg».proof.Proof.Gen.KernelIdeal.Frame
import proofs.«421754_j82609400971716_2_alg».proof.Proof.Gen.ReferenceIdeal
import proofs.«421754_j82609400971716_2_alg».proof.Proof.Spec
import proofs.«421754_j82609400971716_2_alg».proof.Proof.LibPlainDot
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.Bridge.Reg4

open Idealize.ShloMosaic Idealize.ShloMosaic.TcCoe Idealize.SL.Sem
open Idealize.ShloMosaic.ValueIdx
open Cert.KernelIdeal Cert.KernelIdeal.Gen
open scoped BigOperators

/-! ## One entry of the update, on both sides -/

/-- The leaky slope on one value: `v` where `v ≥ 0`, else `0.01 · v` (the slope as its binary32 word). -/
def leak (v : Ideal .f32) : Ideal .f32 :=
  Scalar.select (FloatOps.cmpf .oge v (Scalar.ofBits (F := Ideal) .f32 0x00000000#32)) v
    (FloatOps.mulf (Scalar.ofBits (F := Ideal) .f32 0x3C23D70A#32) v)

/-- Entry `(r, q)` of the body's result, from the four blocks it loads: the slope of row `r` of the node block times
    column `q` of the matrix, plus the message block's entry, plus the bias at `q`. The casts to the same shape and
    the change of format are the identity; the product into the zero array is the sum over the 64 contracted channels;
    the bias row is repeated down the rows; compare, scale and select act entry by entry. -/
theorem pay_apply (x0 : FVec Ideal S5000x64 .f32) (x1 : FVec Ideal S64x64 .f32) (x2 : FVec Ideal S5000x64 .f32)
    (x3 : FVec Ideal S1x64 .f32) (r : Fin 5000) (q : Fin 64) :
    k4_pay1 (F := Ideal) x0 x1 x2 x3 (ix2 r q)
      = leak ((∑ k : Fin 64, x0 (ix2 r k) * x1 (ix2 k q)) + x2 (ix2 r q) + x3 (ix2 (0 : Fin 1) q)) := by
  unfold k4_pay1
  simp only [shapeCast_self]
  refine congrArg leak ?_
  refine congrArg₂ (· + ·) (congrArg₂ (· + ·) ?_ rfl) ?_
  · exact Cert.LibPlainDot.matmul_zero_apply dot_S5000x64_S64x64_S5000x64_1_0_0_1_n_n rfl rfl rfl rfl rfl rfl none x0 x1 r q
  · exact broadcastTo_1b_ab_apply x3 broadcasts_S1x64_S5000x64 r q

/-- Entry `(R, q)` of the specification's node update over whole arrays: the same expression at row `R`. The
    whole-array product at `(R, q)` is the sum over the 64 contracted channels, the bias row is repeated down the
    50000 rows, and the slope acts entry by entry. -/
theorem nodeRow_apply (h : FVec Ideal Cert.ReferenceIdeal.S50000x64 .f32) (ws : FVec Ideal Cert.ReferenceIdeal.S64x64 .f32)
    (agg : FVec Ideal Cert.ReferenceIdeal.S50000x64 .f32) (b : FVec Ideal Cert.ReferenceIdeal.S1x64 .f32) (R : Fin 50000) (q : Fin 64) :
    Cert.Spec.nodeRow (F := Ideal) h ws agg b (ix2 R q)
      = leak ((∑ k : Fin 64, h (ix2 R k) * ws (ix2 k q)) + agg (ix2 R q) + b (ix2 (0 : Fin 1) q)) := by
  unfold Cert.Spec.nodeRow Cert.Spec.leaky Cert.Spec.biasRows
  refine congrArg leak ?_
  refine congrArg₂ (· + ·) (congrArg₂ (· + ·) ?_ rfl) ?_
  · exact Cert.LibPlainDot.dotGeneral_apply Cert.ReferenceIdeal.dot_S50000x64_S64x64_S50000x64_1_0_0_1_n_n rfl rfl rfl rfl rfl rfl none _ h ws R q
  · exact broadcastInDim_oneRow_apply Cert.ReferenceIdeal.Facts₀.bcast_S1x64_S50000x64_0_1 b R q

/-! ## The blocks of the four inputs and of the output -/

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The block indices at grid point `t`: the node rows, the summed messages and the result move down the rows with
    `t` (block row `t`, block column 0); the matrix and the bias row stay at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Block `t` of the node rows: entry `(r, k)` is the array's entry at row `5000·t + r`. -/
theorem iblk0_apply (c : Dev nD) (t : Fin cfg4.N) (r : Fin 5000) (k : Fin 64) (R : Fin 50000) (hR : R.val = t.val * 5000 + r.val) :
    (iblk4 V c 0 t : Vec Ideal S5000x64 .f32) (ix2 r k) = (V c main_v21 : S50000x64.Idx → Ideal .f32) (ix2 R k) := by
  obtain ⟨e0, e1, -⟩ := idx_facts t
  unfold iblk4
  rw [View.read_apply]
  show V c main_v21 _ = V c main_v21 _
  congr 1
  funext a
  apply Fin.ext
  match a with
  | ⟨0, _⟩ => show win4_0.index t (0 : Fin 2) * 5000 + 1 * r.val = R.val; rw [e0, hR]; omega
  | ⟨1, _⟩ => show win4_0.index t (1 : Fin 2) * 64 + 1 * k.val = k.val; rw [e1]; omega

/-- The matrix block is the whole 64 × 64 matrix at every point. -/
theorem iblk1_apply (c : Dev nD) (t : Fin cfg4.N) (k : Fin 64) (q : Fin 64) :
    (iblk4 V c 1 t : Vec Ideal S64x64 .f32) (ix2 k q) = (V c main_v32 : S64x64.Idx → Ideal .f32) (ix2 k q) := by
  obtain ⟨-, -, e0, e1, -⟩ := idx_facts t
  unfold iblk4
  rw [View.read_apply]
  show V c main_v32 _ = V c main_v32 _
  congr 1
  funext a
  apply Fin.ext
  match a with
  | ⟨0, _⟩ => show win4_1.index t (0 : Fin 2) * 64 + 1 * k.val = k.val; rw [e0]; omega
  | ⟨1, _⟩ => show win4_1.index t (1 : Fin 2) * 64 + 1 * q.val = q.val; rw [e1]; omega

/-- Block `t` of the summed messages: the same rows as the node block. -/
theorem iblk2_apply (c : Dev nD) (t : Fin cfg4.N) (r : Fin 5000) (q : Fin 64) (R : Fin 50000) (hR : R.val = t.val * 5000 + r.val) :
    (iblk4 V c 2 t : Vec Ideal S5000x64 .f32) (ix2 r q) = (V c main_v30 : S50000x64.Idx → Ideal .f32) (ix2 R q) := by
  obtain ⟨-, -, -, -, e0, e1, -⟩ := idx_facts t
  unfold iblk4
  rw [View.read_apply]
  show V c main_v30 _ = V c main_v30 _
  congr 1
  funext a
  apply Fin.ext
  match a with
  | ⟨0, _⟩ => show win4_2.index t (0 : Fin 2) * 5000 + 1 * r.val = R.val; rw [e0, hR]; omega
  | ⟨1, _⟩ => show win4_2.index t (1 : Fin 2) * 64 + 1 * q.val = q.val; rw [e1]; omega

/-- The bias block is the whole row at every point. -/
theorem iblk3_apply (c : Dev nD) (t : Fin cfg4.N) (z : Fin 1) (q : Fin 64) :
    (iblk4 V c 3 t : Vec Ideal S1x64 .f32) (ix2 z q) = (V c main_v35 : S1x64.Idx → Ideal .f32) (ix2 z q) := by
  obtain ⟨-, -, -, -, -, -, e0, e1, -⟩ := idx_facts t
  unfold iblk4
  rw [View.read_apply]
  show V c main_v35 _ = V c main_v35 _
  congr 1
  funext a
  apply Fin.ext
  match a with
  | ⟨0, _⟩ => show win4_3.index t (0 : Fin 2) * 1 + 1 * z.val = z.val; rw [e0]; omega
  | ⟨1, _⟩ => show win4_3.index t (1 : Fin 2) * 64 + 1 * q.val = q.val; rw [e1]; omega

/-- Where entry `(r, q)` of output block `t` sits in the array: row `5000·t + r`, column `q`. -/
theorem emb4 (t : Fin cfg4.N) (r : Fin 5000) (q : Fin 64) (R : Fin 50000) (hR : R.val = t.val * 5000 + r.val) :
    ((cfg4.win 4).blk t).view.emb (ix2 r q) = (ix2 R q : S50000x64.Idx) := by
  obtain ⟨-, -, -, -, -, -, -, -, e0, e1⟩ := idx_facts t
  funext a
  apply Fin.ext
  match a with
  | ⟨0, _⟩ => show win4_4.index t (0 : Fin 2) * 5000 + 1 * r.val = R.val; rw [e0, hR]; omega
  | ⟨1, _⟩ => show win4_4.index t (1 : Fin 2) * 64 + 1 * q.val = q.val; rw [e1]; omega

/-! ## What a point writes back is its rows of the whole-array update -/

/-- Entry `(r, q)` of what point `t` leaves for the output is the update of node `5000·t + r` at channel `q`: both
    sides are the slope of the same sum, the block entries being the arrays' entries at that row. -/
theorem blk_apply (c : Dev nD) (t : Fin cfg4.N) (r : Fin 5000) (q : Fin 64) :
    k4_pay1 (F := Ideal) (iblk4 V c 0 t) (iblk4 V c 1 t) (iblk4 V c 2 t) (iblk4 V c 3 t) (ix2 r q)
      = Cert.Spec.nodeRow (F := Ideal) (V c main_v21) (V c main_v32) (V c main_v30) (V c main_v35)
          (((cfg4.win 4).blk t).view.emb (ix2 r q)) := by
  have hN : cfg4.N = 10 := N_4
  have ht : t.val < 10 := hN ▸ t.isLt
  have hr : r.val < 5000 := r.isLt
  let R : Fin 50000 := ⟨t.val * 5000 + r.val, by omega⟩
  have hR : R.val = t.val * 5000 + r.val := rfl
  refine (pay_apply (iblk4 V c 0 t) (iblk4 V c 1 t) (iblk4 V c 2 t) (iblk4 V c 3 t) r q).trans ?_
  rw [emb4 t r q R hR]
  refine Eq.trans ?_ (nodeRow_apply (V c main_v21) (V c main_v32) (V c main_v30) (V c main_v35) R q).symm
  refine congrArg leak (congrArg₂ (· + ·) (congrArg₂ (· + ·) (Finset.sum_congr rfl fun k _ => ?_) ?_) ?_)
  · exact congrArg₂ (· * ·) (iblk0_apply V c t r k R hR) (iblk1_apply V c t k q)
  · exact iblk2_apply V c t r q R hR
  · exact iblk3_apply V c t 0 q

/-- What point `t` writes back is block `t` of the node update of the whole arrays. -/
theorem flushed_eq (c : Dev nD) (t : Fin cfg4.N) :
    (dat4 (F := Ideal) V c).flushed 4 t = ((cfg4.win 4).blk t).view.read (Elt Ideal)
      (Cert.Spec.nodeRow (F := Ideal) (V c main_v21) (V c main_v32) (V c main_v30) (V c main_v35)) := by
  show (cfg4.win 4).cut (grid4.coords t) ((dat4 V c).after 4 t) = _
  rw [after4_4]
  unfold out4_4
  rw [View.canon_unit_zero hz]
  simp only [View.ld_unit_zero (S := S5000x64) hz, View.ld_unit_zero (S := S64x64) hz, View.ld_unit_zero (S := S1x64) hz]
  funext j
  show k4_pay1 (F := Ideal) (iblk4 V c 0 t) (iblk4 V c 1 t) (iblk4 V c 2 t) (iblk4 V c 3 t) j
      = Cert.Spec.nodeRow (F := Ideal) (V c main_v21) (V c main_v32) (V c main_v30) (V c main_v35) (((cfg4.win 4).blk t).view.emb j)
  have hj : (j : S5000x64.Idx) = ix2 (j 0) (j 1) := eq_ix2 (n0 := 5000) (n1 := 64) j
  rw [hj]
  exact blk_apply V c t (j 0) (j 1)

/-! ## The ten blocks fill the array -/

/-- An index of the array is in point `t`'s block iff each coordinate is in the block's range on its axis. -/
theorem mem_blk (t : Fin cfg4.N) (i : S50000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v36).slice (win4_4.rect t)).set ↔ _
  rw [View.set_slice_whole, Rect.mem_set_unit]
  exact Iff.rfl

/-- Every row lies in a block that is written back: row `R` in block `R / 5000`. -/
theorem cover (i : S50000x64.Idx) :
    ∃ t : Fin cfg4.N, (cfg4.win 4).flush t = true ∧ i ∈ ((cfg4.win 4).blk t).view.set := by
  have hN : cfg4.N = 10 := N_4
  have hi0 : (i 0).val < 50000 := (i 0).isLt
  have hi1 : (i 1).val < 64 := (i 1).isLt
  let t : Fin cfg4.N := ⟨(i 0).val / 5000, by rw [hN]; omega⟩
  have htv : t.val = (i 0).val / 5000 := rfl
  obtain ⟨-, -, -, -, -, -, -, -, e0, e1⟩ := idx_facts t
  refine ⟨t, flush4_4 t, ?_⟩
  rw [mem_blk]
  intro a
  match a with
  | ⟨0, _⟩ =>
    show win4_4.index t (0 : Fin 2) * 5000 ≤ (i 0).val ∧ (i 0).val < win4_4.index t (0 : Fin 2) * 5000 + 5000
    rw [e0, htv]; omega
  | ⟨1, _⟩ =>
    show win4_4.index t (1 : Fin 2) * 64 ≤ (i 1).val ∧ (i 1).val < win4_4.index t (1 : Fin 2) * 64 + 64
    rw [e1]; omega

/-- Region 4 (round 1's node update): after its ten row blocks of 5000 nodes are written back, the output array is the update of all nodes. -/
theorem array (c : Dev nD) :
    (dat4 (F := Ideal) V c).arrAt 4 cfg4.N = Cert.Spec.nodeRow (F := Ideal) (V c main_v21) (V c main_v32) (V c main_v30) (V c main_v35) :=
  (dat4 (F := Ideal) V c).arrAt_eq_of_cover 4
    (Cert.Spec.nodeRow (F := Ideal) (V c main_v21) (V c main_v32) (V c main_v30) (V c main_v35))
    (fun t _ => flushed_eq V c t) cover

end Cert.Bridge.Reg4

end
-- ==== Proof.Reg5.lean ====
/-
  The read-out region of the Pallas program, as one function of whole arrays.

  The region runs over ten grid points. Point `t` stages rows `5000 t … 5000 t + 4999` of the node array
  `h : [50000, 64]`, the whole weight column `W_out : [64, 1]` and the whole bias `b : [1, 1]`, and writes back
  rows `5000 t … 5000 t + 4999` of the output column `[50000, 1]`. Its body computes, for row `y` of the block,

      (∑ k < 64, h_blk[y, k] · W_out[k, 0]) + b[0, 0]:

  the two operands pass through a narrower float format (the identity on extended reals), the product is
  accumulated into a zero block (so it is the plain sum over the 64 channels), and the bias is repeated down the rows.
  The read-out stage of the specification is, at node `r`, `(∑ k < 64, h[r, k] · W_out[k, 0]) + b[0, 0]` (the host's
  product has no accumulator and the bias is repeated down the 50000 nodes). Since row `y` of block `t` is node
  `5000 t + y`, what point `t` writes back is block `t` of the stage; the ten blocks fill the column (node `r`
  lies in block `r / 5000`), so after the region the column is the stage. No algebraic law beyond reading both
  products as the same finite sum is used, and nothing asks the entries to be finite.
-/
import proofs.«421754_j82609400971716_2_alg».proof.Proof.Gen.KernelIdeal.Frame
import proofs.«421754_j82609400971716_2_alg».proof.Proof.Gen.ReferenceIdeal
import proofs.«421754_j82609400971716_2_alg».proof.Proof.Spec
import proofs.«421754_j82609400971716_2_alg».proof.Proof.LibPlainDot
import Idealize.ShloMosaic.Lib.Pipeline.Value
import Idealize.ShloMosaic.Lib.ValueIdx

set_option maxRecDepth 16384

noncomputable section

namespace Cert.Bridge.Reg5

open Idealize.ShloMosaic Idealize.ShloMosaic.TcCoe Idealize.SL.Sem Idealize.ShloMosaic.ValueIdx
open Cert.KernelIdeal Cert.KernelIdeal.Gen
open scoped BigOperators

/-! ## One entry of the body's result and of the stage -/

/-- The body's result at row `p` of a block: the block's row against the weight column, plus the bias. The format
    changes are the identity on extended reals, the product into the zero accumulator is the plain sum over the
    64 channels, and the `[1, 1]` bias repeated down the rows reads its one entry. -/
theorem payload_apply (x0 : Vec Ideal S5000x64 .f32) (x1 : Vec Ideal S64x1 .f32) (x2 : Vec Ideal S1x1 .f32)
    (p : Fin 5000) (q : Fin 1) :
    k5_pay1 (F := Ideal) x0 x1 x2 (ix2 p q) = (∑ k : Fin 64, x0 (ix2 p k) * x1 (ix2 k q)) + x2 (ix2 0 0) := by
  unfold k5_pay1
  simp only [shapeCast_self]
  rw [addf_apply]
  refine congrArg₂ (· + ·) ?_ ?_
  · exact Cert.LibPlainDot.matmul_zero_apply dot_S5000x64_S64x1_S5000x1_1_0_0_1_n_n rfl rfl rfl rfl rfl rfl none x0 x1 p q
  · exact broadcastTo_apply x2 broadcasts_S1x1_S5000x1 (ix2 p q) (ix2 0 0)
      (fun a => by match a with | ⟨0, _⟩ => rfl | ⟨1, _⟩ => rfl)

/-- The read-out stage at node `r`: the node's row against the weight column, plus the bias. -/
theorem readout_apply (h : FVec Ideal Cert.ReferenceIdeal.S50000x64 .f32) (wo : FVec Ideal Cert.ReferenceIdeal.S64x1 .f32)
    (b : FVec Ideal Cert.ReferenceIdeal.S1x1 .f32) (r : Fin 50000) (q : Fin 1) :
    Cert.Spec.readoutRow (F := Ideal) h wo b (ix2 r q) = (∑ k : Fin 64, h (ix2 r k) * wo (ix2 k q)) + b (ix2 0 0) := by
  unfold Cert.Spec.readoutRow
  rw [addf_apply]
  refine congrArg₂ (· + ·) ?_ ?_
  · exact Cert.LibPlainDot.dotGeneral_apply Cert.ReferenceIdeal.dot_S50000x64_S64x1_S50000x1_1_0_0_1_n_n
      rfl rfl rfl rfl rfl rfl none .single h wo r q
  · exact broadcastInDim_apply ![0, 1] _ b (ix2 r q) (ix2 0 0)
      (fun a => by match a with | ⟨0, _⟩ => rfl | ⟨1, _⟩ => rfl)

/-- One entry of a block's result against one entry of the stage: they are equal when row `y 0` of the block is
    row `i 0` of the node array, channel by channel, and the two small operands agree entry by entry. -/
theorem entry_eq (x0 : Vec Ideal S5000x64 .f32) (x1 : Vec Ideal S64x1 .f32) (x2 : Vec Ideal S1x1 .f32)
    (h : FVec Ideal S50000x64 .f32) (wo : FVec Ideal S64x1 .f32) (b : FVec Ideal S1x1 .f32)
    (y : S5000x1.Idx) (i : S50000x1.Idx)
    (hx0 : ∀ k : Fin 64, x0 (ix2 ⟨(y 0).val, idx2_lt0 y⟩ k) = h (ix2 ⟨(i 0).val, idx2_lt0 i⟩ k))
    (hx1 : ∀ k : Fin 64, x1 (ix2 k 0) = wo (ix2 k 0)) (hx2 : x2 (ix2 0 0) = b (ix2 0 0)) :
    k5_pay1 (F := Ideal) x0 x1 x2 y = Cert.Spec.readoutRow (F := Ideal) h wo b i := by
  obtain ⟨p, q, rfl⟩ : ∃ (p : Fin 5000) (q : Fin 1), y = ix2 p q := ⟨y 0, y 1, eq_ix2 y⟩
  obtain ⟨r, q', rfl⟩ : ∃ (r : Fin 50000) (q' : Fin 1), i = ix2 r q' := ⟨i 0, i 1, eq_ix2 i⟩
  obtain rfl : q = 0 := Subsingleton.elim _ _
  obtain rfl : q' = 0 := Subsingleton.elim _ _
  have hx0' : ∀ k : Fin 64, x0 (ix2 p k) = h (ix2 r k) := hx0
  rw [payload_apply, readout_apply, hx2]
  exact congrArg (· + b (ix2 0 0)) (Finset.sum_congr rfl fun k _ => by rw [hx0' k, hx1 k])

/-! ## From the ten blocks to the column -/

-- the TensorCore's buffer contents when the region is entered
variable (V : (c : Dev nD) → (b : Ref sig .tc) → Buf (Elt Ideal) ((c : Thread nD τ).loc b))

/-- The zero offsets of an access to a whole staging buffer, as the constant function. -/
theorem zero_offsets : (![0, 0] : Fin 2 → Nat) = fun _ => 0 := funext fun a => by fin_cases a <;> rfl

/-- The index maps over the ten grid points: the node block and the output block of point `t` are both row block
    `t` (column block 0); the weight column and the bias are block 0 on both axes, that is whole, at every point. -/
theorem block_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` writes back is row block `t` of the read-out of all nodes: row `y` of the node block is node
    `5000 t + y`, the node that row `y` of the output block lands on, and the weight column and the bias are the
    whole arrays (a block's coordinate in its array is block index × block size + the coordinate inside the block). -/
theorem writeback_eq (c : Dev nD) (t : Fin cfg5.N) :
    (dat5 (F := Ideal) V c).flushed 3 t = ((cfg5.win 3).blk t).view.read (Elt Ideal)
      (Cert.Spec.readoutRow (F := Ideal) (V c main_v36) (V c main_arg11) (V c main_v37)) := by
  show (cfg5.win 3).cut (grid5.coords t) ((dat5 (F := Ideal) V c).after 3 t) = _
  rw [after5_3]
  unfold out5_3
  rw [View.canon_unit_zero zero_offsets]
  simp only [View.ld_unit_zero (S := S5000x64) zero_offsets, View.ld_unit_zero (S := S64x1) zero_offsets,
    View.ld_unit_zero (S := S1x1) zero_offsets]
  obtain ⟨e00, e01, e10, e11, e20, e21, e30, e31⟩ := block_indices t
  funext j
  show k5_pay1 (F := Ideal) (iblk5 V c 0 t) (iblk5 V c 1 t) (iblk5 V c 2 t) ((cfg5.win 3).xinj (grid5.coords t) j)
    = Cert.Spec.readoutRow (F := Ideal) (V c main_v36) (V c main_arg11) (V c main_v37) (((cfg5.win 3).blk t).view.emb j)
  refine entry_eq (iblk5 V c 0 t) (iblk5 V c 1 t) (iblk5 V c 2 t) (V c main_v36) (V c main_arg11) (V c main_v37)
    ((cfg5.win 3).xinj (grid5.coords t) j) (((cfg5.win 3).blk t).view.emb j) ?_ ?_ ?_
  · -- the node block's row against the node array's row
    intro k
    unfold iblk5
    show V c main_v36 (((cfg5.win 0).blk t).view.emb (ix2 ⟨(j 0).val, _⟩ k)) = _
    refine congrArg (V c main_v36) (funext fun a => Fin.ext ?_)
    match a with
    | ⟨0, _⟩ =>
      show win5_0.index t (0 : Fin 2) * 5000 + 1 * (j 0).val = win5_3.index t (0 : Fin 2) * 5000 + 1 * (j 0).val
      rw [e00, e30]
    | ⟨1, _⟩ => show win5_0.index t (1 : Fin 2) * 64 + 1 * k.val = k.val; rw [e01]; omega
  · -- the staged weight column is the whole weight column
    intro k
    unfold iblk5
    show V c main_arg11 (((cfg5.win 1).blk t).view.emb (ix2 k 0)) = _
    refine congrArg (V c main_arg11) (funext fun a => Fin.ext ?_)
    match a with
    | ⟨0, _⟩ => show win5_1.index t (0 : Fin 2) * 64 + 1 * k.val = k.val; rw [e10]; omega
    | ⟨1, _⟩ => show win5_1.index t (1 : Fin 2) * 1 + 1 * 0 = 0; rw [e11]
  · -- the staged bias is the whole bias
    unfold iblk5
    show V c main_v37 (((cfg5.win 2).blk t).view.emb (ix2 0 0)) = _
    refine congrArg (V c main_v37) (funext fun a => Fin.ext ?_)
    match a with
    | ⟨0, _⟩ => show win5_2.index t (0 : Fin 2) * 1 + 1 * 0 = 0; rw [e20]
    | ⟨1, _⟩ => show win5_2.index t (1 : Fin 2) * 1 + 1 * 0 = 0; rw [e21]

/-- A node's index is in point `t`'s output block iff, on each axis, it lies in the block's range. -/
theorem mem_outBlock (t : Fin cfg5.N) (i : S50000x1.Idx) :
    i ∈ ((cfg5.win 3).blk t).view.set ↔ ∀ a : Fin 2, win5_3.index t a * S5000x1.size a ≤ (i a).val
      ∧ (i a).val < win5_3.index t a * S5000x1.size a + S5000x1.size a := by
  show i ∈ ((View.whole main_v38).slice (win5_3.rect t)).set ↔ _
  rw [View.set_slice_whole, Rect.mem_set_unit]
  exact Iff.rfl

/-- The ten output blocks fill the column: node `r` is in the block of point `r / 5000`, and every point writes back. -/
theorem outBlocks_cover (i : S50000x1.Idx) :
    ∃ t : Fin cfg5.N, (cfg5.win 3).flush t = true ∧ i ∈ ((cfg5.win 3).blk t).view.set := by
  have hi0 : (i 0).val < 50000 := idx2_lt0 i
  have hi1 : (i 1).val < 1 := idx2_lt1 i
  have hN : cfg5.N = 10 := N_5
  have ht : (i 0).val / 5000 < cfg5.N := by rw [hN]; omega
  obtain ⟨-, -, -, -, -, -, e30, e31⟩ := block_indices ⟨(i 0).val / 5000, ht⟩
  refine ⟨⟨(i 0).val / 5000, ht⟩, flush5_3 _, ?_⟩
  rw [mem_outBlock]
  intro a
  match a with
  | ⟨0, _⟩ =>
    show win5_3.index ⟨(i 0).val / 5000, ht⟩ (0 : Fin 2) * 5000 ≤ (i 0).val
      ∧ (i 0).val < win5_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win5_3.index ⟨(i 0).val / 5000, ht⟩ (1 : Fin 2) * 1 ≤ (i 1).val
      ∧ (i 1).val < win5_3.index ⟨(i 0).val / 5000, ht⟩ (1 : Fin 2) * 1 + 1
    rw [e31]; omega

/-- Region 5 (the read-out): after its ten row blocks of 5000 nodes are written back, the output column is the read-out of all nodes. -/
theorem array (c : Dev nD) :
    (dat5 (F := Ideal) V c).arrAt 3 cfg5.N = Cert.Spec.readoutRow (F := Ideal) (V c main_v36) (V c main_arg11) (V c main_v37) :=
  (dat5 (F := Ideal) V c).arrAt_eq_of_cover 3 _ (fun t _ => writeback_eq V c t) outBlocks_cover

end Cert.Bridge.Reg5

end
-- ==== Proof.KChain.lean ====
/-
  The Pallas program's result buffer, read back through its run.

  The buffer contents at the segment boundaries form a chain from the launch memory: a stretch of host operations
  writes slices, reshapes, the gathered source rows or the sums of messages; a region leaves its output array at the
  stage of the network its kernel computes (Proof/Reg0 … Reg5), every other buffer unchanged. Walking the chain, the
  node rows after the read-in layer, after round 0 and after round 1, the two message arrays, the read-out column and
  at last the result are named as functions of the launch arguments; where every source index is a node number the
  guarded gather is the plain one, a reshaped bias is the bias as a row, and the result is the network of Proof/Spec.lean.
-/
import proofs.«421754_j82609400971716_2_alg».proof.Proof.Gen.KernelIdeal.Frame
import proofs.«421754_j82609400971716_2_alg».proof.Proof.Gen.ReferenceIdeal
import proofs.«421754_j82609400971716_2_alg».proof.Proof.Spec
import proofs.«421754_j82609400971716_2_alg».proof.Proof.Take
import proofs.«421754_j82609400971716_2_alg».proof.Proof.KPass
import proofs.«421754_j82609400971716_2_alg».proof.Proof.KRead
import proofs.«421754_j82609400971716_2_alg».proof.Proof.KTake
import proofs.«421754_j82609400971716_2_alg».proof.Proof.Reg0
import proofs.«421754_j82609400971716_2_alg».proof.Proof.Reg1
import proofs.«421754_j82609400971716_2_alg».proof.Proof.Reg2
import proofs.«421754_j82609400971716_2_alg».proof.Proof.Reg3
import proofs.«421754_j82609400971716_2_alg».proof.Proof.Reg4
import proofs.«421754_j82609400971716_2_alg».proof.Proof.Reg5

set_option maxRecDepth 16384

noncomputable section

namespace Cert.Bridge.Chain

open Idealize.ShloMosaic Idealize.ShloMosaic.TcCoe Idealize.SL.Sem
open Cert.KernelIdeal Cert.KernelIdeal.Gen
open Cert.Bridge.Pass Cert.Bridge.Read Cert.Bridge.ReadTake

theorem congr2 {α β γ : Sort _} (f : α → β → γ) {a a' : α} {b b' : β} (ha : a = a') (hb : b = b') : f a b = f a' b' := by
  subst ha hb; rfl
theorem congr3 {α β γ δ : Sort _} (f : α → β → γ → δ) {a a' : α} {b b' : β} {c c' : γ} (ha : a = a') (hb : b = b') (hc : c = c') :
    f a b c = f a' b' c' := by subst ha hb hc; rfl
theorem congr4 {α β γ δ ε : Sort _} (f : α → β → γ → δ → ε) {a a' : α} {b b' : β} {c c' : γ} {d d' : δ}
    (ha : a = a') (hb : b = b') (hc : c = c') (hd : d = d') : f a b c d = f a' b' c' d' := by subst ha hb hc hd; rfl

variable (m : (ℓ : Loc nD τ sig) → Buf (Elt Ideal) ℓ) (ρ : Dev nD → PrngReg)

/-- The launch contents of a buffer on core `c`. -/
abbrev X (c : Dev nD) (b : Ref sig .tc) := W0 m ρ c (Proc.devRef .tc b)

/-! ## The stages, as the Pallas program reaches them -/

/-- The edges' source and destination indices. -/
def src (c : Dev nD) : IVec S800000 32 := Cert.Spec.srcOf (X m ρ c main_arg2)
def dst (c : Dev nD) : IVec S800000 32 := Cert.Spec.dstOf (X m ρ c main_arg2)
/-- A bias vector reshaped to a row. -/
abbrev row (b : FVec Ideal S64 .f32) : FVec Ideal S1x64 .f32 := shapeCast S1x64 b shapeCasts_S64_S1x64
/-- The node rows after the read-in layer. -/
def h0 (c : Dev nD) : FVec Ideal S50000x64 .f32 :=
  Cert.Spec.denseRow (Cert.Spec.features (X m ρ c main_arg0) (X m ρ c main_arg1)) (X m ρ c main_arg5) (row (X m ρ c main_arg6))
/-- Round 0's messages, over the guarded gather. -/
def msg0 (c : Dev nD) : FVec Ideal S800000x64 .f32 :=
  Cert.Spec.edgeMsg (Cert.Bridge.Take.takeFill (h0 m ρ c) (src m ρ c)) (X m ρ c main_arg3) (Cert.Spec.mat0 (X m ρ c main_arg8)) (Cert.Spec.emat0 (X m ρ c main_arg9))
/-- The node rows after round 0. -/
def h1 (c : Dev nD) : FVec Ideal S50000x64 .f32 :=
  Cert.Spec.nodeRow (h0 m ρ c) (Cert.Spec.mat0 (X m ρ c main_arg7)) (Cert.Spec.aggregate (dst m ρ c) (msg0 m ρ c)) (row (Cert.Spec.bias0 (X m ρ c main_arg10)))
/-- Round 1's messages. -/
def msg1 (c : Dev nD) : FVec Ideal S800000x64 .f32 :=
  Cert.Spec.edgeMsg (Cert.Bridge.Take.takeFill (h1 m ρ c) (src m ρ c)) (X m ρ c main_arg3) (Cert.Spec.mat1 (X m ρ c main_arg8)) (Cert.Spec.emat1 (X m ρ c main_arg9))
/-- The node rows after round 1. -/
def h2 (c : Dev nD) : FVec Ideal S50000x64 .f32 :=
  Cert.Spec.nodeRow (h1 m ρ c) (Cert.Spec.mat1 (X m ρ c main_arg7)) (Cert.Spec.aggregate (dst m ρ c) (msg1 m ρ c)) (row (Cert.Spec.bias1 (X m ρ c main_arg10)))
/-- The read-out column. -/
def ycol (c : Dev nD) : FVec Ideal S50000x1 .f32 :=
  Cert.Spec.readoutRow (h2 m ρ c) (X m ρ c main_arg11) (shapeCast S1x1 ((X m ρ c main_arg12) : FVec Ideal S1 .f32) shapeCasts_S1_S1x1)
/-- The result. -/
def out (c : Dev nD) : FVec Ideal S128x1 .f32 := Cert.Spec.graphMean (ycol m ρ c) (X m ρ c main_arg4)

/-! ## Region 0: the read-in layer -/

theorem v4_1 (c : Dev nD) : W1 m ρ c (Proc.devRef .tc main_v4) = Cert.Spec.features (F := Ideal) (X m ρ c main_arg0) (X m ρ c main_arg1) := features_at (W0 m ρ c)
theorem v5_1 (c : Dev nD) : W1 m ρ c (Proc.devRef .tc main_v5) = row (X m ρ c main_arg6) := biasIn_at (W0 m ρ c)
theorem v1_1 (c : Dev nD) : W1 m ρ c (Proc.devRef .tc main_v1) = src m ρ c := src_at (W0 m ρ c)
theorem v3_1 (c : Dev nD) : W1 m ρ c (Proc.devRef .tc main_v3) = dst m ρ c := dst_at (W0 m ρ c)

theorem v6_2 (c : Dev nD) : W2 m ρ c (Proc.devRef .tc main_v6) = h0 m ρ c :=
  (W2_arr m ρ c 3).trans ((Cert.Bridge.Reg0.array (V1 m ρ) c).trans
    (congr3 (Cert.Spec.denseRow (F := Ideal)) (v4_1 m ρ c) (pass_main_arg5_1_0 m ρ c) (v5_1 m ρ c)))

/-! ## Round 0 -/

theorem v1_2 (c : Dev nD) : W2 m ρ c (Proc.devRef .tc main_v1) = src m ρ c := (pass_main_v1_2_1 m ρ c).trans (v1_1 m ρ c)

theorem v7_3 (c : Dev nD) : W3 m ρ c (Proc.devRef .tc main_v7) = Cert.Bridge.Take.takeFill (h0 m ρ c) (src m ρ c) :=
  (take0_at (W2 m ρ c)).trans (congr2 (Cert.Bridge.Take.takeFill (F := Ideal)) (v6_2 m ρ c) (v1_2 m ρ c))

theorem v9_4 (c : Dev nD) : W4 m ρ c (Proc.devRef .tc main_v9) = Cert.Spec.mat0 (F := Ideal) (X m ρ c main_arg8) :=
  (wNbr0_at (W3 m ρ c)).trans (congrArg (Cert.Spec.mat0 (F := Ideal)) (pass_main_arg8_3_0 m ρ c))
theorem v11_4 (c : Dev nD) : W4 m ρ c (Proc.devRef .tc main_v11) = Cert.Spec.emat0 (F := Ideal) (X m ρ c main_arg9) :=
  (wEdge0_at (W3 m ρ c)).trans (congrArg (Cert.Spec.emat0 (F := Ideal)) (pass_main_arg9_3_0 m ρ c))

theorem v12_5 (c : Dev nD) : W5 m ρ c (Proc.devRef .tc main_v12) = msg0 m ρ c :=
  (W5_arr m ρ c 4).trans ((Cert.Bridge.Reg1.array (V4 m ρ) c).trans
    (congr4 (Cert.Spec.edgeMsg (F := Ideal)) ((pass_main_v7_4_3 m ρ c).trans (v7_3 m ρ c)) (pass_main_arg3_4_0 m ρ c) (v9_4 m ρ c) (v11_4 m ρ c)))

theorem v15_6 (c : Dev nD) : W6 m ρ c (Proc.devRef .tc main_v15) = Cert.Spec.aggregate (dst m ρ c) (msg0 m ρ c) :=
  (agg0_at (W5 m ρ c)).trans (congr2 (Cert.Spec.aggregate (F := Ideal)) ((pass_main_v3_5_1 m ρ c).trans (v3_1 m ρ c)) (v12_5 m ρ c))
theorem v17_6 (c : Dev nD) : W6 m ρ c (Proc.devRef .tc main_v17) = Cert.Spec.mat0 (F := Ideal) (X m ρ c main_arg7) :=
  (wSelf0_at (W5 m ρ c)).trans (congrArg (Cert.Spec.mat0 (F := Ideal)) (pass_main_arg7_5_0 m ρ c))
theorem v20_6 (c : Dev nD) : W6 m ρ c (Proc.devRef .tc main_v20) = row (Cert.Spec.bias0 (X m ρ c main_arg10)) :=
  (bias0_at (W5 m ρ c)).trans (congrArg (fun b => row (Cert.Spec.bias0 (F := Ideal) b)) (pass_main_arg10_5_0 m ρ c))

theorem v21_7 (c : Dev nD) : W7 m ρ c (Proc.devRef .tc main_v21) = h1 m ρ c :=
  (W7_arr m ρ c 4).trans ((Cert.Bridge.Reg2.array (V6 m ρ) c).trans
    (congr4 (Cert.Spec.nodeRow (F := Ideal)) ((pass_main_v6_6_2 m ρ c).trans (v6_2 m ρ c)) (v17_6 m ρ c) (v15_6 m ρ c) (v20_6 m ρ c)))

/-! ## Round 1 -/

theorem v22_8 (c : Dev nD) : W8 m ρ c (Proc.devRef .tc main_v22) = Cert.Bridge.Take.takeFill (h1 m ρ c) (src m ρ c) :=
  (take1_at (W7 m ρ c)).trans (congr2 (Cert.Bridge.Take.takeFill (F := Ideal)) (v21_7 m ρ c) ((pass_main_v1_7_1 m ρ c).trans (v1_1 m ρ c)))

theorem v24_9 (c : Dev nD) : W9 m ρ c (Proc.devRef .tc main_v24) = Cert.Spec.mat1 (F := Ideal) (X m ρ c main_arg8) :=
  (wNbr1_at (W8 m ρ c)).trans (congrArg (Cert.Spec.mat1 (F := Ideal)) (pass_main_arg8_8_0 m ρ c))
theorem v26_9 (c : Dev nD) : W9 m ρ c (Proc.devRef .tc main_v26) = Cert.Spec.emat1 (F := Ideal) (X m ρ c main_arg9) :=
  (wEdge1_at (W8 m ρ c)).trans (congrArg (Cert.Spec.emat1 (F := Ideal)) (pass_main_arg9_8_0 m ρ c))

theorem v27_10 (c : Dev nD) : W10 m ρ c (Proc.devRef .tc main_v27) = msg1 m ρ c :=
  (W10_arr m ρ c 4).trans ((Cert.Bridge.Reg3.array (V9 m ρ) c).trans
    (congr4 (Cert.Spec.edgeMsg (F := Ideal)) ((pass_main_v22_9_8 m ρ c).trans (v22_8 m ρ c)) (pass_main_arg3_9_0 m ρ c) (v24_9 m ρ c) (v26_9 m ρ c)))

theorem v30_11 (c : Dev nD) : W11 m ρ c (Proc.devRef .tc main_v30) = Cert.Spec.aggregate (dst m ρ c) (msg1 m ρ c) :=
  (agg1_at (W10 m ρ c)).trans (congr2 (Cert.Spec.aggregate (F := Ideal)) ((pass_main_v3_10_1 m ρ c).trans (v3_1 m ρ c)) (v27_10 m ρ c))
theorem v32_11 (c : Dev nD) : W11 m ρ c (Proc.devRef .tc main_v32) = Cert.Spec.mat1 (F := Ideal) (X m ρ c main_arg7) :=
  (wSelf1_at (W10 m ρ c)).trans (congrArg (Cert.Spec.mat1 (F := Ideal)) (pass_main_arg7_10_0 m ρ c))
theorem v35_11 (c : Dev nD) : W11 m ρ c (Proc.devRef .tc main_v35) = row (Cert.Spec.bias1 (X m ρ c main_arg10)) :=
  (bias1_at (W10 m ρ c)).trans (congrArg (fun b => row (Cert.Spec.bias1 (F := Ideal) b)) (pass_main_arg10_10_0 m ρ c))

theorem v36_12 (c : Dev nD) : W12 m ρ c (Proc.devRef .tc main_v36) = h2 m ρ c :=
  (W12_arr m ρ c 4).trans ((Cert.Bridge.Reg4.array (V11 m ρ) c).trans
    (congr4 (Cert.Spec.nodeRow (F := Ideal)) ((pass_main_v21_11_7 m ρ c).trans (v21_7 m ρ c)) (v32_11 m ρ c) (v30_11 m ρ c) (v35_11 m ρ c)))

/-! ## The read-out and the per-graph mean -/

theorem v37_13 (c : Dev nD) : W13 m ρ c (Proc.devRef .tc main_v37)
    = (shapeCast S1x1 ((X m ρ c main_arg12) : FVec Ideal S1 .f32) shapeCasts_S1_S1x1 : FVec Ideal S1x1 .f32) :=
  (biasOut_at (W12 m ρ c)).trans (congrArg (fun b : FVec Ideal S1 .f32 => shapeCast S1x1 b shapeCasts_S1_S1x1) (pass_main_arg12_12_0 m ρ c))

theorem v38_14 (c : Dev nD) : W14 m ρ c (Proc.devRef .tc main_v38) = ycol m ρ c :=
  (W14_arr m ρ c 3).trans ((Cert.Bridge.Reg5.array (V13 m ρ) c).trans
    (congr3 (Cert.Spec.readoutRow (F := Ideal)) ((pass_main_v36_13_12 m ρ c).trans (v36_12 m ρ c)) (pass_main_arg11_13_0 m ρ c) (v37_13 m ρ c)))

/-- The result buffer at the last boundary is the per-graph mean of the read-out column. -/
theorem v48_15 (c : Dev nD) : W15 m ρ c (Proc.devRef .tc main_v48) = out m ρ c :=
  (mean_at (W14 m ρ c)).trans (congr2 (Cert.Spec.graphMean (F := Ideal)) (v38_14 m ρ c) (pass_main_arg4_14_0 m ρ c))

/-! ## Where every source index is a node number, the result is the network -/

theorem out_eq (c : Dev nD) (hsrc : ∀ e : S800000.Idx, 0 ≤ (src m ρ c e).toInt ∧ (src m ρ c e).toInt < 50000) :
    out m ρ c = Cert.Spec.network (F := Ideal) (X m ρ c main_arg0) (X m ρ c main_arg1) (X m ρ c main_arg2) (X m ρ c main_arg3) (X m ρ c main_arg4) (X m ρ c main_arg5) (X m ρ c main_arg6) (X m ρ c main_arg7) (X m ρ c main_arg8) (X m ρ c main_arg9) (X m ρ c main_arg10) (X m ρ c main_arg11) (X m ρ c main_arg12) := by
  have e0 : Cert.Bridge.Take.takeFill (h0 m ρ c) (src m ρ c) = Cert.Spec.gatherRows (h0 m ρ c) (src m ρ c) :=
    Cert.Bridge.Take.takeFill_eq _ _ hsrc
  have e1 : Cert.Bridge.Take.takeFill (h1 m ρ c) (src m ρ c) = Cert.Spec.gatherRows (h1 m ρ c) (src m ρ c) :=
    Cert.Bridge.Take.takeFill_eq _ _ hsrc
  unfold out ycol h2 msg1
  rw [e1]
  unfold h1 msg0
  rw [e0]
  unfold h0 src dst
  have r6 : row (X m ρ c main_arg6) = Cert.Spec.asRow (X m ρ c main_arg6) := Cert.Bridge.Take.reshape_row (F := Ideal) _
  have r12 : (shapeCast S1x1 ((X m ρ c main_arg12) : FVec Ideal S1 .f32) shapeCasts_S1_S1x1 : FVec Ideal S1x1 .f32)
      = broadcastInDim Cert.ReferenceIdeal.S1x1 ![1] Cert.ReferenceIdeal.Facts₀.bcast_S1_S1x1_1 (X m ρ c main_arg12) :=
    Cert.Bridge.Take.reshape_one (F := Ideal) _
  rw [r6, r12]
  simp only [row, Cert.Bridge.Take.reshape_row]
  rfl

end Cert.Bridge.Chain

end
-- ==== Proof.RefRun.lean ====
/-
  The jnp program's run, read back: its @main is a straight line of host operations (the two helper functions it
  calls written out at their calls), so every execution ends with each buffer at the operations' composed value of
  the launch arguments; the result buffer's value is the network of Proof/Spec.lean, stage for stage.
-/
import proofs.«421754_j82609400971716_2_alg».proof.Proof.Gen.ReferenceIdeal
import proofs.«421754_j82609400971716_2_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 109 operations in order, the three calls of the leaky slope written out. Each call is seven: the scalar
    zero and its broadcast, the comparison `v ≥ 0`, the slope converted to its own type and broadcast, the product
    `slope · v`, and the inner function's select — into that call's own buffers, the select's into the buffer the
    call returns. Around them: the two rows of the edge pair and the node features (5), the read-in layer with the
    slope's constant (5), then per round the gather index and the gathered rows (9), the edge message (7), its sum at
    the destinations from zero (4), the node update before the slope with the slope's constant (10), and last the
    read-out (4) and the per-graph mean (14): 17 + 2 · 37 + 18 = 109 with the calls' sevens. -/
abbrev ops : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg1 main_v4 ((fun a b => concatenate S50000x12 1 [⟨S50000x8, a⟩, ⟨S50000x4, b⟩] concatenates_S50000x8_S50000x4_S50000x12_d1) : (⟨S50000x8, .f32⟩ : BufTy).Contents (Elt F) → (⟨S50000x4, .f32⟩ : BufTy).Contents (Elt F) → (⟨S50000x12, .f32⟩ : BufTy).Contents (Elt F)),
    binary main_v4 main_arg5 main_v5 ((fun l r => Host.dotGeneral dot_S50000x12_S12x64_S50000x64_1_0_0_1_n_n none l r) : (⟨S50000x12, .f32⟩ : BufTy).Contents (Elt F) → (⟨S12x64, .f32⟩ : BufTy).Contents (Elt F) → (⟨S50000x64, .f32⟩ : BufTy).Contents (Elt F)),
    unary main_arg6 main_v6 (broadcastInDim S1x64 ![1] bcast_S64_S1x64_1 : (⟨S64, .f32⟩ : BufTy).Contents (Elt F) → (⟨S1x64, .f32⟩ : BufTy).Contents (Elt F)),
    unary main_v6 main_v7 (broadcastInDim S50000x64 ![0, 1] bcast_S1x64_S50000x64_0_1 : (⟨S1x64, .f32⟩ : BufTy).Contents (Elt F) → (⟨S50000x64, .f32⟩ : BufTy).Contents (Elt F)),
    binary main_v5 main_v7 main_v8 (addf : (⟨S50000x64, .f32⟩ : BufTy).Contents (Elt F) → (⟨S50000x64, .f32⟩ : BufTy).Contents (Elt F) → (⟨S50000x64, .f32⟩ : BufTy).Contents (Elt F)),
    nullary main_cst (constant S_ .f32 0x3C23D70A#32),
    TRef.nullary main_call0.cst (constant S_ .f32 0x00000000#32),
    TRef.unary main_call0.cst main_call0.v0 (broadcastInDim S50000x64 ![] bcast_S_S50000x64),
    TRef.binary (.of main_v8) main_call0.v0 main_call0.v1 (cmpf .oge),
    TRef.unary (.of main_cst) main_call0.v2 id,
    TRef.unary main_call0.v2 main_call0.v3 (broadcastInDim S50000x64 ![] bcast_S_S50000x64),
    TRef.binary main_call0.v3 (.of main_v8) main_call0.v4 mulf,
    TRef.ternary main_call0.v1 (.of main_v8) main_call0.v4 main_call0.call0.v0 select,
    nullary main_c (constantI S_ 32 0#32),
    unary main_c main_v10 (broadcastInDim S800000 ![] bcast_S_S800000 : (⟨S_, .i32⟩ : BufTy).Contents (Elt F) → (⟨S800000, .i32⟩ : BufTy).Contents (Elt F)),
    binary main_v1 main_v10 main_v11 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v12 (broadcastInDim S800000 ![] bcast_S_S800000 : (⟨S_, .i32⟩ : BufTy).Contents (Elt F) → (⟨S800000, .i32⟩ : BufTy).Contents (Elt F)),
    binary main_v1 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_v1 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    binary main_v9 main_v15 main_v16 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_arg8 main_v17 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v17 main_v18 rfl shapeCasts_S1x64x64_S64x64,
    binary main_v16 main_v18 main_v19 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg9 main_v20 ((extractStridedSlice S1x12x64 ![0, 0, 0] · slices_S2x12x64_S1x12x64_0_0_0) : (⟨S2x12x64, .f32⟩ : BufTy).Contents (Elt F) → (⟨S1x12x64, .f32⟩ : BufTy).Contents (Elt F)),
    reshape main_v20 main_v21 rfl shapeCasts_S1x12x64_S12x64,
    binary main_arg3 main_v21 main_v22 ((fun l r => Host.dotGeneral dot_S800000x12_S12x64_S800000x64_1_0_0_1_n_n none l r) : (⟨S800000x12, .f32⟩ : BufTy).Contents (Elt F) → (⟨S12x64, .f32⟩ : BufTy).Contents (Elt F) → (⟨S800000x64, .f32⟩ : BufTy).Contents (Elt F)),
    binary main_v19 main_v22 main_v23 (addf : (⟨S800000x64, .f32⟩ : BufTy).Contents (Elt F) → (⟨S800000x64, .f32⟩ : BufTy).Contents (Elt F) → (⟨S800000x64, .f32⟩ : BufTy).Contents (Elt F)),
    nullary main_cst_1 (constant S_ .f32 0x00000000#32),
    unary main_cst_1 main_v24 (broadcastInDim S50000x64 ![] bcast_S_S50000x64 : (⟨S_, .f32⟩ : BufTy).Contents (Elt F) → (⟨S50000x64, .f32⟩ : BufTy).Contents (Elt F)),
    unary main_v3 main_v25 (broadcastInDim S800000x1 ![0] bcast_S800000_S800000x1_0 : (⟨S800000, .i32⟩ : BufTy).Contents (Elt F) → (⟨S800000x1, .i32⟩ : BufTy).Contents (Elt F)),
    ternary main_v24 main_v25 main_v23 main_v26 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg7 main_v27 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v27 main_v28 rfl shapeCasts_S1x64x64_S64x64,
    binary main_v9 main_v28 main_v29 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v29 main_v26 main_v30 (addf : (⟨S50000x64, .f32⟩ : BufTy).Contents (Elt F) → (⟨S50000x64, .f32⟩ : BufTy).Contents (Elt F) → (⟨S50000x64, .f32⟩ : BufTy).Contents (Elt F)),
    unary main_arg10 main_v31 ((extractStridedSlice S1x64 ![0, 0] · slices_S2x64_S1x64_0_0) : (⟨S2x64, .f32⟩ : BufTy).Contents (Elt F) → (⟨S1x64, .f32⟩ : BufTy).Contents (Elt F)),
    reshape main_v31 main_v32 rfl shapeCasts_S1x64_S64,
    unary main_v32 main_v33 (broadcastInDim S1x64 ![1] bcast_S64_S1x64_1 : (⟨S64, .f32⟩ : BufTy).Contents (Elt F) → (⟨S1x64, .f32⟩ : BufTy).Contents (Elt F)),
    unary main_v33 main_v34 (broadcastInDim S50000x64 ![0, 1] bcast_S1x64_S50000x64_0_1 : (⟨S1x64, .f32⟩ : BufTy).Contents (Elt F) → (⟨S50000x64, .f32⟩ : BufTy).Contents (Elt F)),
    binary main_v30 main_v34 main_v35 (addf : (⟨S50000x64, .f32⟩ : BufTy).Contents (Elt F) → (⟨S50000x64, .f32⟩ : BufTy).Contents (Elt F) → (⟨S50000x64, .f32⟩ : BufTy).Contents (Elt F)),
    nullary main_cst_2 (constant S_ .f32 0x3C23D70A#32),
    TRef.nullary main_call1.cst (constant S_ .f32 0x00000000#32),
    TRef.unary main_call1.cst main_call1.v0 (broadcastInDim S50000x64 ![] bcast_S_S50000x64),
    TRef.binary (.of main_v35) main_call1.v0 main_call1.v1 (cmpf .oge),
    TRef.unary (.of main_cst_2) main_call1.v2 id,
    TRef.unary main_call1.v2 main_call1.v3 (broadcastInDim S50000x64 ![] bcast_S_S50000x64),
    TRef.binary main_call1.v3 (.of main_v35) main_call1.v4 mulf,
    TRef.ternary main_call1.v1 (.of main_v35) main_call1.v4 main_call1.call0.v0 select,
    nullary main_c_3 (constantI S_ 32 0#32),
    unary main_c_3 main_v37 (broadcastInDim S800000 ![] bcast_S_S800000 : (⟨S_, .i32⟩ : BufTy).Contents (Elt F) → (⟨S800000, .i32⟩ : BufTy).Contents (Elt F)),
    binary main_v1 main_v37 main_v38 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v39 (broadcastInDim S800000 ![] bcast_S_S800000 : (⟨S_, .i32⟩ : BufTy).Contents (Elt F) → (⟨S800000, .i32⟩ : BufTy).Contents (Elt F)),
    binary main_v1 main_v39 main_v40 (addi : (⟨S800000, .i32⟩ : BufTy).Contents (Elt F) → (⟨S800000, .i32⟩ : BufTy).Contents (Elt F) → (⟨S800000, .i32⟩ : BufTy).Contents (Elt F)),
    ternary main_v38 main_v40 main_v1 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v41 main_v42 (broadcastInDim S800000x1 ![0] bcast_S800000_S800000x1_0 : (⟨S800000, .i32⟩ : BufTy).Contents (Elt F) → (⟨S800000x1, .i32⟩ : BufTy).Contents (Elt F)),
    binary main_v36 main_v42 main_v43 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_arg8 main_v44 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v44 main_v45 rfl shapeCasts_S1x64x64_S64x64,
    binary main_v43 main_v45 main_v46 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg9 main_v47 ((extractStridedSlice S1x12x64 ![1, 0, 0] · slices_S2x12x64_S1x12x64_1_0_0) : (⟨S2x12x64, .f32⟩ : BufTy).Contents (Elt F) → (⟨S1x12x64, .f32⟩ : BufTy).Contents (Elt F)),
    reshape main_v47 main_v48 rfl shapeCasts_S1x12x64_S12x64,
    binary main_arg3 main_v48 main_v49 ((fun l r => Host.dotGeneral dot_S800000x12_S12x64_S800000x64_1_0_0_1_n_n none l r) : (⟨S800000x12, .f32⟩ : BufTy).Contents (Elt F) → (⟨S12x64, .f32⟩ : BufTy).Contents (Elt F) → (⟨S800000x64, .f32⟩ : BufTy).Contents (Elt F)),
    binary main_v46 main_v49 main_v50 (addf : (⟨S800000x64, .f32⟩ : BufTy).Contents (Elt F) → (⟨S800000x64, .f32⟩ : BufTy).Contents (Elt F) → (⟨S800000x64, .f32⟩ : BufTy).Contents (Elt F)),
    nullary main_cst_5 (constant S_ .f32 0x00000000#32),
    unary main_cst_5 main_v51 (broadcastInDim S50000x64 ![] bcast_S_S50000x64 : (⟨S_, .f32⟩ : BufTy).Contents (Elt F) → (⟨S50000x64, .f32⟩ : BufTy).Contents (Elt F)),
    unary main_v3 main_v52 (broadcastInDim S800000x1 ![0] bcast_S800000_S800000x1_0 : (⟨S800000, .i32⟩ : BufTy).Contents (Elt F) → (⟨S800000x1, .i32⟩ : BufTy).Contents (Elt F)),
    ternary main_v51 main_v52 main_v50 main_v53 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg7 main_v54 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v54 main_v55 rfl shapeCasts_S1x64x64_S64x64,
    binary main_v36 main_v55 main_v56 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v56 main_v53 main_v57 (addf : (⟨S50000x64, .f32⟩ : BufTy).Contents (Elt F) → (⟨S50000x64, .f32⟩ : BufTy).Contents (Elt F) → (⟨S50000x64, .f32⟩ : BufTy).Contents (Elt F)),
    unary main_arg10 main_v58 ((extractStridedSlice S1x64 ![1, 0] · slices_S2x64_S1x64_1_0) : (⟨S2x64, .f32⟩ : BufTy).Contents (Elt F) → (⟨S1x64, .f32⟩ : BufTy).Contents (Elt F)),
    reshape main_v58 main_v59 rfl shapeCasts_S1x64_S64,
    unary main_v59 main_v60 (broadcastInDim S1x64 ![1] bcast_S64_S1x64_1 : (⟨S64, .f32⟩ : BufTy).Contents (Elt F) → (⟨S1x64, .f32⟩ : BufTy).Contents (Elt F)),
    unary main_v60 main_v61 (broadcastInDim S50000x64 ![0, 1] bcast_S1x64_S50000x64_0_1 : (⟨S1x64, .f32⟩ : BufTy).Contents (Elt F) → (⟨S50000x64, .f32⟩ : BufTy).Contents (Elt F)),
    binary main_v57 main_v61 main_v62 (addf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x3C23D70A#32),
    TRef.nullary main_call2.cst (constant S_ .f32 0x00000000#32),
    TRef.unary main_call2.cst main_call2.v0 (broadcastInDim S50000x64 ![] bcast_S_S50000x64),
    TRef.binary (.of main_v62) main_call2.v0 main_call2.v1 (cmpf .oge),
    TRef.unary (.of main_cst_6) main_call2.v2 id,
    TRef.unary main_call2.v2 main_call2.v3 (broadcastInDim S50000x64 ![] bcast_S_S50000x64),
    TRef.binary main_call2.v3 (.of main_v62) main_call2.v4 mulf,
    TRef.ternary main_call2.v1 (.of main_v62) main_call2.v4 main_call2.call0.v0 select,
    binary main_v63 main_arg11 main_v64 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg12 main_v65 (broadcastInDim S1x1 ![1] bcast_S1_S1x1_1 : (⟨S1, .f32⟩ : BufTy).Contents (Elt F) → (⟨S1x1, .f32⟩ : BufTy).Contents (Elt F)),
    unary main_v65 main_v66 (broadcastInDim S50000x1 ![0, 1] bcast_S1x1_S50000x1_0_1 : (⟨S1x1, .f32⟩ : BufTy).Contents (Elt F) → (⟨S50000x1, .f32⟩ : BufTy).Contents (Elt F)),
    binary main_v64 main_v66 main_v67 (addf : (⟨S50000x1, .f32⟩ : BufTy).Contents (Elt F) → (⟨S50000x1, .f32⟩ : BufTy).Contents (Elt F) → (⟨S50000x1, .f32⟩ : BufTy).Contents (Elt F)),
    nullary main_cst_7 (constant S_ .f32 0x00000000#32),
    unary main_cst_7 main_v68 (broadcastInDim S128x1 ![] bcast_S_S128x1 : (⟨S_, .f32⟩ : BufTy).Contents (Elt F) → (⟨S128x1, .f32⟩ : BufTy).Contents (Elt F)),
    unary main_arg4 main_v69 (broadcastInDim S50000x1 ![0] bcast_S50000_S50000x1_0 : (⟨S50000, .i32⟩ : BufTy).Contents (Elt F) → (⟨S50000x1, .i32⟩ : BufTy).Contents (Elt F)),
    ternary main_v68 main_v69 main_v67 main_v70 ((fun x i u => Host.scatterAdd scatter_S128x1_S50000x1_S50000x1_1_0_0_1 x i u) : (⟨S128x1, .f32⟩ : BufTy).Contents (Elt F) → (⟨S50000x1, .i32⟩ : BufTy).Contents (Elt F) → (⟨S50000x1, .f32⟩ : BufTy).Contents (Elt F) → (⟨S128x1, .f32⟩ : BufTy).Contents (Elt F)),
    nullary main_cst_8 (constant S_ .f32 0x3F800000#32),
    unary main_cst_8 main_v71 (broadcastInDim S50000x1 ![] bcast_S_S50000x1 : (⟨S_, .f32⟩ : BufTy).Contents (Elt F) → (⟨S50000x1, .f32⟩ : BufTy).Contents (Elt F)),
    nullary main_cst_9 (constant S_ .f32 0x00000000#32),
    unary main_cst_9 main_v72 (broadcastInDim S128x1 ![] bcast_S_S128x1 : (⟨S_, .f32⟩ : BufTy).Contents (Elt F) → (⟨S128x1, .f32⟩ : BufTy).Contents (Elt F)),
    unary main_arg4 main_v73 (broadcastInDim S50000x1 ![0] bcast_S50000_S50000x1_0 : (⟨S50000, .i32⟩ : BufTy).Contents (Elt F) → (⟨S50000x1, .i32⟩ : BufTy).Contents (Elt F)),
    ternary main_v72 main_v73 main_v71 main_v74 ((fun x i u => Host.scatterAdd scatter_S128x1_S50000x1_S50000x1_1_0_0_1 x i u) : (⟨S128x1, .f32⟩ : BufTy).Contents (Elt F) → (⟨S50000x1, .i32⟩ : BufTy).Contents (Elt F) → (⟨S50000x1, .f32⟩ : BufTy).Contents (Elt F) → (⟨S128x1, .f32⟩ : BufTy).Contents (Elt F)),
    nullary main_cst_10 (constant S_ .f32 0x3F800000#32),
    unary main_cst_10 main_v75 (broadcastInDim S128x1 ![] bcast_S_S128x1 : (⟨S_, .f32⟩ : BufTy).Contents (Elt F) → (⟨S128x1, .f32⟩ : BufTy).Contents (Elt F)),
    binary main_v74 main_v75 main_v76 (maximumf : (⟨S128x1, .f32⟩ : BufTy).Contents (Elt F) → (⟨S128x1, .f32⟩ : BufTy).Contents (Elt F) → (⟨S128x1, .f32⟩ : BufTy).Contents (Elt F)),
    binary main_v70 main_v76 main_v77 (Host.divf : (⟨S128x1, .f32⟩ : BufTy).Contents (Elt F) → (⟨S128x1, .f32⟩ : BufTy).Contents (Elt F) → (⟨S128x1, .f32⟩ : BufTy).Contents (Elt F)) ]

set_option maxRecDepth 4096 in
set_option maxHeartbeats 4000000 in
/-- @main is that straight line: the two windows run in order, the functions' definitions unfolded at their calls and
    the records at their fields; both sides are one chain of steps once sequencing is reassociated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., reshape_bufs_sub .., binary_bufs_sub .., unary_bufs_sub ..,
    reshape_bufs_sub .., binary_bufs_sub .., binary_bufs_sub .., nullary_bufs_sub .., unary_bufs_sub .., unary_bufs_sub ..,
    ternary_bufs_sub .., unary_bufs_sub .., reshape_bufs_sub .., binary_bufs_sub .., binary_bufs_sub .., unary_bufs_sub ..,
    reshape_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., binary_bufs_sub ..,
    unary_bufs_sub .., reshape_bufs_sub .., binary_bufs_sub .., binary_bufs_sub .., nullary_bufs_sub .., unary_bufs_sub ..,
    unary_bufs_sub .., ternary_bufs_sub .., unary_bufs_sub .., reshape_bufs_sub .., binary_bufs_sub .., binary_bufs_sub ..,
    unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    binary_bufs_sub ..⟩

/-- From any memory with zero counters every weakly fair execution of @main terminates, each TensorCore buffer at
    the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather Host.scatterAdd in
set_option maxRecDepth 8192 in
set_option maxHeartbeats 4000000 in
/-- The fold at the result buffer is the network of the arguments. Unrolled, each operation's result at the buffer
    it writes is its function of its operands' contents and every other buffer is as before, so the result buffer
    holds the operations' composition over the launch contents: the per-graph quotient of the two sums, over the
    read-out of the second round's rows, over the first round's, over the read-in layer's, over the features — the
    same composition the network's stages spell out (same operations, same dimension records, same operand order,
    same literals; a call's typed references transport along `rfl`, a reshape's index function is its `shapeCast`).
    The gather and the scatter sums stay folded: the equation never looks inside them. -/
theorem out_eq (V : Valuation τ sig (Elt F)) :
    after ops V (main_v77 : DevRef τ sig) = Cert.Spec.network (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results_simp
  rfl

set_option maxRecDepth 8192 in
set_option maxHeartbeats 4000000 in
/-- No operation writes argument 0's buffer: the fold leaves it as it was. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes argument 1's buffer: the fold leaves it as it was. -/
theorem arg1_eq (V : Valuation τ sig (Elt F)) :
    after ops V (main_arg1 : DevRef τ sig) = V (main_arg1 : DevRef τ sig) := by
  after_results_simp

set_option maxRecDepth 8192 in
set_option maxHeartbeats 4000000 in
/-- No operation writes argument 2's buffer: the fold leaves it as it was. -/
theorem arg2_eq (V : Valuation τ sig (Elt F)) :
    after ops V (main_arg2 : DevRef τ sig) = V (main_arg2 : DevRef τ sig) := by
  after_results_simp

set_option maxRecDepth 8192 in
set_option maxHeartbeats 4000000 in
/-- No operation writes argument 3's buffer: the fold leaves it as it was. -/
theorem arg3_eq (V : Valuation τ sig (Elt F)) :
    after ops V (main_arg3 : DevRef τ sig) = V (main_arg3 : DevRef τ sig) := by
  after_results_simp

set_option maxRecDepth 8192 in
set_option maxHeartbeats 4000000 in
/-- No operation writes argument 4's buffer: the fold leaves it as it was. -/
theorem arg4_eq (V : Valuation τ sig (Elt F)) :
    after ops V (main_arg4 : DevRef τ sig) = V (main_arg4 : DevRef τ sig) := by
  after_results_simp

set_option maxRecDepth 8192 in
set_option maxHeartbeats 4000000 in
/-- No operation writes argument 5's buffer: the fold leaves it as it was. -/
theorem arg5_eq (V : Valuation τ sig (Elt F)) :
    after ops V (main_arg5 : DevRef τ sig) = V (main_arg5 : DevRef τ sig) := by
  after_results_simp

set_option maxRecDepth 8192 in
set_option maxHeartbeats 4000000 in
/-- No operation writes argument 6's buffer: the fold leaves it as it was. -/
theorem arg6_eq (V : Valuation τ sig (Elt F)) :
    after ops V (main_arg6 : DevRef τ sig) = V (main_arg6 : DevRef τ sig) := by
  after_results_simp

set_option maxRecDepth 8192 in
set_option maxHeartbeats 4000000 in
/-- No operation writes argument 7's buffer: the fold leaves it as it was. -/
theorem arg7_eq (V : Valuation τ sig (Elt F)) :
    after ops V (main_arg7 : DevRef τ sig) = V (main_arg7 : DevRef τ sig) := by
  after_results_simp

set_option maxRecDepth 8192 in
set_option maxHeartbeats 4000000 in
/-- No operation writes argument 8's buffer: the fold leaves it as it was. -/
theorem arg8_eq (V : Valuation τ sig (Elt F)) :
    after ops V (main_arg8 : DevRef τ sig) = V (main_arg8 : DevRef τ sig) := by
  after_results_simp

set_option maxRecDepth 8192 in
set_option maxHeartbeats 4000000 in
/-- No operation writes argument 9's buffer: the fold leaves it as it was. -/
theorem arg9_eq (V : Valuation τ sig (Elt F)) :
    after ops V (main_arg9 : DevRef τ sig) = V (main_arg9 : DevRef τ sig) := by
  after_results_simp

set_option maxRecDepth 8192 in
set_option maxHeartbeats 4000000 in
/-- No operation writes argument 10's buffer: the fold leaves it as it was. -/
theorem arg10_eq (V : Valuation τ sig (Elt F)) :
    after ops V (main_arg10 : DevRef τ sig) = V (main_arg10 : DevRef τ sig) := by
  after_results_simp

set_option maxRecDepth 8192 in
set_option maxHeartbeats 4000000 in
/-- No operation writes argument 11's buffer: the fold leaves it as it was. -/
theorem arg11_eq (V : Valuation τ sig (Elt F)) :
    after ops V (main_arg11 : DevRef τ sig) = V (main_arg11 : DevRef τ sig) := by
  after_results_simp

set_option maxRecDepth 8192 in
set_option maxHeartbeats 4000000 in
/-- No operation writes argument 12's buffer: the fold leaves it as it was. -/
theorem arg12_eq (V : Valuation τ sig (Elt F)) :
    after ops V (main_arg12 : DevRef τ sig) = V (main_arg12 : DevRef τ sig) := by
  after_results_simp

/-- From any memory with zero counters every weakly fair execution of the jnp program terminates, its result
    buffer at the network's value of the launch arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = Cert.Spec.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v77).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_main m ρ)

end Cert.ReferenceIdeal.RefRun

end
-- ==== Proof.lean ====
/-
  Equivalence of a Pallas message-passing network with its jnp reference, over the extended reals.

  Both programs compute, for 50000 nodes with 64 channels and 800000 edges: a dense read-in layer with a leaky slope;
  two rounds in which every edge gathers its source node's row, maps it and the edge's attributes to a message, the
  messages are added up at their destination nodes, and every node is updated from its own row, its sum of messages
  and a bias; a linear read-out to one number per node; the mean of those numbers per graph. The Pallas program does the
  dense work in six tiled kernels (row blocks of 5000 nodes or 8000 edges; products through bf16 into f32
  accumulators, which at the ideal instance are the exact products) and the gathers and sums on the host; the jnp
  program does everything on the host. A matrix product tiled by rows is the product, a sum is a sum whatever its
  order, so stage by stage the two agree (Proof/Reg0 … Reg5 for the kernels, Proof/KChain for the walk through the
  Pallas program's run, Proof/RefRun for the jnp program's run, Proof/Spec for the stages).

  One difference needs the precondition: the Pallas program's gather guards its index (a row of a fill word where
  the index is outside the node range) and the jnp program's does not (it reads the nearest row). The precondition
  says every source index is a node number, where the two gathers are one (Proof/Take).
-/
import proofs.«421754_j82609400971716_2_alg».proof.Defs
import proofs.«421754_j82609400971716_2_alg».proof.Proof.Gen.Kernel
import proofs.«421754_j82609400971716_2_alg».proof.Proof.Gen.Kernel.Skeleton
import proofs.«421754_j82609400971716_2_alg».proof.Proof.Gen.Kernel.Launch
import proofs.«421754_j82609400971716_2_alg».proof.Proof.Gen.Kernel.Points
import proofs.«421754_j82609400971716_2_alg».proof.Proof.Gen.Kernel.Frame
import proofs.«421754_j82609400971716_2_alg».proof.Proof.Gen.KernelIdeal
import proofs.«421754_j82609400971716_2_alg».proof.Proof.Gen.KernelIdeal.Skeleton
import proofs.«421754_j82609400971716_2_alg».proof.Proof.Gen.KernelIdeal.Launch
import proofs.«421754_j82609400971716_2_alg».proof.Proof.Gen.KernelIdeal.Points
import proofs.«421754_j82609400971716_2_alg».proof.Proof.Gen.KernelIdeal.Frame
import proofs.«421754_j82609400971716_2_alg».proof.Proof.Gen.ReferenceIdeal
import proofs.«421754_j82609400971716_2_alg».proof.Proof.Gen.Pre_finite_inputs
import proofs.«421754_j82609400971716_2_alg».proof.Proof.KRun
import proofs.«421754_j82609400971716_2_alg».proof.Proof.KChain
import proofs.«421754_j82609400971716_2_alg».proof.Proof.RefRun
import proofs.«421754_j82609400971716_2_alg».proof.Proof.Take
import Idealize.ShloMosaic.Adequacy
import Idealize.ShloMosaic.Init

noncomputable section

namespace Cert.Proof

open Idealize.ShloMosaic Idealize.SL.Sem

/-- The Pallas program as printed runs to the end and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The jnp program runs to the end and leaves its arguments alone: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal reading rewrote nothing. -/
theorem preserves : Cert.preserves_Kernel_KernelIdeal := trivial

/-- From memories that agree on the arguments both programs end with the network's value of those arguments: the
    Pallas program by the walk through its run, the guarded gather being the plain one where the precondition puts
    every source index in the node range; the jnp program by its run read back. -/
theorem algebraic : Cert.algebraic_KernelIdeal_ReferenceIdeal := by
  intro m ρ m' ρ' hpre hagree
  refine ⟨fun c => Cert.Spec.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans ((Cert.Bridge.Chain.v48_15 m ρ c).trans
          (Cert.Bridge.Chain.out_eq m ρ c (fun e => Cert.Bridge.Take.src_range m hpre c e))), (h c).2⟩)
      (Cert.KernelIdeal.Run.run_main m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
